-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192 : Shape := ⟨1, ![8192]⟩
abbrev S8192x3 : Shape := ⟨2, ![8192, 3]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x3 : S_.BroadcastsInDim S8192x3 (![] : Fin 0 → Fin S8192x3.rank)
  reducesTo_S8192x3_S_d0_1 : S8192x3.ReducesTo [0, 1] S_

variable [Facts]

def fn {F : FTy → Type} [FloatOps F] (main_arg0 : FVec F S8192x64 .f32) (main_arg1 : IVec S8192 32) (main_arg2 : FVec F S8192x3 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x3 .f32 := Host.absf main_arg2
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x64 : Shape := ⟨2, ![8192, 64]⟩
abbrev S8192 : Shape := ⟨1, ![8192]⟩
abbrev S8192x3 : Shape := ⟨2, ![8192, 3]⟩
abbrev S_ : Shape := ⟨0, ![]⟩
abbrev S8192x1 : Shape := ⟨2, ![8192, 1]⟩
abbrev S8192x5 : Shape := ⟨2, ![8192, 5]⟩
abbrev S1x8192 : Shape := ⟨2, ![1, 8192]⟩
abbrev S512x64 : Shape := ⟨2, ![512, 64]⟩
abbrev S512x5 : Shape := ⟨2, ![512, 5]⟩
abbrev S1x512 : Shape := ⟨2, ![1, 512]⟩
abbrev S512x3 : Shape := ⟨2, ![512, 3]⟩
abbrev S512x1 : Shape := ⟨2, ![512, 1]⟩
abbrev S64x512 : Shape := ⟨2, ![64, 512]⟩
abbrev S512x512 : Shape := ⟨2, ![512, 512]⟩
abbrev S3x512 : Shape := ⟨2, ![3, 512]⟩
abbrev S512 : Shape := ⟨1, ![512]⟩

abbrev nBuf : Space → Nat
  | .hbm => 59
  | .vmem => 15
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S8192x3, .f32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S8192x64, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x64, .f32⟩
  | .hbm, ⟨18, _⟩ => ⟨S8192x64, .f32⟩
  | .hbm, ⟨19, _⟩ => ⟨S8192x64, .bf16⟩
  | .hbm, ⟨20, _⟩ => ⟨S8192x3, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x1, .f32⟩
  | .hbm, ⟨25, _⟩ => ⟨S8192x5, .f32⟩
  | .hbm, ⟨26, _⟩ => ⟨S1x8192, .f32⟩
  | .hbm, ⟨27, _⟩ => ⟨S1x8192, .f32⟩
  | .hbm, ⟨28, _⟩ => ⟨S8192x3, .f32⟩
  | .hbm, ⟨29, _⟩ => ⟨S8192x1, .f32⟩
  | .hbm, ⟨30, _⟩ => ⟨S8192, .f32⟩
  | .hbm, ⟨31, _⟩ => ⟨S8192x1, .f32⟩
  | .hbm, ⟨32, _⟩ => ⟨S8192, .f32⟩
  | .hbm, ⟨33, _⟩ => ⟨S8192x1, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S512x64, .bf16⟩
  | .local _ .vmem, ⟨1, _⟩ => ⟨S512x64, .bf16⟩
  | .local _ .vmem, ⟨2, _⟩ => ⟨S512x64, .bf16⟩
  | .local _ .vmem, ⟨3, _⟩ => ⟨S512x64, .bf16⟩
  | .local _ .vmem, ⟨4, _⟩ => ⟨S512x5, .f32⟩
  | .local _ .vmem, ⟨5, _⟩ => ⟨S512x5, .f32⟩
  | .local _ .vmem, ⟨6, _⟩ => ⟨S512x5, .f32⟩
  | .local _ .vmem, ⟨7, _⟩ => ⟨S512x5, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x3, .f32⟩
  | .local _ .vmem, ⟨13, _⟩ => ⟨S512x3, .f32⟩
  | .local _ .vmem, ⟨14, _⟩ => ⟨S512x3, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v72 : BitVec 1 := Scalar.cmpi .eq arg1 c15_i32
  let v73 : BitVec 32 := Scalar.extui v72
  let c0_i32_29 : BitVec 32 := 0#32
  let v74 : BitVec 1 := Scalar.cmpi .ne v73 c0_i32_29
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S8192 : S_.BroadcastsInDim S8192 (![] : Fin 0 → Fin S8192.rank)
  reducesTo_S8192_S_d0 : S8192.ReducesTo [0] S_
  h_S_ : 0 < S_.numel
  reducesTo_S8192x64_S8192_d1 : S8192x64.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  bitsLt_bf16_f32 : FTy.bits .bf16 < FTy.bits .f32
  reducesTo_S8192x3_S8192_d1 : S8192x3.ReducesTo [1] S8192
  concatenates_S8192x3_S8192x1_S8192x1_S8192x5_d1 : Shape.Concatenates [S8192x3, S8192x1, S8192x1] S8192x5 1
  shapeCasts_S8192_S1x8192 : S8192.ShapeCasts S1x8192
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x5_S512x5_0_0 : ∀ a, (![0, 0] : Fin 2 → Nat) a + S512x5.size a ≤ S512x5.size a
  h_S512x5 : 0 < S512x5.numel
  shapeCasts_S512x5_S512x5 : S512x5.ShapeCasts S512x5
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S512x5_o0_0_S512x3 : S512x5.Slices ![0, 0] S512x3
  slices_S512x5_o0_3_S512x1 : S512x5.Slices ![0, 3] S512x1
  slices_S512x5_o0_4_S512x1 : S512x5.Slices ![0, 4] S512x1
  transposes_S512x64_p1_0_S64x512 : S512x64.Transposes [1, 0] S64x512
  transposes_S512x3_p1_0_S3x512 : S512x3.Transposes [1, 0] S3x512
  broadcasts_S512x1_S512x512 : S512x1.Broadcasts S512x512
  broadcasts_S1x512_S512x512 : S1x512.Broadcasts S512x512
  natLt_1_32 : 1 < 32
  reduces_S512x512_S512 : S512x512.Reduces [1] S512
  shapeCasts_S512_S512x1 : S512.ShapeCasts S512x1
  concatenates_S512x1_S512x1_S512x1_S512x3_d1 : Shape.Concatenates [S512x1, S512x1, S512x1] S512x3 1
  slices_S8192x3_S8192x1_0_0 : S8192x3.Slices ![0, 0] S8192x1
  shapeCasts_S8192x1_S8192 : S8192x1.ShapeCasts S8192
  slices_S8192x3_S8192x1_0_1 : S8192x3.Slices ![0, 1] S8192x1
  slices_S8192x3_S8192x1_0_2 : S8192x3.Slices ![0, 2] S8192x1
  dot_S512x64_S64x512_S512x512_1_0_0_1_n_n_wf : DotDims.WF S512x64 S64x512 S512x512 [1] [0] [0] [1] [] []
  dot_S512x3_S3x512_S512x512_1_0_0_1_n_n_wf : DotDims.WF S512x3 S3x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .bf16 = 32 ∨ (Rect.block (s := S8192x64) S512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S8192x64.size a
  hwx0_1 : ∀ i : grid0.Coords, EltTy.bits .bf16 = 32 ∨ (Rect.block (s := S8192x64) S512x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x5.size a ≤ S8192x5.size a
  hwx0_2 : ∀ i : grid0.Coords, EltTy.bits .f32 = 32 ∨ (Rect.block (s := S8192x5) S512x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x5.size a ≤ S8192x5.size a
  hwx0_3 : ∀ i : grid0.Coords, EltTy.bits .f32 = 32 ∨ (Rect.block (s := S8192x5) S512x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x3.size a ≤ S8192x3.size a
  hwx0_6 : ∀ i : grid0.Coords, EltTy.bits .f32 = 32 ∨ (Rect.block (s := S8192x3) S512x3.size (cc0_transform_6 i) (hinb0_6 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x3_S3x512_S512x512_1_0_0_1_n_n : DotDims S512x3 S3x512 S512x512 where
  lhsContracting := [1]
  rhsContracting := [0]
  lhsNonContracting := [0]
  rhsNonContracting := [1]
  lhsBatch := []
  rhsBatch := []
  wf := dot_S512x3_S3x512_S512x512_1_0_0_1_n_n_wf

abbrev win0_0 : Pipeline.Window sig grid0 :=
  Pipeline.Window.ofSpec (Memref.whole main_v9) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x5.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17) S512x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x64 : Shape := ⟨2, ![8192, 64]⟩
abbrev S8192 : Shape := ⟨1, ![8192]⟩
abbrev S8192x3 : Shape := ⟨2, ![8192, 3]⟩
abbrev S_ : Shape := ⟨0, ![]⟩
abbrev S8192x1 : Shape := ⟨2, ![8192, 1]⟩
abbrev S64x8192 : Shape := ⟨2, ![64, 8192]⟩
abbrev S8192x8192 : Shape := ⟨2, ![8192, 8192]⟩
abbrev S1x8192 : Shape := ⟨2, ![1, 8192]⟩
abbrev S3x8192 : Shape := ⟨2, ![3, 8192]⟩

abbrev nBuf : Space → Nat
  | .hbm => 100
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S8192x3, .f32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S8192x64, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x64, .f32⟩
  | .hbm, ⟨18, _⟩ => ⟨S8192x64, .f32⟩
  | .hbm, ⟨19, _⟩ => ⟨S64x8192, .f32⟩
  | .hbm, ⟨20, _⟩ => ⟨S8192x8192, .f32⟩
  | .hbm, ⟨21, _⟩ => ⟨S8192x3, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S3x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x1, .i1⟩
  | .hbm, ⟨39, _⟩ => ⟨S1x8192, .i1⟩
  | .hbm, ⟨40, _⟩ => ⟨S8192x8192, .i1⟩
  | .hbm, ⟨41, _⟩ => ⟨S8192x8192, .i1⟩
  | .hbm, ⟨42, _⟩ => ⟨S8192x8192, .i1⟩
  | .hbm, ⟨43, _⟩ => ⟨S_, .f32⟩
  | .hbm, ⟨44, _⟩ => ⟨S8192x8192, .f32⟩
  | .hbm, ⟨45, _⟩ => ⟨S8192x8192, .i1⟩
  | .hbm, ⟨46, _⟩ => ⟨S_, .f32⟩
  | .hbm, ⟨47, _⟩ => ⟨S8192x8192, .f32⟩
  | .hbm, ⟨48, _⟩ => ⟨S8192x8192, .i1⟩
  | .hbm, ⟨49, _⟩ => ⟨S8192x8192, .i1⟩
  | .hbm, ⟨50, _⟩ => ⟨S8192x8192, .i1⟩
  | .hbm, ⟨51, _⟩ => ⟨S8192x8192, .i1⟩
  | .hbm, ⟨52, _⟩ => ⟨S8192x8192, .i1⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S8192, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S8192x8192, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_call1_v0 : Ref sig .tc := ⟨.hbm, 71, rfl⟩
abbrev main_call1_v1 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  reducesTo_S8192_S_d0 : S8192.ReducesTo [0] S_
  h_S_ : 0 < S_.numel
  reducesTo_S8192x64_S8192_d1 : S8192x64.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  reducesTo_S8192x3_S8192_d1 : S8192x3.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S8192_d1 : S8192x8192.ReducesTo [1] S8192
  reducesTo_S8192x8192_S_d0_1 : S8192x8192.ReducesTo [0, 1] S_
  dot_S8192x64_S64x8192_S8192x8192_1_0_0_1_n_n_wf : DotDims.WF S8192x64 S64x8192 S8192x8192 [1] [0] [0] [1] [] []
  dot_S8192x3_S3x8192_S8192x8192_1_0_0_1_n_n_wf : DotDims.WF S8192x3 S3x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.K.Base.lean ====
/-
  What the three control cases of the kernel body share.

  The kernel runs on a 16 × 16 grid, point `t` at row tile `t / 16` and column tile `t % 16`. Its body resets a 512 × 3
  accumulator at the first column tile of a row (`t % 16 = 0`), adds one tile's three partial row sums to it at every
  point, and copies it into the output block at the row's last column tile (`t % 16 = 15`). Stated here: the buffer
  contents the region is entered with (the host operations before it applied to the launch memory), each window's
  block of its array at a point, the two conditions in closed form, where the output window is idle, and the names of
  the staging and scratch buffers the cases' runs are stated over.
-/
import proofs.«109491_j86354612453531_1_alg».proof.Proof.Gen.Kernel.Launch
import proofs.«109491_j86354612453531_1_alg».proof.Proof.Gen.Kernel.Skeleton
import proofs.«109491_j86354612453531_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation; -/
abbrev W0 (c : Dev nD) : Valuation τ sig (Elt F) := fun b => m (c, b)
/-- and when the region is entered: the three stretches of host operations before it have run. -/
abbrev V0 (c : Dev nD) : Valuation τ sig (Elt F) :=
  StableHlo.after hostOps0_2 (StableHlo.after hostOps0_1 (StableHlo.after hostOps0 (W0 m c)))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the row's first column tile", as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the row's last column tile". -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from a row's last column tile the body stores nothing into the output block, and the block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At a row's last column tile it stores the whole block. -/
theorem liveAt0_6 : ∀ t : Fin cfg0.N, cond0_1 (grid0.coords t) → cfg0.idle 6 (grid0.coords t) = false := by decide +kernel

/-! ## The buffers the body is called with -/

abbrev ms0_0 (t : Fin cfg0.N) : Memref sig .tc .vmem S512x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x5 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x3 .f32 := win0_6.stage (cfg0.slots t 6)
abbrev hs0_6 (t : Fin cfg0.N) : (ms0_6 t).IsWhole := hstage0_6 ((cfg0.slots t 6).cast nbuf0_6)
/-- One staging buffer of the output window, through which its contents are stated. -/
abbrev VO0_6 : View sig .tc .vmem S512x3 .f32 := (Memref.whole cc0_stg6_0 : Memref sig .tc .vmem S512x3 .f32).view
/-- The accumulator: a scratch buffer of the kernel's own, carried from point to point. -/
abbrev scM0_0 : Memref sig .tc .vmem S512x3 .f32 := Memref.whole cc0_scratch0
abbrev VS0_0 : View sig .tc .vmem S512x3 .f32 := scM0_0.view

/-- What the region's invariant holds before the first point: the accumulator at anything, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The kernel body run at a row's first column tile: the accumulator, whatever it held, is reset and the tile's partial sums added to the zeros; the output block is left as found.
  The run is symbolic: on whole staging buffers holding the six input blocks, it ends holding them unchanged, the
  accumulator with the body's stores written over it (the list of pieces the run finds), and the output block as said.
-/
import proofs.«109491_j86354612453531_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun0_A (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) :
    Σ' (L6 : List (View.Piece (Elt F) S512x3 .f32)), { LS0 : List (View.Piece (Elt F) S512x3 .f32) //
      ∀ (xi6 : Vec F S512x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__plcc_kernel i arg2 harg2 arg3 harg3 arg4 harg4 arg5 harg5 arg6 harg6 arg7 harg7 arg8 harg8 arg9 harg9) K } := by
  refine ⟨[], ?_, fun xi6 E K => ?run⟩
  case run =>
    simp only [cc0__plcc_kernel_eq_skeleton]; unfold cc0__plcc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.RunB.lean ====
/-
  The kernel body run at a column tile that is neither a row's first nor its last: the tile's partial sums are added to what the point before left in the accumulator; the output block is left as found.
  The run is symbolic: on whole staging buffers holding the six input blocks, it ends holding them unchanged, the
  accumulator with the body's stores written over it (the list of pieces the run finds), and the output block as said.
-/
import proofs.«109491_j86354612453531_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun0_B (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) :
    Σ' (L6 : List (View.Piece (Elt F) S512x3 .f32)), { LS0 : List (View.Piece (Elt F) S512x3 .f32) //
      ∀ (xi6 : Vec F S512x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__plcc_kernel i arg2 harg2 arg3 harg3 arg4 harg4 arg5 harg5 arg6 harg6 arg7 harg7 arg8 harg8 arg9 harg9) K } := by
  refine ⟨[], ?_, fun xi6 E K => ?run⟩
  case run =>
    simp only [cc0__plcc_kernel_eq_skeleton]; unfold cc0__plcc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.RunC.lean ====
/-
  The kernel body run at a row's last column tile: the tile's partial sums are added to what the point before left in the accumulator, and the accumulator is copied into the output block.
  The run is symbolic: on whole staging buffers holding the six input blocks, it ends holding them unchanged, the
  accumulator with the body's stores written over it (the list of pieces the run finds), and the output block as said.
-/
import proofs.«109491_j86354612453531_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun0_C (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) :
    Σ' (L6 : List (View.Piece (Elt F) S512x3 .f32)), { LS0 : List (View.Piece (Elt F) S512x3 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__plcc_kernel i arg2 harg2 arg3 harg3 arg4 harg4 arg5 harg5 arg6 harg6 arg7 harg7 arg8 harg8 arg9 harg9) K } := by
  refine ⟨?_, ?_, fun E K => ?run⟩
  case run =>
    simp only [cc0__plcc_kernel_eq_skeleton]; unfold cc0__plcc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.Frame.lean ====
/-
  The kernel body at every grid point, and the proof data of the pipeline.

  What each control case leaves in the accumulator (and, at a row's last column tile, in the output block) is the read-back of
  the stores its run found. `outsAt0` follows both through the grid by recursion on the point: at a row's first column tile the
  accumulator restarts, elsewhere it continues from what the point before left. The region's invariant holds the
  accumulator at that value between points. The body obligation at a point is the run of the point's case.
-/
import proofs.«109491_j86354612453531_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Case A stores nothing into the output block: a placeholder that nothing consults. -/
def out0_A_6 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) : Vec F S512x3 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4 x5).1)

/-- Case A's stores cover the accumulator. -/
theorem scover0_A_0 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) (y : S512x3.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S512x3.size (by sl_kernel_rfl) y

/-- What case A leaves in the accumulator. -/
def sout0_A_0 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) : Vec F S512x3 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- Case B stores nothing into the output block: a placeholder that nothing consults. -/
def out0_B_6 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) : Vec F S512x3 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 x5 xs0).1)

/-- Case B's stores cover the accumulator. -/
theorem scover0_B_0 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) (y : S512x3.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S512x3.size (by sl_kernel_rfl) y

/-- What case B leaves in the accumulator. -/
def sout0_B_0 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) : Vec F S512x3 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-- Case C's store covers the output block. -/
theorem cover0_C_6 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) (y : S512x3.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S512x3.size (by sl_kernel_rfl) y

/-- What case C leaves in the output block. -/
def out0_C_6 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) : Vec F S512x3 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 x5 xs0).1)

/-- Case C's stores cover the accumulator. -/
theorem scover0_C_0 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) (y : S512x3.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S512x3.size (by sl_kernel_rfl) y

/-- What case C leaves in the accumulator. -/
def sout0_C_0 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) : Vec F S512x3 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 x5 xs0).2.1)

/-! ## What the output block and the accumulator hold after each point -/

/-- After the body at position `n`: the output block (a placeholder away from a row's last column tile) and the accumulator. -/
def outsAt0 (c : Dev nD) : (n : ℕ) → n < cfg0.N → Vec F S512x3 .f32 × Vec F S512x3 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      if h1 : (n + 1) % 16 = 15 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 16 = 15 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

theorem outsAt0_A (c : Dev nD) (t : Fin cfg0.N) (h0 : t.val % 16 = 0) (h1 : ¬t.val % 16 = 15) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards what the
    point before left in it. The generator register rides along. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body each input's buffer at its block and the output's at
    `outsAt0`; the invariant `PhiS`; nothing owed. The two windows on the normalised features, and the two on the
    coordinate rows, each read their array at half the share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' buffers hold their blocks; `t % 16` says which case the point is in; the invariant
    hands the body the accumulator (at anything at the very first point, else at what the point before left) and takes it
    back at this point's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 16 = 0
  · have h1 : ¬t.val % 16 = 15 := by omega
    rw [Dat.leavesExact_idle (dats m 0 c) 6 t (idleAt0_6 t (fun h => h1 ((hcond0_1 t).mp h))) (noFlush0_6 t (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 16 = 15
    · rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold out0_C_6 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _)
    · rw [Dat.leavesExact_idle (dats m 0 c) 6 t (idleAt0_6 t (fun h => h1 ((hcond0_1 t).mp h))) (noFlush0_6 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is the accumulator at anything and the generator register. -/
theorem Phi_in (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point it gives them back, the accumulator's value forgotten. -/
theorem Phi_out (c : Dev nD) : (dats m 0 c).Φ (Fin.last cfg0.N) ⊢ Pipeline.ΦA spec0 c := by
  have hz : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ hz, PhiA0_eq]
  iintro ⟨HS0, Hg⟩
  isplitl [HS0]
  · iexists _; iexact HS0
  iexact Hg

end Cert.Kernel.Hand

end
-- ==== Proof.K.Launch.lean ====
/-
  The launch: @main as three stretches of host operations, the kernel region, and three more stretches.

  Each stretch runs over the core's unscoped buffers held whole at a valuation and moves the valuation by the
  operations' fold. The region is entered by dealing its windows their arrays: the normalised features and the
  coordinate rows are each read by two windows, which take half the share each; the row-laid squared norms, the
  row-laid mask and the result array go to one window each, whole. It is left by joining the halves again and putting
  the result array's final contents into the valuation. The final memory holds the program's result at the last
  stretch's fold, and the three arguments as launched.
-/
import proofs.«109491_j86354612453531_1_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

abbrev EP : Emb (UR sig nD τ) (MT nD τ sig Unit (Elt F) ℕ (UR sig nD τ) ℕ) := emb₁
abbrev Lv : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through every stretch: the core's `owes` and the generator register. -/
abbrev Rd (c : Dev nD) : sProp 𝕄 :=
  iprop((∃ W, owes (c : Thread nD τ) (0 : CellTallies nD τ sig Unit) W) ∗ (∃ r, prngReg c r))

/-! ## The valuations between the stretches -/

abbrev Wb (c : Dev nD) : Valuation τ sig (Elt F) := StableHlo.after hostOps0 (W0 m c)
abbrev Wc (c : Dev nD) : Valuation τ sig (Elt F) := StableHlo.after hostOps0_1 (Wb m c)

/-- The result array after the region's last write-back. -/
abbrev stats (c : Dev nD) : Buf (Elt F) ((c : Thread nD τ).loc main_v17) := (dats m 0 c).arrAt 6 cfg0.N

/-- The buffers when the region is left: as it was entered, the result array at its final contents. -/
def Wmid (c : Dev nD) : Valuation τ sig (Elt F) :=
  Function.update (V0 m c) (Proc.devRef .tc main_v17) (stats m c)
abbrev Wd (c : Dev nD) : Valuation τ sig (Elt F) := StableHlo.after hostOps1 (Wmid m c)
abbrev We (c : Dev nD) : Valuation τ sig (Elt F) := StableHlo.after hostOps1_1 (Wd m c)
/-- The buffers at the end. -/
abbrev Wfin (c : Dev nD) : Valuation τ sig (Elt F) := StableHlo.after hostOps1_2 (We m c)

/-! ## The stretches of host operations -/

theorem hostOps0_fresh : ∀ op ∈ (hostOps0 : List (HloOp τ sig (Elt F))), op.fresh = ∅ := by
  intro _ h; (repeat (cases h with | head => rfl | tail _ h => ?_)); exact nomatch h

theorem hostOps0_1_fresh : ∀ op ∈ (hostOps0_1 : List (HloOp τ sig (Elt F))), op.fresh = ∅ := by
  intro _ h; (repeat (cases h with | head => rfl | tail _ h => ?_)); exact nomatch h

theorem hostOps0_2_fresh : ∀ op ∈ (hostOps0_2 : List (HloOp τ sig (Elt F))), op.fresh = ∅ := by
  intro _ h; (repeat (cases h with | head => rfl | tail _ h => ?_)); exact nomatch h

theorem hostOps1_fresh : ∀ op ∈ (hostOps1 : List (HloOp τ sig (Elt F))), op.fresh = ∅ := by
  intro _ h; (repeat (cases h with | head => rfl | tail _ h => ?_)); exact nomatch h

theorem hostOps1_1_fresh : ∀ op ∈ (hostOps1_1 : List (HloOp τ sig (Elt F))), op.fresh = ∅ := by
  intro _ h; (repeat (cases h with | head => rfl | tail _ h => ?_)); exact nomatch h

theorem hostOps1_2_fresh : ∀ op ∈ (hostOps1_2 : List (HloOp τ sig (Elt F))), op.fresh = ∅ := by
  intro _ h; (repeat (cases h with | head => rfl | tail _ h => ?_)); exact nomatch h

/-- A stretch over the unscoped buffers, from the valuation `W`. -/
def hseg (ops : List (HloOp τ sig (Elt F))) (hsub : ops.Forall fun op => op.bufs ⊆ StableHlo.tcRefs τ sig)
    (hf : ∀ op ∈ ops, op.fresh = ∅) (W : Dev nD → Valuation τ sig (Elt F)) :
    Pipeline.HostSeg (Name := ℕ) (U := UR sig nD τ) (pcfgs (F := F)) defs₀ Variants.none Lv lv :=
  Pipeline.HostSeg.ofOps _ _ _ _ _ (Pipeline.ucRefs τ sig) ops
    (fun op h => Pipeline.sub_ucRefs op ((List.forall_iff_forall_mem.mp hsub) op h)) hf W Rd

/-! ## The region -/

/-- The five arrays the windows stage, as device buffers. -/
def arrList : List (DevRef τ sig) :=
  [Proc.devRef .tc main_v9, Proc.devRef .tc main_v14, Proc.devRef .tc main_v15, Proc.devRef .tc main_v16, Proc.devRef .tc main_v17]
def arrSet : Finset (DevRef τ sig) := arrList.toFinset

theorem arrSet_sub : arrSet ⊆ Pipeline.ucRefs τ sig := by decide

/-- The result array is one of the five; no buffer outside them is it. -/
theorem ne_v17_of_not_mem (b : DevRef τ sig) (hb : b ∉ arrSet) : b ≠ Proc.devRef .tc main_v17 :=
  fun h => hb (by rw [h]; decide)

/-- The five arrays held at a valuation, one by one. -/
theorem held_arrSet (c : Dev nD) (W : Valuation τ sig (Elt F)) :
    (StableHlo.held (c : Thread nD τ) arrSet W : sProp 𝕄)
      = iprop((((c : Thread nD τ).loc main_v9) ↦{fullShare} W (Proc.devRef .tc main_v9))
          ∗ (((c : Thread nD τ).loc main_v14) ↦{fullShare} W (Proc.devRef .tc main_v14))
          ∗ (((c : Thread nD τ).loc main_v15) ↦{fullShare} W (Proc.devRef .tc main_v15))
          ∗ (((c : Thread nD τ).loc main_v16) ↦{fullShare} W (Proc.devRef .tc main_v16))
          ∗ (((c : Thread nD τ).loc main_v17) ↦{fullShare} W (Proc.devRef .tc main_v17))) := by
  unfold StableHlo.held arrSet
  exact bigSep_eq_bigSepL arrList (by decide) _

/-- The proof data's arrays at contents `G`, window by window at its share. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_v9) ↦{fullShare.left} G 0)
          ∗ (((c : Thread nD τ).loc main_v9) ↦{fullShare.right} G 1)
          ∗ (((c : Thread nD τ).loc main_v14) ↦{fullShare.left} G 2)
          ∗ (((c : Thread nD τ).loc main_v14) ↦{fullShare.right} G 3)
          ∗ (((c : Thread nD τ).loc main_v15) ↦{fullShare} G 4)
          ∗ (((c : Thread nD τ).loc main_v16) ↦{fullShare} G 5)
          ∗ (((c : Thread nD τ).loc main_v17) ↦{fullShare} G 6)) := by
  unfold Dat.arrays
  rw [bigSep_W0]
  rw [(arr_whole0 0).set_eq_univ, (arr_whole0 2).set_eq_univ, (arr_whole0 4).set_eq_univ, (arr_whole0 5).set_eq_univ,
    (arr_whole0 6).set_eq_univ]
  rfl

/-- The valuation the region leaves reads the result array at its final contents, -/
theorem Wmid_v17 (c : Dev nD) : Wmid m c (Proc.devRef .tc main_v17) = stats m c := by
  unfold Wmid; exact Function.update_self ..
/-- and every other buffer as the region found it. -/
theorem Wmid_ne (c : Dev nD) (b : DevRef τ sig) (hb : b ≠ Proc.devRef .tc main_v17) : Wmid m c b = V0 m c b := by
  unfold Wmid; exact Function.update_of_ne hb ..

/-- The arrays when the region is left: the four input arrays as found, the result array at its final contents. -/
theorem arrays_final (c : Dev nD) :
    ((dats m 0 c).arrays ((dats m 0 c).arrAt · cfg0.N) : sProp 𝕄)
      = iprop((((c : Thread nD τ).loc main_v9) ↦{fullShare.left} V m c main_v9)
          ∗ (((c : Thread nD τ).loc main_v9) ↦{fullShare.right} V m c main_v9)
          ∗ (((c : Thread nD τ).loc main_v14) ↦{fullShare.left} V m c main_v14)
          ∗ (((c : Thread nD τ).loc main_v14) ↦{fullShare.right} V m c main_v14)
          ∗ (((c : Thread nD τ).loc main_v15) ↦{fullShare} V m c main_v15)
          ∗ (((c : Thread nD τ).loc main_v16) ↦{fullShare} V m c main_v16)
          ∗ (((c : Thread nD τ).loc main_v17) ↦{fullShare} stats m c)) := by
  rw [arrays_chain]
  rw [(dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl]
  rfl

/-- The five arrays held at the valuation the region leaves. -/
theorem held_arrSet_mid (c : Dev nD) :
    (StableHlo.held (c : Thread nD τ) arrSet (Wmid m c) : sProp 𝕄)
      = iprop((((c : Thread nD τ).loc main_v9) ↦{fullShare} V m c main_v9)
          ∗ (((c : Thread nD τ).loc main_v14) ↦{fullShare} V m c main_v14)
          ∗ (((c : Thread nD τ).loc main_v15) ↦{fullShare} V m c main_v15)
          ∗ (((c : Thread nD τ).loc main_v16) ↦{fullShare} V m c main_v16)
          ∗ (((c : Thread nD τ).loc main_v17) ↦{fullShare} stats m c)) := by
  rw [held_arrSet, Wmid_v17, Wmid_ne m c _ (by decide), Wmid_ne m c _ (by decide), Wmid_ne m c _ (by decide), Wmid_ne m c _ (by decide)]

/-- Outside the five arrays the two valuations agree. -/
theorem held_rest_mid (c : Dev nD) :
    (StableHlo.held (c : Thread nD τ) (Pipeline.ucRefs τ sig \ arrSet) (Wmid m c) : sProp 𝕄)
      = StableHlo.held (c : Thread nD τ) (Pipeline.ucRefs τ sig \ arrSet) (V0 m c) :=
  StableHlo.held_congr (c : Thread nD τ) fun b hb => Wmid_ne m c b (ne_v17_of_not_mem b (Finset.mem_sdiff.mp hb).2)

/-- A buffer held whole is held by its two halves. -/
theorem halves (ℓ : Loc nD τ sig) (f : Buf (Elt F) ℓ) :
    ((ℓ ↦{fullShare} f : sProp 𝕄)) ⊣⊢ iprop((ℓ ↦{fullShare.left} f) ∗ (ℓ ↦{fullShare.right} f)) :=
  pointsTo_share (PosShare.mem_left_op_right fullShare)

set_option backward.isDefEq.respectTransparency.types false in
def reg0 : Pipeline.RegionSeg (pcfgs (F := F)) adm (dats m) () defs₀ Variants.none Lv lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lv lv 0 fun _ _ => rfl
  pre c := iprop(StableHlo.held (c : Thread nD τ) (Pipeline.ucRefs τ sig) (V0 m c) ∗ Rd c)
  post c := iprop(StableHlo.held (c : Thread nD τ) (Pipeline.ucRefs τ sig) (Wmid m c) ∗ Rd c)
  X c := iprop(∃ r, prngReg c r)
  Y c := iprop(∃ r, prngReg c r)
  Z c := StableHlo.held (c : Thread nD τ) (Pipeline.ucRefs τ sig \ arrSet) (V0 m c)
  hentry c := by
    rw [StableHlo.held_sub_split (c : Thread nD τ) arrSet_sub (V0 m c), held_arrSet, arrays_chain]
    iintro ⟨⟨⟨⟨H9, H14, H15, H16, H17⟩, HZ⟩, HO, Hp⟩, -, -⟩
    ihave H9' := (halves _ _).1 $$ H9
    icases H9' with ⟨H9l, H9r⟩
    ihave H14' := (halves _ _).1 $$ H14
    icases H14' with ⟨H14l, H14r⟩
    imodintro
    isplitl [H9l H9r H14l H14r H15 H16 H17]
    · isplitl [H9l]; · iexact H9l
      isplitl [H9r]; · iexact H9r
      isplitl [H14l]; · iexact H14l
      isplitl [H14r]; · iexact H14r
      isplitl [H15]; · iexact H15
      isplitl [H16]; · iexact H16
      iexact H17
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HZ
  hin c := by
    exact (show _ ⊢ Pipeline.ΦA spec0 c from by
      unfold Pipeline.ΦA
      iintro ⟨Hp, -, Hr⟩
      isplitl [Hr] <;> iassumption).trans (Phi_in m c)
  hout c := by
    refine (Phi_out m c).trans ?_
    rw [Pipeline.ownSems0_none]; unfold Pipeline.ΦA
    iintro ⟨Hr, Hp⟩
    isplitl [Hp]; · iexact Hp
    isplitr; · iempintro
    iexact Hr
  hexit c := by
    rw [StableHlo.held_sub_split (c : Thread nD τ) arrSet_sub (Wmid m c), held_arrSet_mid, held_rest_mid]
    rw [show ((dats m 0 c).arrays ((dats m 0 c).arrAt · (Pipeline.pin (pcfgs (F := F)) adm 0).N) : sProp 𝕄)
        = (dats m 0 c).arrays ((dats m 0 c).arrAt · cfg0.N) from rfl, arrays_final]
    iintro ⟨⟨H9l, H9r, H14l, H14r, H15, H16, H17⟩, HO, Hp, HZ⟩
    ihave H9 := (halves ((c : Thread nD τ).loc main_v9) (V m c main_v9)).2 $$ [H9l H9r]
    · isplitl [H9l] <;> iassumption
    ihave H14 := (halves ((c : Thread nD τ).loc main_v14) (V m c main_v14)).2 $$ [H14l H14r]
    · isplitl [H14l] <;> iassumption
    imodintro
    isplitr [HO Hp]
    · isplitr [HZ]
      · isplitl [H9]; · iexact H9
        isplitl [H14]; · iexact H14
        isplitl [H15]; · iexact H15
        isplitl [H16]; · iexact H16
        iexact H17
      · iexact HZ
    · isplitl [HO]
      · unfold Pipeline.Dat.owesAt Pipeline.owesWithin
        icases HO with ⟨%W, -, HO⟩; iexists W; iexact HO
      iexact Hp

/-- @main as the list of its seven items. -/
abbrev segs : List (Pipeline.Seg (pcfgs (F := F)) adm (dats m) () defs₀ Variants.none Lv lv) :=
  [.host (hseg hostOps0 hostOps0_sub hostOps0_fresh (W0 m)),
   .host (hseg hostOps0_1 hostOps0_1_sub hostOps0_1_fresh (Wb m)),
   .host (hseg hostOps0_2 hostOps0_2_sub hostOps0_2_fresh (Wc m)),
   .region (reg0 m),
   .host (hseg hostOps1 hostOps1_sub hostOps1_fresh (Wmid m)),
   .host (hseg hostOps1_1 hostOps1_1_sub hostOps1_1_fresh (Wd m)),
   .host (hseg hostOps1_2 hostOps1_2_sub hostOps1_2_fresh (We m))]

/-- What the final memory is read against: the program's result at the last fold, the arguments as launched. -/
def QC : PUnit × MemSt nD τ sig (Elt F) → Prop := fun r =>
  ∀ c : Dev nD, r.2.mem ((c : Thread nD τ).loc main_v39) = Wfin m c (Proc.devRef .tc main_v39)
    ∧ r.2.mem ((c : Thread nD τ).loc main_arg0) = Wfin m c (Proc.devRef .tc main_arg0)
    ∧ r.2.mem ((c : Thread nD τ).loc main_arg1) = Wfin m c (Proc.devRef .tc main_arg1)
    ∧ r.2.mem ((c : Thread nD τ).loc main_arg2) = Wfin m c (Proc.devRef .tc main_arg2)

set_option backward.isDefEq.respectTransparency.types false in
/-- Every weakly fair execution of @main terminates, nothing faulting, with the result and the arguments at the last
    fold's values. -/
theorem run_main : θ_run defs (onTc (τ := τ) (main (F := F))) ⟨m, fun _ => 0, ρ⟩ (QC m) :=
  Pipeline.θ_run_regions_kit (pcfgs (F := F)) adm (dats m) () cellOf_inj EP defs₀ Variants.none Lv lv m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c))
    (Tₙ := fun c => StableHlo.held (c : Thread nD τ) (Pipeline.ucRefs τ sig) (Wfin m c))
    (hch := ⟨fun _ => .rfl, fun _ => .rfl, fun _ => .rfl, fun _ => .rfl, fun _ => .rfl, fun _ => .rfl, fun _ => .rfl, fun c => (show iprop(StableHlo.held (c : Thread nD τ) (Pipeline.ucRefs τ sig) (Wfin m c) ∗ Rd c)
        ⊢ iprop(StableHlo.held (c : Thread nD τ) (Pipeline.ucRefs τ sig) (Wfin m c) ∗ ∃ W, owes (c : Thread nD τ) (0 : CellTallies nD τ sig Unit) W) from by
      iintro ⟨Hh, HO, -⟩
      isplitl [Hh] <;> iassumption)⟩)
    (hinit := by
      refine Pipeline.initEach Lv lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, Hp, -⟩, -⟩
      imodintro
      isplitl [Hh]; · iexact Hh
      isplitl [HO]; · iexists ∅; iexact HO
      iexists _; iexact Hp)
    (QY := fun c s => s.mem ((c : Thread nD τ).loc main_v39) = Wfin m c (Proc.devRef .tc main_v39)
      ∧ s.mem ((c : Thread nD τ).loc main_arg0) = Wfin m c (Proc.devRef .tc main_arg0)
      ∧ s.mem ((c : Thread nD τ).loc main_arg1) = Wfin m c (Proc.devRef .tc main_arg1)
      ∧ s.mem ((c : Thread nD τ).loc main_arg2) = Wfin m c (Proc.devRef .tc main_arg2))
    (hfin := fun c s' => by
      unfold StableHlo.held
      iintro ⟨Hh, HSI⟩
      ihave Hr := (pointsTo_read_all (Pipeline.ucRefs τ sig) (fun b => ((c : Thread nD τ).1, b)) (Wfin m c) s') $$ [Hh HSI]
      · isplitl [Hh] <;> iassumption
      icases Hr with ⟨%ha, HSI⟩
      imodintro
      isplitr
      · ipureintro
        exact ⟨ha (Proc.devRef .tc main_v39) (show Proc.devRef .tc main_v39 ∈ Pipeline.ucRefs τ sig by decide),
          ha (Proc.devRef .tc main_arg0) (show Proc.devRef .tc main_arg0 ∈ Pipeline.ucRefs τ sig by decide),
          ha (Proc.devRef .tc main_arg1) (show Proc.devRef .tc main_arg1 ∈ Pipeline.ucRefs τ sig by decide),
          ha (Proc.devRef .tc main_arg2) (show Proc.devRef .tc main_arg2 ∈ Pipeline.ucRefs τ sig by decide)⟩
      iexact HSI)
    (hQ := fun _ h => h)

end Cert.Kernel.Hand

end
-- ==== Proof.K.Args.lean ====
/-
  The three arguments are never written: no host operation of the six stretches has an argument as its result, and the
  region changes only its result array. So the valuation at the end reads each argument as launched.
-/
import proofs.«109491_j86354612453531_1_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hostOps0_keeps (b : Ref sig .tc) (hb : b = main_arg0 ∨ b = main_arg1 ∨ b = main_arg2) :
    ∀ op ∈ (hostOps0 : List (HloOp τ sig (Elt F))), Proc.devRef .tc b ∉ op.writes := by
  intro op hop
  simp only [List.mem_cons, List.mem_nil_iff, or_false] at hop
  rcases hb with rfl | rfl | rfl <;>
  rcases hop with rfl | rfl | rfl | rfl | rfl | rfl <;>
    simp only [StableHlo.unary_writes, StableHlo.binary_writes, StableHlo.nullary_writes, StableHlo.ternary_writes,
      StableHlo.reshape_writes, StableHlo.nary_writes, Finset.mem_singleton] <;>
    exact StableHlo.devRef_ne_of_ne (by decide)

theorem hostOps0_1_keeps (b : Ref sig .tc) (hb : b = main_arg0 ∨ b = main_arg1 ∨ b = main_arg2) :
    ∀ op ∈ (hostOps0_1 : List (HloOp τ sig (Elt F))), Proc.devRef .tc b ∉ op.writes := by
  intro op hop
  simp only [List.mem_cons, List.mem_nil_iff, or_false] at hop
  rcases hb with rfl | rfl | rfl <;>
  rcases hop with rfl | rfl | rfl | rfl | rfl <;>
    simp only [StableHlo.unary_writes, StableHlo.binary_writes, StableHlo.nullary_writes, StableHlo.ternary_writes,
      StableHlo.reshape_writes, StableHlo.nary_writes, Finset.mem_singleton] <;>
    exact StableHlo.devRef_ne_of_ne (by decide)

theorem hostOps0_2_keeps (b : Ref sig .tc) (hb : b = main_arg0 ∨ b = main_arg1 ∨ b = main_arg2) :
    ∀ op ∈ (hostOps0_2 : List (HloOp τ sig (Elt F))), Proc.devRef .tc b ∉ op.writes := by
  intro op hop
  simp only [List.mem_cons, List.mem_nil_iff, or_false] at hop
  rcases hb with rfl | rfl | rfl <;>
  rcases hop with rfl | rfl | rfl | rfl | rfl | rfl | rfl | rfl | rfl | rfl | rfl | rfl | rfl | rfl <;>
    simp only [StableHlo.unary_writes, StableHlo.binary_writes, StableHlo.nullary_writes, StableHlo.ternary_writes,
      StableHlo.reshape_writes, StableHlo.nary_writes, Finset.mem_singleton] <;>
    exact StableHlo.devRef_ne_of_ne (by decide)

theorem hostOps1_keeps (b : Ref sig .tc) (hb : b = main_arg0 ∨ b = main_arg1 ∨ b = main_arg2) :
    ∀ op ∈ (hostOps1 : List (HloOp τ sig (Elt F))), Proc.devRef .tc b ∉ op.writes := by
  intro op hop
  simp only [List.mem_cons, List.mem_nil_iff, or_false] at hop
  rcases hb with rfl | rfl | rfl <;>
  rcases hop with rfl | rfl | rfl | rfl | rfl | rfl | rfl | rfl | rfl | rfl | rfl | rfl <;>
    simp only [StableHlo.unary_writes, StableHlo.binary_writes, StableHlo.nullary_writes, StableHlo.ternary_writes,
      StableHlo.reshape_writes, StableHlo.nary_writes, Finset.mem_singleton] <;>
    exact StableHlo.devRef_ne_of_ne (by decide)

theorem hostOps1_1_keeps (b : Ref sig .tc) (hb : b = main_arg0 ∨ b = main_arg1 ∨ b = main_arg2) :
    ∀ op ∈ (hostOps1_1 : List (HloOp τ sig (Elt F))), Proc.devRef .tc b ∉ op.writes := by
  intro op hop
  simp only [List.mem_cons, List.mem_nil_iff, or_false] at hop
  rcases hb with rfl | rfl | rfl <;>
  rcases hop with rfl | rfl | rfl <;>
    simp only [StableHlo.unary_writes, StableHlo.binary_writes, StableHlo.nullary_writes, StableHlo.ternary_writes,
      StableHlo.reshape_writes, StableHlo.nary_writes, Finset.mem_singleton] <;>
    exact StableHlo.devRef_ne_of_ne (by decide)

theorem hostOps1_2_keeps (b : Ref sig .tc) (hb : b = main_arg0 ∨ b = main_arg1 ∨ b = main_arg2) :
    ∀ op ∈ (hostOps1_2 : List (HloOp τ sig (Elt F))), Proc.devRef .tc b ∉ op.writes := by
  intro op hop
  simp only [List.mem_cons, List.mem_nil_iff, or_false] at hop
  rcases hb with rfl | rfl | rfl <;>
  rcases hop with rfl | rfl | rfl | rfl | rfl | rfl | rfl | rfl | rfl | rfl | rfl | rfl | rfl | rfl | rfl <;>
    simp only [StableHlo.unary_writes, StableHlo.binary_writes, StableHlo.nullary_writes, StableHlo.ternary_writes,
      StableHlo.reshape_writes, StableHlo.nary_writes, Finset.mem_singleton] <;>
    exact StableHlo.devRef_ne_of_ne (by decide)

/-- An argument is read at the end as it was launched. -/
theorem arg_kept (c : Dev nD) (b : Ref sig .tc) (hb : b = main_arg0 ∨ b = main_arg1 ∨ b = main_arg2) :
    Wfin m c (Proc.devRef .tc b) = m ((c : Thread nD τ).loc b) := by
  have hne : (Proc.devRef .tc b : DevRef τ sig) ≠ Proc.devRef .tc main_v17 :=
    StableHlo.devRef_ne_of_ne (by rcases hb with rfl | rfl | rfl <;> decide)
  show StableHlo.after hostOps1_2 (We m c) (Proc.devRef .tc b) = _
  rw [StableHlo.after_of_forall_not_mem hostOps1_2 _ (hostOps1_2_keeps b hb)]
  show StableHlo.after hostOps1_1 (Wd m c) (Proc.devRef .tc b) = _
  rw [StableHlo.after_of_forall_not_mem hostOps1_1 _ (hostOps1_1_keeps b hb)]
  show StableHlo.after hostOps1 (Wmid m c) (Proc.devRef .tc b) = _
  rw [StableHlo.after_of_forall_not_mem hostOps1 _ (hostOps1_keeps b hb), Wmid_ne m c _ hne]
  show StableHlo.after hostOps0_2 (Wc m c) (Proc.devRef .tc b) = _
  rw [StableHlo.after_of_forall_not_mem hostOps0_2 _ (hostOps0_2_keeps b hb)]
  show StableHlo.after hostOps0_1 (Wb m c) (Proc.devRef .tc b) = _
  rw [StableHlo.after_of_forall_not_mem hostOps0_1 _ (hostOps0_1_keeps b hb)]
  show StableHlo.after hostOps0 (W0 m c) (Proc.devRef .tc b) = _
  rw [StableHlo.after_of_forall_not_mem hostOps0 _ (hostOps0_keeps b hb)]

theorem arg0_kept (c : Dev nD) : Wfin m c (Proc.devRef .tc main_arg0) = m ((c : Thread nD τ).loc main_arg0) :=
  arg_kept m c main_arg0 (.inl rfl)
theorem arg1_kept (c : Dev nD) : Wfin m c (Proc.devRef .tc main_arg1) = m ((c : Thread nD τ).loc main_arg1) :=
  arg_kept m c main_arg1 (.inr (.inl rfl))
theorem arg2_kept (c : Dev nD) : Wfin m c (Proc.devRef .tc main_arg2) = m ((c : Thread nD τ).loc main_arg2) :=
  arg_kept m c main_arg2 (.inr (.inr rfl))

end Cert.Kernel.Hand

end
-- ==== Proof.KI.Base.lean ====
/-
  What the three control cases of the kernel body share.

  The kernel runs on a 16 × 16 grid, point `t` at row tile `t / 16` and column tile `t % 16`. Its body resets a 512 × 3
  accumulator at the first column tile of a row (`t % 16 = 0`), adds one tile's three partial row sums to it at every
  point, and copies it into the output block at the row's last column tile (`t % 16 = 15`). Stated here: the buffer
  contents the region is entered with (the host operations before it applied to the launch memory), each window's
  block of its array at a point, the two conditions in closed form, where the output window is idle, and the names of
  the staging and scratch buffers the cases' runs are stated over.
-/
import proofs.«109491_j86354612453531_1_alg».proof.Proof.Gen.KernelIdeal.Launch
import proofs.«109491_j86354612453531_1_alg».proof.Proof.Gen.KernelIdeal.Skeleton
import proofs.«109491_j86354612453531_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation; -/
abbrev W0 (c : Dev nD) : Valuation τ sig (Elt F) := fun b => m (c, b)
/-- and when the region is entered: the three stretches of host operations before it have run. -/
abbrev V0 (c : Dev nD) : Valuation τ sig (Elt F) :=
  StableHlo.after hostOps0_2 (StableHlo.after hostOps0_1 (StableHlo.after hostOps0 (W0 m c)))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the row's first column tile", as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the row's last column tile". -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from a row's last column tile the body stores nothing into the output block, and the block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At a row's last column tile it stores the whole block. -/
theorem liveAt0_6 : ∀ t : Fin cfg0.N, cond0_1 (grid0.coords t) → cfg0.idle 6 (grid0.coords t) = false := by decide +kernel

/-! ## The buffers the body is called with -/

abbrev ms0_0 (t : Fin cfg0.N) : Memref sig .tc .vmem S512x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x5 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x3 .f32 := win0_6.stage (cfg0.slots t 6)
abbrev hs0_6 (t : Fin cfg0.N) : (ms0_6 t).IsWhole := hstage0_6 ((cfg0.slots t 6).cast nbuf0_6)
/-- One staging buffer of the output window, through which its contents are stated. -/
abbrev VO0_6 : View sig .tc .vmem S512x3 .f32 := (Memref.whole cc0_stg6_0 : Memref sig .tc .vmem S512x3 .f32).view
/-- The accumulator: a scratch buffer of the kernel's own, carried from point to point. -/
abbrev scM0_0 : Memref sig .tc .vmem S512x3 .f32 := Memref.whole cc0_scratch0
abbrev VS0_0 : View sig .tc .vmem S512x3 .f32 := scM0_0.view

/-- What the region's invariant holds before the first point: the accumulator at anything, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The kernel body run at a row's first column tile: the accumulator, whatever it held, is reset and the tile's partial sums added to the zeros; the output block is left as found.
  The run is symbolic: on whole staging buffers holding the six input blocks, it ends holding them unchanged, the
  accumulator with the body's stores written over it (the list of pieces the run finds), and the output block as said.
-/
import proofs.«109491_j86354612453531_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 4000000 in
noncomputable def kernelRun0_A (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) :
    Σ' (L6 : List (View.Piece (Elt F) S512x3 .f32)), { LS0 : List (View.Piece (Elt F) S512x3 .f32) //
      ∀ (xi6 : Vec F S512x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__plcc_kernel i arg2 harg2 arg3 harg3 arg4 harg4 arg5 harg5 arg6 harg6 arg7 harg7 arg8 harg8 arg9 harg9) K } := by
  refine ⟨[], ?_, fun xi6 E K => ?run⟩
  case run =>
    simp only [cc0__plcc_kernel_eq_skeleton]; unfold cc0__plcc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.RunB.lean ====
/-
  The kernel body run at a column tile that is neither a row's first nor its last: the tile's partial sums are added to what the point before left in the accumulator; the output block is left as found.
  The run is symbolic: on whole staging buffers holding the six input blocks, it ends holding them unchanged, the
  accumulator with the body's stores written over it (the list of pieces the run finds), and the output block as said.
-/
import proofs.«109491_j86354612453531_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 4000000 in
noncomputable def kernelRun0_B (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) :
    Σ' (L6 : List (View.Piece (Elt F) S512x3 .f32)), { LS0 : List (View.Piece (Elt F) S512x3 .f32) //
      ∀ (xi6 : Vec F S512x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__plcc_kernel i arg2 harg2 arg3 harg3 arg4 harg4 arg5 harg5 arg6 harg6 arg7 harg7 arg8 harg8 arg9 harg9) K } := by
  refine ⟨[], ?_, fun xi6 E K => ?run⟩
  case run =>
    simp only [cc0__plcc_kernel_eq_skeleton]; unfold cc0__plcc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.RunC.lean ====
/-
  The kernel body run at a row's last column tile: the tile's partial sums are added to what the point before left in the accumulator, and the accumulator is copied into the output block.
  The run is symbolic: on whole staging buffers holding the six input blocks, it ends holding them unchanged, the
  accumulator with the body's stores written over it (the list of pieces the run finds), and the output block as said.
-/
import proofs.«109491_j86354612453531_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 4000000 in
noncomputable def kernelRun0_C (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) :
    Σ' (L6 : List (View.Piece (Elt F) S512x3 .f32)), { LS0 : List (View.Piece (Elt F) S512x3 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__plcc_kernel i arg2 harg2 arg3 harg3 arg4 harg4 arg5 harg5 arg6 harg6 arg7 harg7 arg8 harg8 arg9 harg9) K } := by
  refine ⟨?_, ?_, fun E K => ?run⟩
  case run =>
    simp only [cc0__plcc_kernel_eq_skeleton]; unfold cc0__plcc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.Frame.lean ====
/-
  The kernel body at every grid point, and the proof data of the pipeline.

  What each control case leaves in the accumulator (and, at a row's last column tile, in the output block) is the read-back of
  the stores its run found. `outsAt0` follows both through the grid by recursion on the point: at a row's first column tile the
  accumulator restarts, elsewhere it continues from what the point before left. The region's invariant holds the
  accumulator at that value between points. The body obligation at a point is the run of the point's case.
-/
import proofs.«109491_j86354612453531_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- Case A stores nothing into the output block: a placeholder that nothing consults. -/
def out0_A_6 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) : Vec F S512x3 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4 x5).1)

/-- Case A's stores cover the accumulator. -/
theorem scover0_A_0 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) (y : S512x3.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S512x3.size (by sl_kernel_rfl) y

/-- What case A leaves in the accumulator. -/
def sout0_A_0 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) : Vec F S512x3 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- Case B stores nothing into the output block: a placeholder that nothing consults. -/
def out0_B_6 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) : Vec F S512x3 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 x5 xs0).1)

/-- Case B's stores cover the accumulator. -/
theorem scover0_B_0 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) (y : S512x3.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S512x3.size (by sl_kernel_rfl) y

/-- What case B leaves in the accumulator. -/
def sout0_B_0 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) : Vec F S512x3 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-- Case C's store covers the output block. -/
theorem cover0_C_6 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) (y : S512x3.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S512x3.size (by sl_kernel_rfl) y

/-- What case C leaves in the output block. -/
def out0_C_6 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) : Vec F S512x3 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 x5 xs0).1)

/-- Case C's stores cover the accumulator. -/
theorem scover0_C_0 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) (y : S512x3.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S512x3.size (by sl_kernel_rfl) y

/-- What case C leaves in the accumulator. -/
def sout0_C_0 (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) : Vec F S512x3 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 x5 xs0).2.1)

/-! ## What the output block and the accumulator hold after each point -/

/-- After the body at position `n`: the output block (a placeholder away from a row's last column tile) and the accumulator. -/
def outsAt0 (c : Dev nD) : (n : ℕ) → n < cfg0.N → Vec F S512x3 .f32 × Vec F S512x3 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      if h1 : (n + 1) % 16 = 15 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 16 = 15 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

theorem outsAt0_A (c : Dev nD) (t : Fin cfg0.N) (h0 : t.val % 16 = 0) (h1 : ¬t.val % 16 = 15) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards what the
    point before left in it. The generator register rides along. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body each input's buffer at its block and the output's at
    `outsAt0`; the invariant `PhiS`; nothing owed. The two windows on the normalised features, and the two on the
    coordinate rows, each read their array at half the share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' buffers hold their blocks; `t % 16` says which case the point is in; the invariant
    hands the body the accumulator (at anything at the very first point, else at what the point before left) and takes it
    back at this point's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 16 = 0
  · have h1 : ¬t.val % 16 = 15 := by omega
    rw [Dat.leavesExact_idle (dats m 0 c) 6 t (idleAt0_6 t (fun h => h1 ((hcond0_1 t).mp h))) (noFlush0_6 t (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 16 = 15
    · rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold out0_C_6 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _)
    · rw [Dat.leavesExact_idle (dats m 0 c) 6 t (idleAt0_6 t (fun h => h1 ((hcond0_1 t).mp h))) (noFlush0_6 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is the accumulator at anything and the generator register. -/
theorem Phi_in (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point it gives them back, the accumulator's value forgotten. -/
theorem Phi_out (c : Dev nD) : (dats m 0 c).Φ (Fin.last cfg0.N) ⊢ Pipeline.ΦA spec0 c := by
  have hz : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ hz, PhiA0_eq]
  iintro ⟨HS0, Hg⟩
  isplitl [HS0]
  · iexists _; iexact HS0
  iexact Hg

end Cert.KernelIdeal.Hand

end
-- ==== Proof.KI.Launch.lean ====
/-
  The launch: @main as three stretches of host operations, the kernel region, and three more stretches.

  Each stretch runs over the core's unscoped buffers held whole at a valuation and moves the valuation by the
  operations' fold. The region is entered by dealing its windows their arrays: the normalised features and the
  coordinate rows are each read by two windows, which take half the share each; the row-laid squared norms, the
  row-laid mask and the result array go to one window each, whole. It is left by joining the halves again and putting
  the result array's final contents into the valuation. The final memory holds the program's result at the last
  stretch's fold, and the three arguments as launched.
-/
import proofs.«109491_j86354612453531_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

variable (ρ : Dev nD → PrngReg)

abbrev EP : Emb (UR sig nD τ) (MT nD τ sig Unit (Elt F) ℕ (UR sig nD τ) ℕ) := emb₁
abbrev Lv : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through every stretch: the core's `owes` and the generator register. -/
abbrev Rd (c : Dev nD) : sProp 𝕄 :=
  iprop((∃ W, owes (c : Thread nD τ) (0 : CellTallies nD τ sig Unit) W) ∗ (∃ r, prngReg c r))

/-! ## The valuations between the stretches -/

abbrev Wb (c : Dev nD) : Valuation τ sig (Elt F) := StableHlo.after hostOps0 (W0 m c)
abbrev Wc (c : Dev nD) : Valuation τ sig (Elt F) := StableHlo.after hostOps0_1 (Wb m c)

/-- The result array after the region's last write-back. -/
abbrev stats (c : Dev nD) : Buf (Elt F) ((c : Thread nD τ).loc main_v17) := (dats m 0 c).arrAt 6 cfg0.N

/-- The buffers when the region is left: as it was entered, the result array at its final contents. -/
def Wmid (c : Dev nD) : Valuation τ sig (Elt F) :=
  Function.update (V0 m c) (Proc.devRef .tc main_v17) (stats m c)
abbrev Wd (c : Dev nD) : Valuation τ sig (Elt F) := StableHlo.after hostOps1 (Wmid m c)
abbrev We (c : Dev nD) : Valuation τ sig (Elt F) := StableHlo.after hostOps1_1 (Wd m c)
/-- The buffers at the end. -/
abbrev Wfin (c : Dev nD) : Valuation τ sig (Elt F) := StableHlo.after hostOps1_2 (We m c)

/-! ## The stretches of host operations -/

theorem hostOps0_fresh : ∀ op ∈ (hostOps0 : List (HloOp τ sig (Elt F))), op.fresh = ∅ := by
  intro _ h; (repeat (cases h with | head => rfl | tail _ h => ?_)); exact nomatch h

theorem hostOps0_1_fresh : ∀ op ∈ (hostOps0_1 : List (HloOp τ sig (Elt F))), op.fresh = ∅ := by
  intro _ h; (repeat (cases h with | head => rfl | tail _ h => ?_)); exact nomatch h

theorem hostOps0_2_fresh : ∀ op ∈ (hostOps0_2 : List (HloOp τ sig (Elt F))), op.fresh = ∅ := by
  intro _ h; (repeat (cases h with | head => rfl | tail _ h => ?_)); exact nomatch h

theorem hostOps1_fresh : ∀ op ∈ (hostOps1 : List (HloOp τ sig (Elt F))), op.fresh = ∅ := by
  intro _ h; (repeat (cases h with | head => rfl | tail _ h => ?_)); exact nomatch h

theorem hostOps1_1_fresh : ∀ op ∈ (hostOps1_1 : List (HloOp τ sig (Elt F))), op.fresh = ∅ := by
  intro _ h; (repeat (cases h with | head => rfl | tail _ h => ?_)); exact nomatch h

theorem hostOps1_2_fresh : ∀ op ∈ (hostOps1_2 : List (HloOp τ sig (Elt F))), op.fresh = ∅ := by
  intro _ h; (repeat (cases h with | head => rfl | tail _ h => ?_)); exact nomatch h

/-- A stretch over the unscoped buffers, from the valuation `W`. -/
def hseg (ops : List (HloOp τ sig (Elt F))) (hsub : ops.Forall fun op => op.bufs ⊆ StableHlo.tcRefs τ sig)
    (hf : ∀ op ∈ ops, op.fresh = ∅) (W : Dev nD → Valuation τ sig (Elt F)) :
    Pipeline.HostSeg (Name := ℕ) (U := UR sig nD τ) (pcfgs (F := F)) defs₀ Variants.none Lv lv :=
  Pipeline.HostSeg.ofOps _ _ _ _ _ (Pipeline.ucRefs τ sig) ops
    (fun op h => Pipeline.sub_ucRefs op ((List.forall_iff_forall_mem.mp hsub) op h)) hf W Rd

/-! ## The region -/

/-- The five arrays the windows stage, as device buffers. -/
def arrList : List (DevRef τ sig) :=
  [Proc.devRef .tc main_v9, Proc.devRef .tc main_v14, Proc.devRef .tc main_v15, Proc.devRef .tc main_v16, Proc.devRef .tc main_v17]
def arrSet : Finset (DevRef τ sig) := arrList.toFinset

theorem arrSet_sub : arrSet ⊆ Pipeline.ucRefs τ sig := by decide

/-- The result array is one of the five; no buffer outside them is it. -/
theorem ne_v17_of_not_mem (b : DevRef τ sig) (hb : b ∉ arrSet) : b ≠ Proc.devRef .tc main_v17 :=
  fun h => hb (by rw [h]; decide)

/-- The five arrays held at a valuation, one by one. -/
theorem held_arrSet (c : Dev nD) (W : Valuation τ sig (Elt F)) :
    (StableHlo.held (c : Thread nD τ) arrSet W : sProp 𝕄)
      = iprop((((c : Thread nD τ).loc main_v9) ↦{fullShare} W (Proc.devRef .tc main_v9))
          ∗ (((c : Thread nD τ).loc main_v14) ↦{fullShare} W (Proc.devRef .tc main_v14))
          ∗ (((c : Thread nD τ).loc main_v15) ↦{fullShare} W (Proc.devRef .tc main_v15))
          ∗ (((c : Thread nD τ).loc main_v16) ↦{fullShare} W (Proc.devRef .tc main_v16))
          ∗ (((c : Thread nD τ).loc main_v17) ↦{fullShare} W (Proc.devRef .tc main_v17))) := by
  unfold StableHlo.held arrSet
  exact bigSep_eq_bigSepL arrList (by decide) _

/-- The proof data's arrays at contents `G`, window by window at its share. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_v9) ↦{fullShare.left} G 0)
          ∗ (((c : Thread nD τ).loc main_v9) ↦{fullShare.right} G 1)
          ∗ (((c : Thread nD τ).loc main_v14) ↦{fullShare.left} G 2)
          ∗ (((c : Thread nD τ).loc main_v14) ↦{fullShare.right} G 3)
          ∗ (((c : Thread nD τ).loc main_v15) ↦{fullShare} G 4)
          ∗ (((c : Thread nD τ).loc main_v16) ↦{fullShare} G 5)
          ∗ (((c : Thread nD τ).loc main_v17) ↦{fullShare} G 6)) := by
  unfold Dat.arrays
  rw [bigSep_W0]
  rw [(arr_whole0 0).set_eq_univ, (arr_whole0 2).set_eq_univ, (arr_whole0 4).set_eq_univ, (arr_whole0 5).set_eq_univ,
    (arr_whole0 6).set_eq_univ]
  rfl

/-- The valuation the region leaves reads the result array at its final contents, -/
theorem Wmid_v17 (c : Dev nD) : Wmid m c (Proc.devRef .tc main_v17) = stats m c := by
  unfold Wmid; exact Function.update_self ..
/-- and every other buffer as the region found it. -/
theorem Wmid_ne (c : Dev nD) (b : DevRef τ sig) (hb : b ≠ Proc.devRef .tc main_v17) : Wmid m c b = V0 m c b := by
  unfold Wmid; exact Function.update_of_ne hb ..

/-- The arrays when the region is left: the four input arrays as found, the result array at its final contents. -/
theorem arrays_final (c : Dev nD) :
    ((dats m 0 c).arrays ((dats m 0 c).arrAt · cfg0.N) : sProp 𝕄)
      = iprop((((c : Thread nD τ).loc main_v9) ↦{fullShare.left} V m c main_v9)
          ∗ (((c : Thread nD τ).loc main_v9) ↦{fullShare.right} V m c main_v9)
          ∗ (((c : Thread nD τ).loc main_v14) ↦{fullShare.left} V m c main_v14)
          ∗ (((c : Thread nD τ).loc main_v14) ↦{fullShare.right} V m c main_v14)
          ∗ (((c : Thread nD τ).loc main_v15) ↦{fullShare} V m c main_v15)
          ∗ (((c : Thread nD τ).loc main_v16) ↦{fullShare} V m c main_v16)
          ∗ (((c : Thread nD τ).loc main_v17) ↦{fullShare} stats m c)) := by
  rw [arrays_chain]
  rw [(dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl]
  rfl

/-- The five arrays held at the valuation the region leaves. -/
theorem held_arrSet_mid (c : Dev nD) :
    (StableHlo.held (c : Thread nD τ) arrSet (Wmid m c) : sProp 𝕄)
      = iprop((((c : Thread nD τ).loc main_v9) ↦{fullShare} V m c main_v9)
          ∗ (((c : Thread nD τ).loc main_v14) ↦{fullShare} V m c main_v14)
          ∗ (((c : Thread nD τ).loc main_v15) ↦{fullShare} V m c main_v15)
          ∗ (((c : Thread nD τ).loc main_v16) ↦{fullShare} V m c main_v16)
          ∗ (((c : Thread nD τ).loc main_v17) ↦{fullShare} stats m c)) := by
  rw [held_arrSet, Wmid_v17, Wmid_ne m c _ (by decide), Wmid_ne m c _ (by decide), Wmid_ne m c _ (by decide), Wmid_ne m c _ (by decide)]

/-- Outside the five arrays the two valuations agree. -/
theorem held_rest_mid (c : Dev nD) :
    (StableHlo.held (c : Thread nD τ) (Pipeline.ucRefs τ sig \ arrSet) (Wmid m c) : sProp 𝕄)
      = StableHlo.held (c : Thread nD τ) (Pipeline.ucRefs τ sig \ arrSet) (V0 m c) :=
  StableHlo.held_congr (c : Thread nD τ) fun b hb => Wmid_ne m c b (ne_v17_of_not_mem b (Finset.mem_sdiff.mp hb).2)

/-- A buffer held whole is held by its two halves. -/
theorem halves (ℓ : Loc nD τ sig) (f : Buf (Elt F) ℓ) :
    ((ℓ ↦{fullShare} f : sProp 𝕄)) ⊣⊢ iprop((ℓ ↦{fullShare.left} f) ∗ (ℓ ↦{fullShare.right} f)) :=
  pointsTo_share (PosShare.mem_left_op_right fullShare)

set_option backward.isDefEq.respectTransparency.types false in
def reg0 : Pipeline.RegionSeg (pcfgs (F := F)) adm (dats m) () defs₀ Variants.none Lv lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lv lv 0 fun _ _ => rfl
  pre c := iprop(StableHlo.held (c : Thread nD τ) (Pipeline.ucRefs τ sig) (V0 m c) ∗ Rd c)
  post c := iprop(StableHlo.held (c : Thread nD τ) (Pipeline.ucRefs τ sig) (Wmid m c) ∗ Rd c)
  X c := iprop(∃ r, prngReg c r)
  Y c := iprop(∃ r, prngReg c r)
  Z c := StableHlo.held (c : Thread nD τ) (Pipeline.ucRefs τ sig \ arrSet) (V0 m c)
  hentry c := by
    rw [StableHlo.held_sub_split (c : Thread nD τ) arrSet_sub (V0 m c), held_arrSet, arrays_chain]
    iintro ⟨⟨⟨⟨H9, H14, H15, H16, H17⟩, HZ⟩, HO, Hp⟩, -, -⟩
    ihave H9' := (halves _ _).1 $$ H9
    icases H9' with ⟨H9l, H9r⟩
    ihave H14' := (halves _ _).1 $$ H14
    icases H14' with ⟨H14l, H14r⟩
    imodintro
    isplitl [H9l H9r H14l H14r H15 H16 H17]
    · isplitl [H9l]; · iexact H9l
      isplitl [H9r]; · iexact H9r
      isplitl [H14l]; · iexact H14l
      isplitl [H14r]; · iexact H14r
      isplitl [H15]; · iexact H15
      isplitl [H16]; · iexact H16
      iexact H17
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HZ
  hin c := by
    exact (show _ ⊢ Pipeline.ΦA spec0 c from by
      unfold Pipeline.ΦA
      iintro ⟨Hp, -, Hr⟩
      isplitl [Hr] <;> iassumption).trans (Phi_in m c)
  hout c := by
    refine (Phi_out m c).trans ?_
    rw [Pipeline.ownSems0_none]; unfold Pipeline.ΦA
    iintro ⟨Hr, Hp⟩
    isplitl [Hp]; · iexact Hp
    isplitr; · iempintro
    iexact Hr
  hexit c := by
    rw [StableHlo.held_sub_split (c : Thread nD τ) arrSet_sub (Wmid m c), held_arrSet_mid, held_rest_mid]
    rw [show ((dats m 0 c).arrays ((dats m 0 c).arrAt · (Pipeline.pin (pcfgs (F := F)) adm 0).N) : sProp 𝕄)
        = (dats m 0 c).arrays ((dats m 0 c).arrAt · cfg0.N) from rfl, arrays_final]
    iintro ⟨⟨H9l, H9r, H14l, H14r, H15, H16, H17⟩, HO, Hp, HZ⟩
    ihave H9 := (halves ((c : Thread nD τ).loc main_v9) (V m c main_v9)).2 $$ [H9l H9r]
    · isplitl [H9l] <;> iassumption
    ihave H14 := (halves ((c : Thread nD τ).loc main_v14) (V m c main_v14)).2 $$ [H14l H14r]
    · isplitl [H14l] <;> iassumption
    imodintro
    isplitr [HO Hp]
    · isplitr [HZ]
      · isplitl [H9]; · iexact H9
        isplitl [H14]; · iexact H14
        isplitl [H15]; · iexact H15
        isplitl [H16]; · iexact H16
        iexact H17
      · iexact HZ
    · isplitl [HO]
      · unfold Pipeline.Dat.owesAt Pipeline.owesWithin
        icases HO with ⟨%W, -, HO⟩; iexists W; iexact HO
      iexact Hp

/-- @main as the list of its seven items. -/
abbrev segs : List (Pipeline.Seg (pcfgs (F := F)) adm (dats m) () defs₀ Variants.none Lv lv) :=
  [.host (hseg hostOps0 hostOps0_sub hostOps0_fresh (W0 m)),
   .host (hseg hostOps0_1 hostOps0_1_sub hostOps0_1_fresh (Wb m)),
   .host (hseg hostOps0_2 hostOps0_2_sub hostOps0_2_fresh (Wc m)),
   .region (reg0 m),
   .host (hseg hostOps1 hostOps1_sub hostOps1_fresh (Wmid m)),
   .host (hseg hostOps1_1 hostOps1_1_sub hostOps1_1_fresh (Wd m)),
   .host (hseg hostOps1_2 hostOps1_2_sub hostOps1_2_fresh (We m))]

/-- What the final memory is read against: the program's result at the last fold, the arguments as launched. -/
def QC : PUnit × MemSt nD τ sig (Elt F) → Prop := fun r =>
  ∀ c : Dev nD, r.2.mem ((c : Thread nD τ).loc main_v39) = Wfin m c (Proc.devRef .tc main_v39)
    ∧ r.2.mem ((c : Thread nD τ).loc main_arg0) = Wfin m c (Proc.devRef .tc main_arg0)
    ∧ r.2.mem ((c : Thread nD τ).loc main_arg1) = Wfin m c (Proc.devRef .tc main_arg1)
    ∧ r.2.mem ((c : Thread nD τ).loc main_arg2) = Wfin m c (Proc.devRef .tc main_arg2)

set_option backward.isDefEq.respectTransparency.types false in
/-- Every weakly fair execution of @main terminates, nothing faulting, with the result and the arguments at the last
    fold's values. -/
theorem run_main : θ_run defs (onTc (τ := τ) (main (F := F))) ⟨m, fun _ => 0, ρ⟩ (QC m) :=
  Pipeline.θ_run_regions_kit (pcfgs (F := F)) adm (dats m) () cellOf_inj EP defs₀ Variants.none Lv lv m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c))
    (Tₙ := fun c => StableHlo.held (c : Thread nD τ) (Pipeline.ucRefs τ sig) (Wfin m c))
    (hch := ⟨fun _ => .rfl, fun _ => .rfl, fun _ => .rfl, fun _ => .rfl, fun _ => .rfl, fun _ => .rfl, fun _ => .rfl, fun c => (show iprop(StableHlo.held (c : Thread nD τ) (Pipeline.ucRefs τ sig) (Wfin m c) ∗ Rd c)
        ⊢ iprop(StableHlo.held (c : Thread nD τ) (Pipeline.ucRefs τ sig) (Wfin m c) ∗ ∃ W, owes (c : Thread nD τ) (0 : CellTallies nD τ sig Unit) W) from by
      iintro ⟨Hh, HO, -⟩
      isplitl [Hh] <;> iassumption)⟩)
    (hinit := by
      refine Pipeline.initEach Lv lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, Hp, -⟩, -⟩
      imodintro
      isplitl [Hh]; · iexact Hh
      isplitl [HO]; · iexists ∅; iexact HO
      iexists _; iexact Hp)
    (QY := fun c s => s.mem ((c : Thread nD τ).loc main_v39) = Wfin m c (Proc.devRef .tc main_v39)
      ∧ s.mem ((c : Thread nD τ).loc main_arg0) = Wfin m c (Proc.devRef .tc main_arg0)
      ∧ s.mem ((c : Thread nD τ).loc main_arg1) = Wfin m c (Proc.devRef .tc main_arg1)
      ∧ s.mem ((c : Thread nD τ).loc main_arg2) = Wfin m c (Proc.devRef .tc main_arg2))
    (hfin := fun c s' => by
      unfold StableHlo.held
      iintro ⟨Hh, HSI⟩
      ihave Hr := (pointsTo_read_all (Pipeline.ucRefs τ sig) (fun b => ((c : Thread nD τ).1, b)) (Wfin m c) s') $$ [Hh HSI]
      · isplitl [Hh] <;> iassumption
      icases Hr with ⟨%ha, HSI⟩
      imodintro
      isplitr
      · ipureintro
        exact ⟨ha (Proc.devRef .tc main_v39) (show Proc.devRef .tc main_v39 ∈ Pipeline.ucRefs τ sig by decide),
          ha (Proc.devRef .tc main_arg0) (show Proc.devRef .tc main_arg0 ∈ Pipeline.ucRefs τ sig by decide),
          ha (Proc.devRef .tc main_arg1) (show Proc.devRef .tc main_arg1 ∈ Pipeline.ucRefs τ sig by decide),
          ha (Proc.devRef .tc main_arg2) (show Proc.devRef .tc main_arg2 ∈ Pipeline.ucRefs τ sig by decide)⟩
      iexact HSI)
    (hQ := fun _ h => h)

end Cert.KernelIdeal.Hand

end
-- ==== Proof.KI.Args.lean ====
/-
  The three arguments are never written: no host operation of the six stretches has an argument as its result, and the
  region changes only its result array. So the valuation at the end reads each argument as launched.
-/
import proofs.«109491_j86354612453531_1_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

theorem hostOps0_keeps (b : Ref sig .tc) (hb : b = main_arg0 ∨ b = main_arg1 ∨ b = main_arg2) :
    ∀ op ∈ (hostOps0 : List (HloOp τ sig (Elt F))), Proc.devRef .tc b ∉ op.writes := by
  intro op hop
  simp only [List.mem_cons, List.mem_nil_iff, or_false] at hop
  rcases hb with rfl | rfl | rfl <;>
  rcases hop with rfl | rfl | rfl | rfl | rfl | rfl <;>
    simp only [StableHlo.unary_writes, StableHlo.binary_writes, StableHlo.nullary_writes, StableHlo.ternary_writes,
      StableHlo.reshape_writes, StableHlo.nary_writes, Finset.mem_singleton] <;>
    exact StableHlo.devRef_ne_of_ne (by decide)

theorem hostOps0_1_keeps (b : Ref sig .tc) (hb : b = main_arg0 ∨ b = main_arg1 ∨ b = main_arg2) :
    ∀ op ∈ (hostOps0_1 : List (HloOp τ sig (Elt F))), Proc.devRef .tc b ∉ op.writes := by
  intro op hop
  simp only [List.mem_cons, List.mem_nil_iff, or_false] at hop
  rcases hb with rfl | rfl | rfl <;>
  rcases hop with rfl | rfl | rfl | rfl | rfl <;>
    simp only [StableHlo.unary_writes, StableHlo.binary_writes, StableHlo.nullary_writes, StableHlo.ternary_writes,
      StableHlo.reshape_writes, StableHlo.nary_writes, Finset.mem_singleton] <;>
    exact StableHlo.devRef_ne_of_ne (by decide)

theorem hostOps0_2_keeps (b : Ref sig .tc) (hb : b = main_arg0 ∨ b = main_arg1 ∨ b = main_arg2) :
    ∀ op ∈ (hostOps0_2 : List (HloOp τ sig (Elt F))), Proc.devRef .tc b ∉ op.writes := by
  intro op hop
  simp only [List.mem_cons, List.mem_nil_iff, or_false] at hop
  rcases hb with rfl | rfl | rfl <;>
  rcases hop with rfl | rfl | rfl | rfl | rfl | rfl | rfl | rfl | rfl | rfl | rfl | rfl | rfl | rfl <;>
    simp only [StableHlo.unary_writes, StableHlo.binary_writes, StableHlo.nullary_writes, StableHlo.ternary_writes,
      StableHlo.reshape_writes, StableHlo.nary_writes, Finset.mem_singleton] <;>
    exact StableHlo.devRef_ne_of_ne (by decide)

theorem hostOps1_keeps (b : Ref sig .tc) (hb : b = main_arg0 ∨ b = main_arg1 ∨ b = main_arg2) :
    ∀ op ∈ (hostOps1 : List (HloOp τ sig (Elt F))), Proc.devRef .tc b ∉ op.writes := by
  intro op hop
  simp only [List.mem_cons, List.mem_nil_iff, or_false] at hop
  rcases hb with rfl | rfl | rfl <;>
  rcases hop with rfl | rfl | rfl | rfl | rfl | rfl | rfl | rfl | rfl | rfl | rfl | rfl <;>
    simp only [StableHlo.unary_writes, StableHlo.binary_writes, StableHlo.nullary_writes, StableHlo.ternary_writes,
      StableHlo.reshape_writes, StableHlo.nary_writes, Finset.mem_singleton] <;>
    exact StableHlo.devRef_ne_of_ne (by decide)

theorem hostOps1_1_keeps (b : Ref sig .tc) (hb : b = main_arg0 ∨ b = main_arg1 ∨ b = main_arg2) :
    ∀ op ∈ (hostOps1_1 : List (HloOp τ sig (Elt F))), Proc.devRef .tc b ∉ op.writes := by
  intro op hop
  simp only [List.mem_cons, List.mem_nil_iff, or_false] at hop
  rcases hb with rfl | rfl | rfl <;>
  rcases hop with rfl | rfl | rfl <;>
    simp only [StableHlo.unary_writes, StableHlo.binary_writes, StableHlo.nullary_writes, StableHlo.ternary_writes,
      StableHlo.reshape_writes, StableHlo.nary_writes, Finset.mem_singleton] <;>
    exact StableHlo.devRef_ne_of_ne (by decide)

theorem hostOps1_2_keeps (b : Ref sig .tc) (hb : b = main_arg0 ∨ b = main_arg1 ∨ b = main_arg2) :
    ∀ op ∈ (hostOps1_2 : List (HloOp τ sig (Elt F))), Proc.devRef .tc b ∉ op.writes := by
  intro op hop
  simp only [List.mem_cons, List.mem_nil_iff, or_false] at hop
  rcases hb with rfl | rfl | rfl <;>
  rcases hop with rfl | rfl | rfl | rfl | rfl | rfl | rfl | rfl | rfl | rfl | rfl | rfl | rfl | rfl | rfl <;>
    simp only [StableHlo.unary_writes, StableHlo.binary_writes, StableHlo.nullary_writes, StableHlo.ternary_writes,
      StableHlo.reshape_writes, StableHlo.nary_writes, Finset.mem_singleton] <;>
    exact StableHlo.devRef_ne_of_ne (by decide)

/-- An argument is read at the end as it was launched. -/
theorem arg_kept (c : Dev nD) (b : Ref sig .tc) (hb : b = main_arg0 ∨ b = main_arg1 ∨ b = main_arg2) :
    Wfin m c (Proc.devRef .tc b) = m ((c : Thread nD τ).loc b) := by
  have hne : (Proc.devRef .tc b : DevRef τ sig) ≠ Proc.devRef .tc main_v17 :=
    StableHlo.devRef_ne_of_ne (by rcases hb with rfl | rfl | rfl <;> decide)
  show StableHlo.after hostOps1_2 (We m c) (Proc.devRef .tc b) = _
  rw [StableHlo.after_of_forall_not_mem hostOps1_2 _ (hostOps1_2_keeps b hb)]
  show StableHlo.after hostOps1_1 (Wd m c) (Proc.devRef .tc b) = _
  rw [StableHlo.after_of_forall_not_mem hostOps1_1 _ (hostOps1_1_keeps b hb)]
  show StableHlo.after hostOps1 (Wmid m c) (Proc.devRef .tc b) = _
  rw [StableHlo.after_of_forall_not_mem hostOps1 _ (hostOps1_keeps b hb), Wmid_ne m c _ hne]
  show StableHlo.after hostOps0_2 (Wc m c) (Proc.devRef .tc b) = _
  rw [StableHlo.after_of_forall_not_mem hostOps0_2 _ (hostOps0_2_keeps b hb)]
  show StableHlo.after hostOps0_1 (Wb m c) (Proc.devRef .tc b) = _
  rw [StableHlo.after_of_forall_not_mem hostOps0_1 _ (hostOps0_1_keeps b hb)]
  show StableHlo.after hostOps0 (W0 m c) (Proc.devRef .tc b) = _
  rw [StableHlo.after_of_forall_not_mem hostOps0 _ (hostOps0_keeps b hb)]

theorem arg0_kept (c : Dev nD) : Wfin m c (Proc.devRef .tc main_arg0) = m ((c : Thread nD τ).loc main_arg0) :=
  arg_kept m c main_arg0 (.inl rfl)
theorem arg1_kept (c : Dev nD) : Wfin m c (Proc.devRef .tc main_arg1) = m ((c : Thread nD τ).loc main_arg1) :=
  arg_kept m c main_arg1 (.inr (.inl rfl))
theorem arg2_kept (c : Dev nD) : Wfin m c (Proc.devRef .tc main_arg2) = m ((c : Thread nD τ).loc main_arg2) :=
  arg_kept m c main_arg2 (.inr (.inr rfl))

end Cert.KernelIdeal.Hand

end
-- ==== Proof.KI.TileDef.lean ====
/-
  One grid point's update of the accumulator as a pure function: from the six input blocks (the row tile's and the column
  tile's features, their coordinate rows, the column tile's squared norms and mask) and the accumulator's old value, its
  new value.
-/
import proofs.«109491_j86354612453531_1_alg».proof.Proof.Gen.KernelIdeal.Skeleton

noncomputable section

namespace Cert.KernelIdeal.Hand

open Cert.KernelIdeal Cert.KernelIdeal.Gen Idealize.ShloMosaic

variable {F : FTy → Type} [FloatOps F] [Named F]

/-- The accumulator after a point: the old value plus the tile's three partial row sums, side by side. -/
def tileUpd (x0 x1 : Vec F S512x64 .bf16) (x2 x3 : Vec F S512x5 .f32) (x4 x5 : Vec F S1x512 .f32) (acc : Vec F S512x3 .f32) :
    FVec F S512x3 .f32 :=
  k0_pay1 (k0_pay4 x5) (k0_pay5 x2) (k0_pay6 x0 x1) (k0_pay7 x2 x3 x4) (k0_pay8 x2 x3 x4) acc

end Cert.KernelIdeal.Hand

end
-- ==== Proof.LibRowReduce.lean ====
/-
  A matrix reduced along its rows and the result laid back over the rows, read at an entry.

  A kernel that takes a row's sum or maximum `keepdims`-style does four things to an `[a, b]` matrix: it reduces over
  the columns into an `[a]` vector, recasts that as an `[a, 1]` column, and broadcasts the column to `[a, b]`. Read at
  an entry these are: the column cast at `(p, 0)` is the vector at `p`; the column broadcast at `(p, c)` is the column
  at `(p, 0)`; and at the ideal values the sum over the columns at `p` is `∑ c, v (p, c)`, the maximum the fold of
  `max` over `c` from the accumulator's word.
-/
import Idealize.ShloMosaic.PureOps.Ideal.Laws
import Idealize.ShloMosaic.Lib.ValueLayout

noncomputable section

open scoped BigOperators

namespace Cert.LibRowReduce

open Idealize.ShloMosaic Idealize.ShloMosaic.ValueIdx

variable {α : Type}

/-- An `[a]` vector cast to an `[a, 1]` column reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row `p` with column `c` put back on the reduced axis. -/
theorem lift_cols {a b : ℕ} (h : (⟨2, ![a, b]⟩ : Shape).Reduces [1] ⟨1, ![a]⟩) (p : Fin a) (c : Fin b) :
    h.lift (ix1 p) c = ix2 p c :=
  funext fun ax => Fin.ext (by
    match ax with
    | ⟨0, _⟩ => rfl
    | ⟨1, _⟩ => rfl)

/-- At the ideal values the sum over the columns, at row `p`, is the sum of the row's entries. -/
theorem rowSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ c : Fin b, v (ix2 p c) := by
  rw [Ideal.multiReduction_add_single]
  exact Finset.sum_congr rfl fun c _ => congrArg v (lift_cols h p c)

/-- At the ideal values the maximum over the columns, at row `p`, is the fold of `max` over the row's entries from the
    accumulator's word. -/
theorem rowMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun c => v (ix2 p c)) := by
  rw [Ideal.multiReduction_maximumf_single]
  have e : (v ∘ h.lift (ix1 p)) = fun c => v (ix2 p c) := funext fun c => congrArg v (lift_cols h p c)
  rw [e]
  rfl

end Cert.LibRowReduce

end
-- ==== Proof.KI.TileIdealMatmul.lean ====
/-
  The two matrix products of a tile, read at an entry over the extended reals.

  Each product contracts the second axis of its left operand with the first axis of its right operand and starts from
  the zero matrix, so its entry `(p, q)` is the sum over the contracted coordinate `k` of `a (p, k) * b (k, q)`.
-/
import proofs.«109491_j86354612453531_1_alg».proof.Proof.Gen.KernelIdeal
import Idealize.ShloMosaic.PureOps.Ideal.Laws
import Idealize.ShloMosaic.Lib.ValueIdx

noncomputable section

open scoped BigOperators

namespace Cert.KernelIdeal.TileV

open Cert.KernelIdeal Cert.KernelIdeal.Gen
open Idealize.ShloMosaic Idealize.ShloMosaic.ValueIdx

/-! ## The feature product: 512×64 by 64×512 -/

theorem lhs_feat_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhs_feat_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
theorem rhs_feat_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
theorem rhs_feat_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- Entry `(p, q)` of the feature product into the zero matrix: the sum over the 64 feature coordinates. -/
theorem matmul_feat_apply (prec : Option ContractPrecision) (a : FVec Ideal S512x64 .bf16) (b : FVec Ideal S64x512 .bf16)
    (p q : Fin 512) :
    matmul dot_S512x64_S64x512_S512x512_1_0_0_1_n_n prec a b (constant (F := Ideal) S512x512 .f32 0x00000000#32) (ix2 p q)
      = ∑ k : Fin 64, a (ix2 p k) * b (ix2 k q) := by
  refine (Ideal.matmul_constant_zero_apply dot_S512x64_S64x512_S512x512_1_0_0_1_n_n prec a b (ix2 p q)).trans ?_
  rw [← Equiv.sum_comp (ValueIdx.contrEquiv1 dot_S512x64_S64x512_S512x512_1_0_0_1_n_n 64 rfl rfl).symm]
  refine Finset.sum_congr rfl fun k _ => ?_
  have hk := ValueIdx.contrEquiv1_symm_val dot_S512x64_S64x512_S512x512_1_0_0_1_n_n 64 rfl rfl k
  have el : dot_S512x64_S64x512_S512x512_1_0_0_1_n_n.lhsIdx (ix2 p q) ((ValueIdx.contrEquiv1 dot_S512x64_S64x512_S512x512_1_0_0_1_n_n 64 rfl rfl).symm k) = ix2 p k := funext fun c => Fin.ext (by
    match c with
    | ⟨0, _⟩ => exact lhs_feat_0 _ _
    | ⟨1, _⟩ => exact (lhs_feat_1 _ _).trans hk)
  have er : dot_S512x64_S64x512_S512x512_1_0_0_1_n_n.rhsIdx (ix2 p q) ((ValueIdx.contrEquiv1 dot_S512x64_S64x512_S512x512_1_0_0_1_n_n 64 rfl rfl).symm k) = ix2 k q := funext fun c => Fin.ext (by
    match c with
    | ⟨0, _⟩ => exact (rhs_feat_0 _ _).trans hk
    | ⟨1, _⟩ => exact rhs_feat_1 _ _)
  rw [el, er]

/-! ## The coordinate product: 512×3 by 3×512 -/

theorem lhs_coord_0 (i : S512x512.Idx) (q : dot_S512x3_S3x512_S512x512_1_0_0_1_n_n.contr.Idx) :
    (dot_S512x3_S3x512_S512x512_1_0_0_1_n_n.lhsIdx i q 0).val = (i 0).val := by
  unfold DotDims.lhsIdx
  rw [dif_neg (show ¬(0 : Fin S512x3.rank) ∈ dot_S512x3_S3x512_S512x512_1_0_0_1_n_n.lhsBatch by decide), dif_pos (show (0 : Fin S512x3.rank) ∈ dot_S512x3_S3x512_S512x512_1_0_0_1_n_n.lhsNonContracting by decide)]
  rfl
theorem lhs_coord_1 (i : S512x512.Idx) (q : dot_S512x3_S3x512_S512x512_1_0_0_1_n_n.contr.Idx) :
    (dot_S512x3_S3x512_S512x512_1_0_0_1_n_n.lhsIdx i q 1).val = (q ⟨0, by decide⟩).val :=
  dot_S512x3_S3x512_S512x512_1_0_0_1_n_n.lhsIdx_val_of_single rfl i q
theorem rhs_coord_0 (i : S512x512.Idx) (q : dot_S512x3_S3x512_S512x512_1_0_0_1_n_n.contr.Idx) :
    (dot_S512x3_S3x512_S512x512_1_0_0_1_n_n.rhsIdx i q 0).val = (q ⟨0, by decide⟩).val :=
  dot_S512x3_S3x512_S512x512_1_0_0_1_n_n.rhsIdx_val_of_single rfl i q
theorem rhs_coord_1 (i : S512x512.Idx) (q : dot_S512x3_S3x512_S512x512_1_0_0_1_n_n.contr.Idx) :
    (dot_S512x3_S3x512_S512x512_1_0_0_1_n_n.rhsIdx i q 1).val = (i 1).val := by
  unfold DotDims.rhsIdx
  rw [dif_neg (show ¬(1 : Fin S3x512.rank) ∈ dot_S512x3_S3x512_S512x512_1_0_0_1_n_n.rhsBatch by decide), dif_pos (show (1 : Fin S3x512.rank) ∈ dot_S512x3_S3x512_S512x512_1_0_0_1_n_n.rhsNonContracting by decide)]
  rfl

/-- Entry `(p, q)` of the coordinate product into the zero matrix: the sum over the three coordinates. -/
theorem matmul_coord_apply (prec : Option ContractPrecision) (a : FVec Ideal S512x3 .f32) (b : FVec Ideal S3x512 .f32)
    (p q : Fin 512) :
    matmul dot_S512x3_S3x512_S512x512_1_0_0_1_n_n prec a b (constant (F := Ideal) S512x512 .f32 0x00000000#32) (ix2 p q)
      = ∑ k : Fin 3, a (ix2 p k) * b (ix2 k q) := by
  refine (Ideal.matmul_constant_zero_apply dot_S512x3_S3x512_S512x512_1_0_0_1_n_n prec a b (ix2 p q)).trans ?_
  rw [← Equiv.sum_comp (ValueIdx.contrEquiv1 dot_S512x3_S3x512_S512x512_1_0_0_1_n_n 3 rfl rfl).symm]
  refine Finset.sum_congr rfl fun k _ => ?_
  have hk := ValueIdx.contrEquiv1_symm_val dot_S512x3_S3x512_S512x512_1_0_0_1_n_n 3 rfl rfl k
  have el : dot_S512x3_S3x512_S512x512_1_0_0_1_n_n.lhsIdx (ix2 p q) ((ValueIdx.contrEquiv1 dot_S512x3_S3x512_S512x512_1_0_0_1_n_n 3 rfl rfl).symm k) = ix2 p k := funext fun c => Fin.ext (by
    match c with
    | ⟨0, _⟩ => exact lhs_coord_0 _ _
    | ⟨1, _⟩ => exact (lhs_coord_1 _ _).trans hk)
  have er : dot_S512x3_S3x512_S512x512_1_0_0_1_n_n.rhsIdx (ix2 p q) ((ValueIdx.contrEquiv1 dot_S512x3_S3x512_S512x512_1_0_0_1_n_n 3 rfl rfl).symm k) = ix2 k q := funext fun c => Fin.ext (by
    match c with
    | ⟨0, _⟩ => exact (rhs_coord_0 _ _).trans hk
    | ⟨1, _⟩ => exact rhs_coord_1 _ _)
  rw [el, er]

end Cert.KernelIdeal.TileV

end
-- ==== Proof.KI.TileIdealIn.lean ====
/-
  The values a grid point computes from its input blocks, read at an entry over the extended reals.

  From the row tile's and the column tile's feature blocks `a`, `b`, their coordinate rows `u`, `v` (three
  coordinates, the squared norm, the mask) and the column tile's squared norms `s` laid out as a row:
  the feature similarity at `(p, q)` is `∑ k, a (p, k) * b (q, k)`; the clamped squared distance is
  `max ((u (p, 3) + s (0, q)) - 2 * ∑ k, u (p, k) * v (q, k)) 0`; the neighbourhood flag is the conjunction of the two
  comparisons of that distance, widened to a 32-bit word; the row mask column reads `u (p, 4)`.
-/
import proofs.«109491_j86354612453531_1_alg».proof.Proof.Gen.KernelIdeal.Skeleton
import proofs.«109491_j86354612453531_1_alg».proof.Proof.KI.TileIdealMatmul
import proofs.«109491_j86354612453531_1_alg».proof.Proof.LibRowReduce
import Idealize.ShloMosaic.Lib.ValueIdx
import Idealize.ShloMosaic.Lib.ValueLayout
import Idealize.ShloMosaic.Lib.Pipeline.Value

noncomputable section

open scoped BigOperators

namespace Cert.KernelIdeal.TileV

open Cert.KernelIdeal Cert.KernelIdeal.Gen Cert.LibRowReduce
open Idealize.ShloMosaic Idealize.ShloMosaic.ValueIdx

/-- A recast to the same shape changes nothing: the coordinate rows. -/
theorem pay3_eq (u : Vec Ideal S512x5 .f32) : k0_pay3 (F := Ideal) u = u := by
  unfold k0_pay3
  exact shapeCast_self _ _

/-- A recast to the same shape changes nothing: the column tile's mask row. -/
theorem pay4_eq (m : Vec Ideal S1x512 .f32) : k0_pay4 (F := Ideal) m = m := by
  unfold k0_pay4
  exact shapeCast_self _ _

/-- The row tile's mask column: column 4 of its coordinate rows. -/
theorem pay5_apply (u : Vec Ideal S512x5 .f32) (p : Fin 512) (z : Fin 1) :
    k0_pay5 (F := Ideal) u (ix2 p z) = u (ix2 p (4 : Fin 5)) := by
  unfold k0_pay5
  refine (slice2_axis1_apply 4 _ _ p z (4 : Fin 5) (by have := z.isLt; show 4 = 4 + z.val; omega)).trans ?_
  exact congrFun (pay3_eq u) _

/-- The feature similarity of row `p` of the row tile and row `q` of the column tile. -/
theorem pay6_apply (a b : Vec Ideal S512x64 .bf16) (p q : Fin 512) :
    k0_pay6 (F := Ideal) a b (ix2 p q) = ∑ k : Fin 64, a (ix2 p k) * b (ix2 q k) := by
  unfold k0_pay6
  refine (matmul_feat_apply _ _ _ p q).trans ?_
  refine Finset.sum_congr rfl fun k _ => ?_
  refine congrArg₂ (· * ·) (congrFun (shapeCast_self _ _) _) ?_
  refine (transpose_ix2_apply _ _ k q).trans ?_
  exact congrFun (shapeCast_self _ _) _

/-- The clamped squared distance of row `p` of the row tile and row `q` of the column tile. -/
theorem pay7_apply (u v : Vec Ideal S512x5 .f32) (s : Vec Ideal S1x512 .f32) (p q : Fin 512) :
    k0_pay7 (F := Ideal) u v s (ix2 p q)
      = max ((u (ix2 p (3 : Fin 5)) + s (ix2 (0 : Fin 1) q))
          - Ideal.ofBits .f32 0x40000000#32
            * ∑ k : Fin 3, u (ix2 p (Fin.castLE (by decide : 3 ≤ 5) k)) * v (ix2 q (Fin.castLE (by decide : 3 ≤ 5) k)))
        (Ideal.ofBits .f32 0x00000000#32) := by
  unfold k0_pay7
  refine (maximumf_apply _ _ _).trans ?_
  refine congrArg₂ max ?_ rfl
  refine (subf_apply _ _ _).trans ?_
  refine congrArg₂ (· - ·) ?_ ?_
  · refine (addf_apply _ _ _).trans ?_
    refine congrArg₂ (· + ·) ?_ ?_
    · refine (broadcastTo_a1_ab_apply _ _ p q).trans ?_
      refine (slice2_axis1_apply 3 _ _ p (0 : Fin 1) (3 : Fin 5) rfl).trans ?_
      exact congrFun (pay3_eq u) _
    · refine (broadcastTo_1b_ab_apply _ _ p q).trans ?_
      exact congrFun (shapeCast_self _ _) _
  · refine (mulf_apply _ _ _).trans ?_
    refine congrArg₂ (· * ·) rfl ?_
    refine (matmul_coord_apply _ _ _ p q).trans ?_
    refine Finset.sum_congr rfl fun k _ => ?_
    refine congrArg₂ (· * ·) ?_ ?_
    · refine (slice2_axis1_apply 0 _ _ p k (Fin.castLE (by decide : 3 ≤ 5) k) (Nat.zero_add _).symm).trans ?_
      exact congrFun (pay3_eq u) _
    · refine (transpose_ix2_apply _ _ k q).trans ?_
      refine (slice2_axis1_apply 0 _ _ q k (Fin.castLE (by decide : 3 ≤ 5) k) (Nat.zero_add _).symm).trans ?_
      exact congrFun (shapeCast_self _ _) _

/-- The neighbourhood flag: both comparisons of the clamped squared distance hold, as a 32-bit word. -/
theorem pay8_apply (u v : Vec Ideal S512x5 .f32) (s : Vec Ideal S1x512 .f32) (p q : Fin 512) :
    k0_pay8 (F := Ideal) u v s (ix2 p q)
      = (IntOp.andi (FloatOps.cmpf (F := Ideal) .olt (k0_pay7 (F := Ideal) u v s (ix2 p q)) (Ideal.ofBits .f32 0x3F800000#32))
          (FloatOps.cmpf (F := Ideal) .ogt (k0_pay7 (F := Ideal) u v s (ix2 p q)) (Ideal.ofBits .f32 0x2B8CBCCC#32))).setWidth 32 := by
  unfold k0_pay8
  rfl

end Cert.KernelIdeal.TileV

end
-- ==== Proof.KI.TileIdealLayout.lean ====
/-
  Three columns laid side by side, read at an entry.

  The concatenation along axis 1 of three `[n, 1]` columns is an `[n, 3]` matrix whose entry `(p, k)` is the `k`-th
  column at `(p, 0)`: the columns before the `k`-th take up `k` places of the axis.
-/
import Idealize.ShloMosaic.Lib.ValueIdx
import Idealize.ShloMosaic.Lib.Pipeline.Value

noncomputable section

namespace Cert.KernelIdeal.TileV

open Idealize.ShloMosaic Idealize.ShloMosaic.ValueIdx

variable {α : Type} {n : ℕ}

/-- Entry `(p, 0)` of three columns side by side is the first column at `(p, 0)`. -/
theorem concat3_apply_0 (c0 c1 c2 : (⟨2, ![n, 1]⟩ : Shape).Idx → α)
    (h : Shape.Concatenates [(⟨2, ![n, 1]⟩ : Shape), ⟨2, ![n, 1]⟩, ⟨2, ![n, 1]⟩] ⟨2, ![n, 3]⟩ 1) (p : Fin n) :
    concatenate ⟨2, ![n, 3]⟩ 1 [⟨⟨2, ![n, 1]⟩, c0⟩, ⟨⟨2, ![n, 1]⟩, c1⟩, ⟨⟨2, ![n, 1]⟩, c2⟩] h (ix2 p (⟨0, by decide⟩ : Fin 3))
      = c0 (ix2 p (0 : Fin 1)) :=
  concatenate_apply_piece (t := ⟨2, ![n, 3]⟩) 1 [⟨⟨2, ![n, 1]⟩, c0⟩, ⟨⟨2, ![n, 1]⟩, c1⟩, ⟨⟨2, ![n, 1]⟩, c2⟩] h _
    0 (by show (0 : ℕ) < 3; omega) ⟨2, ![n, 1]⟩ c0 rfl rfl 0 rfl (ix2 p (0 : Fin 1))
    (fun b hb => by
      match b with
      | ⟨0, _⟩ => rfl
      | ⟨1, _⟩ => exact absurd rfl hb)
    rfl

/-- Entry `(p, 1)` of three columns side by side is the second column at `(p, 0)`. -/
theorem concat3_apply_1 (c0 c1 c2 : (⟨2, ![n, 1]⟩ : Shape).Idx → α)
    (h : Shape.Concatenates [(⟨2, ![n, 1]⟩ : Shape), ⟨2, ![n, 1]⟩, ⟨2, ![n, 1]⟩] ⟨2, ![n, 3]⟩ 1) (p : Fin n) :
    concatenate ⟨2, ![n, 3]⟩ 1 [⟨⟨2, ![n, 1]⟩, c0⟩, ⟨⟨2, ![n, 1]⟩, c1⟩, ⟨⟨2, ![n, 1]⟩, c2⟩] h (ix2 p (⟨1, by decide⟩ : Fin 3))
      = c1 (ix2 p (0 : Fin 1)) :=
  concatenate_apply_piece (t := ⟨2, ![n, 3]⟩) 1 [⟨⟨2, ![n, 1]⟩, c0⟩, ⟨⟨2, ![n, 1]⟩, c1⟩, ⟨⟨2, ![n, 1]⟩, c2⟩] h _
    1 (by show (1 : ℕ) < 3; omega) ⟨2, ![n, 1]⟩ c1 rfl rfl 1 rfl (ix2 p (0 : Fin 1))
    (fun b hb => by
      match b with
      | ⟨0, _⟩ => rfl
      | ⟨1, _⟩ => exact absurd rfl hb)
    rfl

/-- Entry `(p, 2)` of three columns side by side is the third column at `(p, 0)`. -/
theorem concat3_apply_2 (c0 c1 c2 : (⟨2, ![n, 1]⟩ : Shape).Idx → α)
    (h : Shape.Concatenates [(⟨2, ![n, 1]⟩ : Shape), ⟨2, ![n, 1]⟩, ⟨2, ![n, 1]⟩] ⟨2, ![n, 3]⟩ 1) (p : Fin n) :
    concatenate ⟨2, ![n, 3]⟩ 1 [⟨⟨2, ![n, 1]⟩, c0⟩, ⟨⟨2, ![n, 1]⟩, c1⟩, ⟨⟨2, ![n, 1]⟩, c2⟩] h (ix2 p (⟨2, by decide⟩ : Fin 3))
      = c2 (ix2 p (0 : Fin 1)) :=
  concatenate_apply_piece (t := ⟨2, ![n, 3]⟩) 1 [⟨⟨2, ![n, 1]⟩, c0⟩, ⟨⟨2, ![n, 1]⟩, c1⟩, ⟨⟨2, ![n, 1]⟩, c2⟩] h _
    2 (by show (2 : ℕ) < 3; omega) ⟨2, ![n, 1]⟩ c2 rfl rfl 2 rfl (ix2 p (0 : Fin 1))
    (fun b hb => by
      match b with
      | ⟨0, _⟩ => rfl
      | ⟨1, _⟩ => exact absurd rfl hb)
    rfl

end Cert.KernelIdeal.TileV

end
-- ==== Proof.KI.TileIdealOut.lean ====
/-
  The accumulator's update, read at an entry over the extended reals.

  From the column tile's mask row `m`, the row tile's mask column `w`, the feature similarities `f`, the clamped squared
  distances `d`, the neighbourhood flags `n` and the accumulator's old value `acc`, the new accumulator is the old one plus
  three row sums laid side by side. With `pair = w (p, 0) * m (0, q)`, `pos = pair * n` and `ex = exp (f * c)`:
  column 0 adds `∑ q, ex * (pair * (1 - n))`; column 1 adds `∑ q, ex * pos`; column 2 adds
  `∑ q, |(1 - f) - sqrt (if pos > 1/2 then d else 1)| * pos`.
-/
import proofs.«109491_j86354612453531_1_alg».proof.Proof.Gen.KernelIdeal.Skeleton
import proofs.«109491_j86354612453531_1_alg».proof.Proof.KI.TileIdealLayout
import proofs.«109491_j86354612453531_1_alg».proof.Proof.LibRowReduce
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.TileV

open Cert.KernelIdeal Cert.KernelIdeal.Gen Cert.LibRowReduce
open Idealize.ShloMosaic Idealize.ShloMosaic.ValueIdx

variable (m : FVec Ideal S1x512 .f32) (w : FVec Ideal S512x1 .f32) (f d : FVec Ideal S512x512 .f32) (n : IVec S512x512 32)
  (acc : Vec Ideal S512x3 .f32)

/-- The pair mask at `(p, q)`: the row's mask times the column's mask. -/
theorem pair_apply (p q : Fin 512) :
    mulf (broadcastTo S512x512 w broadcasts_S512x1_S512x512) (broadcastTo S512x512 m broadcasts_S1x512_S512x512) (ix2 p q)
      = w (ix2 p (0 : Fin 1)) * m (ix2 (0 : Fin 1) q) :=
  (mulf_apply _ _ _).trans (congrArg₂ (· * ·) (broadcastTo_a1_ab_apply _ _ p q) (broadcastTo_1b_ab_apply _ _ p q))

/-- The positive-pair weight at `(p, q)`: the pair mask times the neighbourhood flag as a number. -/
theorem pos_apply (p q : Fin 512) :
    mulf (mulf (broadcastTo S512x512 w broadcasts_S512x1_S512x512) (broadcastTo S512x512 m broadcasts_S1x512_S512x512))
        (sitofp (F := Ideal) .f32 n) (ix2 p q)
      = (w (ix2 p (0 : Fin 1)) * m (ix2 (0 : Fin 1) q)) * FloatOps.sitofp (F := Ideal) .f32 (n (ix2 p q)) :=
  (mulf_apply _ _ _).trans (congrArg₂ (· * ·) (pair_apply m w p q) rfl)

/-- Column 0 of the new accumulator: the old entry plus the row's sum of the negative-pair terms. -/
theorem pay1_apply_0 (p : Fin 512) :
    k0_pay1 (F := Ideal) m w f d n acc (ix2 p (⟨0, by decide⟩ : Fin 3))
      = acc (ix2 p (⟨0, by decide⟩ : Fin 3)) + ∑ q : Fin 512,
          Ideal.exp (f (ix2 p q) * Named.named (F := Ideal) κ "inv_temperature" (φ := .f32) 0x41200000#32)
            * ((w (ix2 p (0 : Fin 1)) * m (ix2 (0 : Fin 1) q))
                * (Ideal.ofBits .f32 0x3F800000#32 - FloatOps.sitofp (F := Ideal) .f32 (n (ix2 p q)))) := by
  unfold k0_pay1
  refine (congrFun (shapeCast_self _ _) _).trans ?_
  refine (addf_apply _ _ _).trans ?_
  refine congrArg₂ (· + ·) rfl ?_
  refine (concat3_apply_0 _ _ _ _ p).trans ?_
  refine (shapeCast_a_a1_apply _ _ p (0 : Fin 1)).trans ?_
  refine (rowSum_apply _ _ _ _ _ p).trans ?_
  refine Finset.sum_congr rfl fun q _ => ?_
  refine (mulf_apply _ _ _).trans ?_
  refine congrArg₂ (· * ·) rfl ?_
  refine (mulf_apply _ _ _).trans ?_
  exact congrArg₂ (· * ·) (pair_apply m w p q) rfl

/-- Column 1 of the new accumulator: the old entry plus the row's sum of the positive-pair terms. -/
theorem pay1_apply_1 (p : Fin 512) :
    k0_pay1 (F := Ideal) m w f d n acc (ix2 p (⟨1, by decide⟩ : Fin 3))
      = acc (ix2 p (⟨1, by decide⟩ : Fin 3)) + ∑ q : Fin 512,
          Ideal.exp (f (ix2 p q) * Named.named (F := Ideal) κ "inv_temperature" (φ := .f32) 0x41200000#32)
            * ((w (ix2 p (0 : Fin 1)) * m (ix2 (0 : Fin 1) q)) * FloatOps.sitofp (F := Ideal) .f32 (n (ix2 p q))) := by
  unfold k0_pay1
  refine (congrFun (shapeCast_self _ _) _).trans ?_
  refine (addf_apply _ _ _).trans ?_
  refine congrArg₂ (· + ·) rfl ?_
  refine (concat3_apply_1 _ _ _ _ p).trans ?_
  refine (shapeCast_a_a1_apply _ _ p (0 : Fin 1)).trans ?_
  refine (rowSum_apply _ _ _ _ _ p).trans ?_
  refine Finset.sum_congr rfl fun q _ => ?_
  refine (mulf_apply _ _ _).trans ?_
  exact congrArg₂ (· * ·) rfl (pos_apply m w n p q)

/-- Column 2 of the new accumulator: the old entry plus the row's sum of the distance-mismatch terms. -/
theorem pay1_apply_2 (p : Fin 512) :
    k0_pay1 (F := Ideal) m w f d n acc (ix2 p (⟨2, by decide⟩ : Fin 3))
      = acc (ix2 p (⟨2, by decide⟩ : Fin 3)) + ∑ q : Fin 512,
          FloatOps.absf (F := Ideal) ((Ideal.ofBits .f32 0x3F800000#32 - f (ix2 p q))
              - Ideal.sqrt (Scalar.select
                  (FloatOps.cmpf (F := Ideal) .ogt
                    ((w (ix2 p (0 : Fin 1)) * m (ix2 (0 : Fin 1) q)) * FloatOps.sitofp (F := Ideal) .f32 (n (ix2 p q)))
                    (Ideal.ofBits .f32 0x3F000000#32))
                  (d (ix2 p q)) (Ideal.ofBits .f32 0x3F800000#32)))
            * ((w (ix2 p (0 : Fin 1)) * m (ix2 (0 : Fin 1) q)) * FloatOps.sitofp (F := Ideal) .f32 (n (ix2 p q))) := by
  unfold k0_pay1
  refine (congrFun (shapeCast_self _ _) _).trans ?_
  refine (addf_apply _ _ _).trans ?_
  refine congrArg₂ (· + ·) rfl ?_
  refine (concat3_apply_2 _ _ _ _ p).trans ?_
  refine (shapeCast_a_a1_apply _ _ p (0 : Fin 1)).trans ?_
  refine (rowSum_apply _ _ _ _ _ p).trans ?_
  refine Finset.sum_congr rfl fun q _ => ?_
  refine (mulf_apply _ _ _).trans ?_
  refine congrArg₂ (· * ·) ?_ (pos_apply m w n p q)
  refine congrArg (FloatOps.absf (F := Ideal) (φ := .f32)) ?_
  refine (subf_apply _ _ _).trans ?_
  refine congrArg₂ (· - ·) rfl ?_
  refine congrArg Ideal.sqrt ?_
  refine (select_apply _ _ _ _).trans ?_
  refine congrArg (fun c => Scalar.select c (d (ix2 p q)) (Ideal.ofBits .f32 0x3F800000#32)) ?_
  refine (cmpf_apply _ _ _ _).trans ?_
  exact congrArg (fun x => FloatOps.cmpf (F := Ideal) .ogt x (Ideal.ofBits .f32 0x3F000000#32)) (pos_apply m w n p q)

end Cert.KernelIdeal.TileV

end
-- ==== Proof.KI.TileIdeal.lean ====
/-
  One grid point's update of the accumulator, read at an entry over the extended reals.

  With the blocks the rows `i·512 + p` (row tile `i`) and `j·512 + q` (column tile `j`) of four full-size arrays — the
  normalised features `fa`, the coordinate rows `cr` (three coordinates, the squared norm, the mask), the squared norms
  `st` and the mask `mt` laid out as rows — entry `(p, k)` of the new accumulator is the old entry plus the sum over the
  tile's 512 columns `q` of the `k`-th pair function at rows `(i·512 + p, j·512 + q)`.
-/
import proofs.«109491_j86354612453531_1_alg».proof.Proof.KI.TileDef
import proofs.«109491_j86354612453531_1_alg».proof.Proof.LibRowReduce
import proofs.«109491_j86354612453531_1_alg».proof.Proof.KI.TileIdealIn
import proofs.«109491_j86354612453531_1_alg».proof.Proof.KI.TileIdealOut
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.TileV

open Cert.KernelIdeal Cert.KernelIdeal.Gen Cert.KernelIdeal.Hand
open Idealize.ShloMosaic Idealize.ShloMosaic.ValueIdx

/-- Row `p` of tile `i`, as a row of the full arrays. -/
def row (i : Fin 16) (p : Fin 512) : Fin 8192 := ⟨i.val * 512 + p.val, by have := i.isLt; have := p.isLt; omega⟩

/-- Coordinate `k` of a coordinate row (columns 0, 1, 2 of its five). -/
def cix (k : Fin 3) : Fin 5 := ⟨k.val, by have := k.isLt; omega⟩

variable (fa : FVec Ideal S8192x64 .bf16) (cr : FVec Ideal S8192x5 .f32) (st : FVec Ideal S1x8192 .f32) (mt : FVec Ideal S1x8192 .f32)

abbrev fOne : EReal := Ideal.ofBits .f32 0x3F800000#32
abbrev fZero : EReal := Ideal.ofBits .f32 0x00000000#32
abbrev fTwo : EReal := Ideal.ofBits .f32 0x40000000#32
abbrev fEps : EReal := Ideal.ofBits .f32 0x2B8CBCCC#32
abbrev fHalf : EReal := Ideal.ofBits .f32 0x3F000000#32

/-- The pair functions in the form the kernel computes them, rows `r` and `c` of the full arrays. -/
def simK (r c : Fin 8192) : EReal := ∑ k : Fin 64, fa (ix2 r k) * fa (ix2 c k)
def sqK (r c : Fin 8192) : EReal :=
  max ((cr (ix2 r (3 : Fin 5)) + st (ix2 (0 : Fin 1) c)) - fTwo * ∑ k : Fin 3, cr (ix2 r (cix k)) * cr (ix2 c (cix k))) fZero
def wK (r c : Fin 8192) : EReal :=
  FloatOps.sitofp (F := Ideal) .f32
    ((IntOp.andi (FloatOps.cmpf (F := Ideal) (φ := .f32) .olt (sqK cr st r c) fOne) (FloatOps.cmpf (F := Ideal) (φ := .f32) .ogt (sqK cr st r c) fEps)).setWidth 32)
def pairK (r c : Fin 8192) : EReal := cr (ix2 r (4 : Fin 5)) * mt (ix2 (0 : Fin 1) c)
def posK (r c : Fin 8192) : EReal := pairK cr mt r c * wK cr st r c
def negK (r c : Fin 8192) : EReal := pairK cr mt r c * (fOne - wK cr st r c)
def exK (r c : Fin 8192) : EReal :=
  Ideal.exp (simK fa r c * Named.named (F := Ideal) κ "inv_temperature" (φ := .f32) 0x41200000#32)
def HK0 (r c : Fin 8192) : EReal := exK fa r c * negK cr st mt r c
def HK1 (r c : Fin 8192) : EReal := exK fa r c * posK cr st mt r c
def HK2 (r c : Fin 8192) : EReal :=
  FloatOps.absf (F := Ideal) (φ := .f32) ((fOne - simK fa r c)
      - Ideal.sqrt (Scalar.select (FloatOps.cmpf (F := Ideal) (φ := .f32) .ogt (posK cr st mt r c) fHalf) (sqK cr st r c) fOne))
    * posK cr st mt r c

/-- The `k`-th pair function. -/
def HK (k : Fin 3) (r c : Fin 8192) : EReal :=
  match k with
  | ⟨0, _⟩ => HK0 fa cr st mt r c
  | ⟨1, _⟩ => HK1 fa cr st mt r c
  | ⟨2, _⟩ => HK2 fa cr st mt r c

/-! ## The tile's values as the pair functions of the full arrays -/

section Blocks
variable (i j : Fin 16)
  (x0 x1 : Vec Ideal S512x64 .bf16) (x2 x3 : Vec Ideal S512x5 .f32) (x4 x5 : Vec Ideal S1x512 .f32)
  (h0 : ∀ (p : Fin 512) (k : Fin 64), x0 (ix2 p k) = fa (ix2 (row i p) k))
  (h1 : ∀ (q : Fin 512) (k : Fin 64), x1 (ix2 q k) = fa (ix2 (row j q) k))
  (h2 : ∀ (p : Fin 512) (k : Fin 5), x2 (ix2 p k) = cr (ix2 (row i p) k))
  (h3 : ∀ (q : Fin 512) (k : Fin 5), x3 (ix2 q k) = cr (ix2 (row j q) k))
  (h4 : ∀ q : Fin 512, x4 (ix2 (0 : Fin 1) q) = st (ix2 (0 : Fin 1) (row j q)))
  (h5 : ∀ q : Fin 512, x5 (ix2 (0 : Fin 1) q) = mt (ix2 (0 : Fin 1) (row j q)))
include h0 h1 in
/-- The tile's feature similarity is the similarity of the two global rows. -/
theorem sim_tile (p q : Fin 512) : k0_pay6 (F := Ideal) x0 x1 (ix2 p q) = simK fa (row i p) (row j q) := by
  refine (pay6_apply x0 x1 p q).trans ?_
  unfold simK
  exact Finset.sum_congr rfl fun k _ => congrArg₂ (· * ·) (h0 p k) (h1 q k)

include h2 h3 h4 in
/-- The tile's clamped squared distance is that of the two global rows. -/
theorem sq_tile (p q : Fin 512) : k0_pay7 (F := Ideal) x2 x3 x4 (ix2 p q) = sqK cr st (row i p) (row j q) := by
  refine (pay7_apply x2 x3 x4 p q).trans ?_
  unfold sqK
  refine congrArg₂ max ?_ rfl
  refine congrArg₂ (· - ·) (congrArg₂ (· + ·) (h2 p 3) (h4 q)) ?_
  refine congrArg₂ (· * ·) rfl ?_
  exact Finset.sum_congr rfl fun k _ => congrArg₂ (· * ·) (h2 p (cix k)) (h3 q (cix k))

include h2 h3 h4 in
/-- The tile's neighbourhood flag, as a number, is that of the two global rows. -/
theorem w_tile (p q : Fin 512) :
    FloatOps.sitofp (F := Ideal) .f32 (k0_pay8 (F := Ideal) x2 x3 x4 (ix2 p q)) = wK cr st (row i p) (row j q) := by
  unfold wK
  refine congrArg (FloatOps.sitofp (F := Ideal) .f32) ?_
  refine (pay8_apply x2 x3 x4 p q).trans ?_
  rw [sq_tile cr st i j x2 x3 x4 h2 h3 h4 p q]

include h2 in
/-- The row tile's mask column is the mask of the global row. -/
theorem maskRow_tile (p : Fin 512) : k0_pay5 (F := Ideal) x2 (ix2 p (0 : Fin 1)) = cr (ix2 (row i p) (4 : Fin 5)) :=
  (pay5_apply x2 p 0).trans (h2 p 4)

include h5 in
/-- The column tile's mask row is the mask of the global row. -/
theorem maskCol_tile (q : Fin 512) : k0_pay4 (F := Ideal) x5 (ix2 (0 : Fin 1) q) = mt (ix2 (0 : Fin 1) (row j q)) :=
  (congrFun (pay4_eq x5) _).trans (h5 q)

end Blocks

/-- THE TILE: with the six blocks the tiles' rows of the full arrays, the new accumulator at `(p, k)` is the old entry plus
    the `k`-th pair function summed over the column tile. -/
theorem tileUpd_apply (i j : Fin 16)
    (x0 x1 : Vec Ideal S512x64 .bf16) (x2 x3 : Vec Ideal S512x5 .f32) (x4 x5 : Vec Ideal S1x512 .f32) (acc : Vec Ideal S512x3 .f32)
    (h0 : ∀ (p : Fin 512) (k : Fin 64), x0 (ix2 p k) = fa (ix2 (row i p) k))
    (h1 : ∀ (q : Fin 512) (k : Fin 64), x1 (ix2 q k) = fa (ix2 (row j q) k))
    (h2 : ∀ (p : Fin 512) (k : Fin 5), x2 (ix2 p k) = cr (ix2 (row i p) k))
    (h3 : ∀ (q : Fin 512) (k : Fin 5), x3 (ix2 q k) = cr (ix2 (row j q) k))
    (h4 : ∀ q : Fin 512, x4 (ix2 (0 : Fin 1) q) = st (ix2 (0 : Fin 1) (row j q)))
    (h5 : ∀ q : Fin 512, x5 (ix2 (0 : Fin 1) q) = mt (ix2 (0 : Fin 1) (row j q)))
    (p : Fin 512) (k : Fin 3) :
    tileUpd (F := Ideal) x0 x1 x2 x3 x4 x5 acc (ix2 p k)
      = acc (ix2 p k) + ∑ q : Fin 512, HK fa cr st mt k (row i p) (row j q) := by
  match k with
  | ⟨0, _⟩ =>
    unfold tileUpd
    refine (pay1_apply_0 _ _ _ _ _ _ p).trans ?_
    refine congrArg₂ (· + ·) rfl ?_
    refine Finset.sum_congr rfl fun q _ => ?_
    rw [sim_tile fa i j x0 x1 h0 h1 p q, maskRow_tile cr i x2 h2 p, maskCol_tile mt j x5 h5 q,
      w_tile cr st i j x2 x3 x4 h2 h3 h4 p q]
    rfl
  | ⟨1, _⟩ =>
    unfold tileUpd
    refine (pay1_apply_1 _ _ _ _ _ _ p).trans ?_
    refine congrArg₂ (· + ·) rfl ?_
    refine Finset.sum_congr rfl fun q _ => ?_
    rw [sim_tile fa i j x0 x1 h0 h1 p q, maskRow_tile cr i x2 h2 p, maskCol_tile mt j x5 h5 q,
      w_tile cr st i j x2 x3 x4 h2 h3 h4 p q]
    rfl
  | ⟨2, _⟩ =>
    unfold tileUpd
    refine (pay1_apply_2 _ _ _ _ _ _ p).trans ?_
    refine congrArg₂ (· + ·) rfl ?_
    refine Finset.sum_congr rfl fun q _ => ?_
    rw [sim_tile fa i j x0 x1 h0 h1 p q, maskRow_tile cr i x2 h2 p, maskCol_tile mt j x5 h5 q,
      w_tile cr st i j x2 x3 x4 h2 h3 h4 p q, sq_tile cr st i j x2 x3 x4 h2 h3 h4 p q]
    rfl

/-- The reset value is zero everywhere. -/
theorem reset_apply (y : S512x3.Idx) : (k0_pay2 (F := Ideal)) y = 0 := by
  unfold k0_pay2
  refine (congrFun (shapeCast_self _ _) _).trans ?_
  exact Ideal.ofBits_zero_f32

end Cert.KernelIdeal.TileV

end
-- ==== Proof.Spec.lean ====
/-
  The mathematics both programs compute, over the extended reals.

  From normalised features `fn` (8192 rows of 64), coordinates `co` (8192 rows of 3), their squared norms `sqn` and the
  line-point mask `mb`, every ordered pair of rows `(r, c)` has a cosine similarity `sim r c = ∑ k, fn r k · fn c k`, a
  clamped squared distance `sq r c = max (sqn r + sqn c - 2 · ∑ k, co r k · co c k) 0`, and two masks: `pos` (both rows
  are line points and `1e-12 < sq < 1`) and `neg` (both are line points and not so). Three quantities are summed over
  the partner row `c`: `h0 = exp (sim / T) · neg`, `h1 = exp (sim / T) · pos` and
  `h2 = |(1 - sim) - √(pos ? sq : 1)| · pos`, with `T` the temperature's binary value. The loss is a fixed function of
  the row sums of `h0` and `h1` and of the total of `h2`.
-/
import Idealize.ShloMosaic.PureOps.Ideal.Laws
import Idealize.ShloMosaic.Lib.ValueIdx

noncomputable section

open scoped BigOperators

namespace Cert.Spec

open Idealize.ShloMosaic Idealize.ShloMosaic.ValueIdx

abbrev SNxD : Shape := ⟨2, ![8192, 64]⟩
abbrev SNx3 : Shape := ⟨2, ![8192, 3]⟩
abbrev SN : Shape := ⟨1, ![8192]⟩

/-- The float words the pairwise part reads. -/
abbrev wZero : BitVec 32 := 0x00000000#32
abbrev wOne : BitVec 32 := 0x3F800000#32
abbrev wTwo : BitVec 32 := 0x40000000#32
abbrev wEps : BitVec 32 := 0x2B8CBCCC#32
abbrev wTemp : BitVec 32 := 0x3DCCCCCD#32

variable (fn : FVec Ideal SNxD .f32) (co : FVec Ideal SNx3 .f32) (sqn : FVec Ideal SN .f32) (mb : IVec SN 1)

/-- Cosine similarity of rows `r` and `c` of the normalised features. -/
def sim (r c : Fin 8192) : EReal := ∑ k : Fin 64, fn (ix2 r k) * fn (ix2 c k)

/-- Inner product of the coordinates of rows `r` and `c`. -/
def cdot (r c : Fin 8192) : EReal := ∑ k : Fin 3, co (ix2 r k) * co (ix2 c k)

/-- Squared distance of rows `r` and `c`, clamped at zero. -/
def sq (r c : Fin 8192) : EReal :=
  max ((sqn (ix1 r) + sqn (ix1 c)) - Ideal.ofBits .f32 wTwo * cdot co r c) (Ideal.ofBits .f32 wZero)

/-- The squared distance lies strictly between `1e-12` and `1` (the distance itself between `1e-6` and `1`). -/
def within (r c : Fin 8192) : BitVec 1 :=
  IntOp.andi (FloatOps.cmpf (F := Ideal) .olt (sq co sqn r c) (Ideal.ofBits .f32 wOne))
    (FloatOps.cmpf (F := Ideal) .ogt (sq co sqn r c) (Ideal.ofBits .f32 wEps))

/-- Both rows are line points. -/
def pair (r c : Fin 8192) : BitVec 1 := IntOp.andi (mb (ix1 r)) (mb (ix1 c))

/-- A positive pair, -/
def pos (r c : Fin 8192) : BitVec 1 := IntOp.andi (pair mb r c) (within co sqn r c)

/-- a negative pair. -/
def neg (r c : Fin 8192) : BitVec 1 := IntOp.andi (pair mb r c) (~~~ (within co sqn r c))

/-- `exp (sim / T)`, the temperature the binary value of its word. -/
def ex (r c : Fin 8192) : EReal := Ideal.exp (Ideal.div (sim fn r c) (Ideal.ofBits .f32 wTemp))

def h0 (r c : Fin 8192) : EReal := ex fn r c * FloatOps.uitofp (F := Ideal) .f32 (neg co sqn mb r c)

def h1 (r c : Fin 8192) : EReal := ex fn r c * FloatOps.uitofp (F := Ideal) .f32 (pos co sqn mb r c)

def h2 (r c : Fin 8192) : EReal :=
  FloatOps.absf (F := Ideal) ((Ideal.ofBits .f32 wOne - sim fn r c)
      - Ideal.sqrt (Scalar.select (pos co sqn mb r c) (sq co sqn r c) (Ideal.ofBits .f32 wOne)))
    * FloatOps.uitofp (F := Ideal) .f32 (pos co sqn mb r c)

/-- The row sums. -/
def S0 (r : Fin 8192) : EReal := ∑ c : Fin 8192, h0 fn co sqn mb r c
def S1 (r : Fin 8192) : EReal := ∑ c : Fin 8192, h1 fn co sqn mb r c
def S2 (r : Fin 8192) : EReal := ∑ c : Fin 8192, h2 fn co sqn mb r c

end Cert.Spec

end
-- ==== Proof.SpecHost.lean ====
/-
  The parts of the computation that both programs carry out with the same whole-array host operations.

  Before the pairwise part: the line-point mask `labels = 2`, its float form, the number of line points `L`; the features
  divided by their row norms (clamped below at `1e-8`); the squared norms of the coordinate rows. After it: from the row sums
  `s0`, `s1` and the total `ct`, the loss `(∑_r -log (m_r ? s1_r / (s0_r + s1_r + 1e-6) : 1) · mf_r) / L + ½ · ct / L²`.
-/
import proofs.«109491_j86354612453531_1_alg».proof.Proof.Spec
import Idealize.ShloMosaic.PureOps

noncomputable section

namespace Cert.Spec

open Idealize.ShloMosaic

abbrev Ssc : Shape := ⟨0, ![]⟩
abbrev SNx1 : Shape := ⟨2, ![8192, 1]⟩

theorem bc_0_N : Ssc.BroadcastsInDim SN (![] : Fin 0 → Fin SN.rank) := by decide
theorem bc_0_Nx1 : Ssc.BroadcastsInDim SNx1 (![] : Fin 0 → Fin SNx1.rank) := by decide
theorem bc_N_Nx1 : SN.BroadcastsInDim SNx1 (![0] : Fin 1 → Fin SNx1.rank) := by decide
theorem bc_Nx1_NxD : SNx1.BroadcastsInDim SNxD (![0, 1] : Fin 2 → Fin SNxD.rank) := by decide
theorem rd_N_0 : SN.ReducesTo [0] Ssc := by decide
theorem rd_NxD_N : SNxD.ReducesTo [1] SN := by decide
theorem rd_Nx3_N : SNx3.ReducesTo [1] SN := by decide
theorem pos_S0 : 0 < Ssc.numel := by decide

/-- The line-point mask: `labels = 2`. -/
def mOf (lab : IVec SN 32) : IVec SN 1 := cmpi .eq lab (broadcastInDim SN ![] bc_0_N (constantI Ssc 32 2#32))
/-- Its float form, -/
def mfOf (lab : IVec SN 32) : FVec Ideal SN .f32 := uitofp .f32 (mOf lab)
/-- and the number of line points. -/
def LOf (lab : IVec SN 32) : FVec Ideal Ssc .f32 := Host.reduceAdd (mfOf lab) (constant Ssc .f32 0x00000000#32) rd_N_0 pos_S0

/-- The features divided by their row norms, the norm clamped below at `1e-8`. -/
def fnOf (f : FVec Ideal SNxD .f32) : FVec Ideal SNxD .f32 :=
  Host.divf f (broadcastInDim SNxD ![0, 1] bc_Nx1_NxD
    (maximumf (Host.sqrt (broadcastInDim SNx1 ![0] bc_N_Nx1 (Host.reduceAdd (mulf f f) (constant Ssc .f32 0x00000000#32) rd_NxD_N pos_S0)))
      (broadcastInDim SNx1 ![] bc_0_Nx1 (constant Ssc .f32 0x322BCC77#32))))

/-- The squared norms of the coordinate rows. -/
def sqnOf (co : FVec Ideal SNx3 .f32) : FVec Ideal SN .f32 :=
  Host.reduceAdd (mulf co co) (constant Ssc .f32 0x00000000#32) rd_Nx3_N pos_S0

/-- The loss from the row sums and the total. -/
def tail (m1 : IVec SN 1) (mf : FVec Ideal SN .f32) (L : FVec Ideal Ssc .f32) (s0 s1 : FVec Ideal SN .f32) (ct : FVec Ideal Ssc .f32) :
    FVec Ideal Ssc .f32 :=
  mulf
    (addf
      (Host.divf
        (Host.reduceAdd
          (mulf
            (Host.negf (Host.log (select m1
              (Host.divf s1 (addf (addf s0 s1) (broadcastInDim SN ![] bc_0_N (constant Ssc .f32 0x358637BD#32))))
              (broadcastInDim SN ![] bc_0_N (id (constant Ssc .f32 0x3F800000#32))))))
            mf)
          (constant Ssc .f32 0x00000000#32) rd_N_0 pos_S0)
        L)
      (mulf (constant Ssc .f32 0x3F000000#32) (Host.divf ct (mulf L L))))
    (constant Ssc .f32 0x3F800000#32)

end Cert.Spec

end
-- ==== Proof.KI.HostVals.lean ====
/-
  The host operations around the kernel region, read as values over the extended reals.

  Before the region: the array the two feature windows stage is the normalised features; the array the two coordinate-row
  windows stage has the coordinates in columns 0 to 2, the squared norm in column 3 and the float form of the line-point
  mask in column 4; the two row-laid arrays are the squared norms and the mask. After the region: the program's result is the
  shared loss function of the mask, the first two columns of the region's result array, and the sum of its third column.
  The arguments are never written.

  Each stretch of operations is first read from arbitrary buffer contents: what it leaves in the buffers it writes, as a
  whole-array term of the buffers it reads, and that it leaves the other buffers alone. The stretches are then chained from
  the launch contents, and the resulting whole-array terms are read at an entry.
-/
import proofs.«109491_j86354612453531_1_alg».proof.Proof.KI.Launch
import proofs.«109491_j86354612453531_1_alg».proof.Proof.KI.TileIdeal
import proofs.«109491_j86354612453531_1_alg».proof.Proof.SpecHost
import Idealize.ShloMosaic.Lib.StableHlo.Run
import Idealize.ShloMosaic.Lib.ValueLayout

set_option maxRecDepth 16384

noncomputable section

namespace Cert.KernelIdeal.HostV

open Cert.KernelIdeal Cert.KernelIdeal.Gen Cert.KernelIdeal.Hand Cert.KernelIdeal.TileV Cert.Spec
open Idealize.ShloMosaic Idealize.ShloMosaic.TcCoe Idealize.ShloMosaic.ValueIdx Idealize.SL.Sem

/-! ## The stretches before the region, from any contents -/

section Stretches

variable (W : Valuation τ sig (Elt Ideal))

/-- The row norms of the features, as a column. -/
def nrmOf (f : FVec Ideal SNxD .f32) : FVec Ideal SNx1 .f32 :=
  Host.sqrt (broadcastInDim SNx1 ![0] bc_N_Nx1 (Host.reduceAdd (mulf f f) (constant Ssc .f32 0x00000000#32) rd_NxD_N pos_S0))

/-- The features over their clamped row norms are the normalised features. -/
theorem fnOf_eq (f : FVec Ideal SNxD .f32) :
    Host.divf f (broadcastInDim SNxD ![0, 1] bc_Nx1_NxD
        (maximumf (nrmOf f) (broadcastInDim SNx1 ![] bc_0_Nx1 (constant (F := Ideal) Ssc .f32 0x322BCC77#32)))) = fnOf f := rfl

/-- The first stretch: the mask, its float form and the number of line points. -/
theorem s0_v1 : (StableHlo.after hostOps0 W (Proc.devRef .tc main_v1) : IVec SN 1) = mOf (W (Proc.devRef .tc main_arg1)) := by
  after_results <;> rfl
theorem s0_v2 : (StableHlo.after hostOps0 W (Proc.devRef .tc main_v2) : FVec Ideal SN .f32) = mfOf (W (Proc.devRef .tc main_arg1)) := by
  after_results <;> rfl
theorem s0_v3 : (StableHlo.after hostOps0 W (Proc.devRef .tc main_v3) : FVec Ideal Ssc .f32) = LOf (W (Proc.devRef .tc main_arg1)) := by
  after_results <;> rfl
theorem s0_arg0 : StableHlo.after hostOps0 W (Proc.devRef .tc main_arg0) = W (Proc.devRef .tc main_arg0) := by after_results
theorem s0_arg1 : StableHlo.after hostOps0 W (Proc.devRef .tc main_arg1) = W (Proc.devRef .tc main_arg1) := by after_results
theorem s0_arg2 : StableHlo.after hostOps0 W (Proc.devRef .tc main_arg2) = W (Proc.devRef .tc main_arg2) := by after_results

/-- The second stretch: the row norms. -/
theorem s01_v4 : (StableHlo.after hostOps0_1 W (Proc.devRef .tc main_v4) : FVec Ideal SNx1 .f32) = nrmOf (W (Proc.devRef .tc main_arg0)) := by
  after_results <;> rfl
theorem s01_arg0 : StableHlo.after hostOps0_1 W (Proc.devRef .tc main_arg0) = W (Proc.devRef .tc main_arg0) := by after_results
theorem s01_arg1 : StableHlo.after hostOps0_1 W (Proc.devRef .tc main_arg1) = W (Proc.devRef .tc main_arg1) := by after_results
theorem s01_arg2 : StableHlo.after hostOps0_1 W (Proc.devRef .tc main_arg2) = W (Proc.devRef .tc main_arg2) := by after_results
theorem s01_v1 : StableHlo.after hostOps0_1 W (Proc.devRef .tc main_v1) = W (Proc.devRef .tc main_v1) := by after_results
theorem s01_v2 : StableHlo.after hostOps0_1 W (Proc.devRef .tc main_v2) = W (Proc.devRef .tc main_v2) := by after_results
theorem s01_v3 : StableHlo.after hostOps0_1 W (Proc.devRef .tc main_v3) = W (Proc.devRef .tc main_v3) := by after_results

/-- The third stretch: the four arrays the windows stage. -/
theorem s02_v9 : (StableHlo.after hostOps0_2 W (Proc.devRef .tc main_v9) : FVec Ideal S8192x64 .bf16)
    = truncf .bf16 (Host.divf (W (Proc.devRef .tc main_arg0)) (broadcastInDim SNxD ![0, 1] bc_Nx1_NxD
        (maximumf (W (Proc.devRef .tc main_v4)) (broadcastInDim SNx1 ![] bc_0_Nx1 (constant (F := Ideal) Ssc .f32 0x322BCC77#32)))) : FVec Ideal SNxD .f32)
        bitsLt_bf16_f32 := by
  after_results <;> rfl
theorem s02_v14 : (StableHlo.after hostOps0_2 W (Proc.devRef .tc main_v14) : FVec Ideal S8192x5 .f32)
    = concatenate S8192x5 1 [⟨S8192x3, W (Proc.devRef .tc main_arg2)⟩,
        ⟨S8192x1, broadcastInDim S8192x1 ![0] bcast_S8192_S8192x1_0 (sqnOf (W (Proc.devRef .tc main_arg2)))⟩,
        ⟨S8192x1, broadcastInDim S8192x1 ![0] bcast_S8192_S8192x1_0 (W (Proc.devRef .tc main_v2) : FVec Ideal SN .f32)⟩]
        concatenates_S8192x3_S8192x1_S8192x1_S8192x5_d1 := by
  after_results <;> rfl
theorem s02_v15 : (StableHlo.after hostOps0_2 W (Proc.devRef .tc main_v15) : FVec Ideal S1x8192 .f32)
    = shapeCast S1x8192 (sqnOf (W (Proc.devRef .tc main_arg2))) shapeCasts_S8192_S1x8192 := by
  after_results <;> rfl
theorem s02_v16 : (StableHlo.after hostOps0_2 W (Proc.devRef .tc main_v16) : FVec Ideal S1x8192 .f32)
    = shapeCast S1x8192 (W (Proc.devRef .tc main_v2) : FVec Ideal SN .f32) shapeCasts_S8192_S1x8192 := by
  after_results <;> rfl
theorem s02_arg0 : StableHlo.after hostOps0_2 W (Proc.devRef .tc main_arg0) = W (Proc.devRef .tc main_arg0) := by after_results
theorem s02_arg1 : StableHlo.after hostOps0_2 W (Proc.devRef .tc main_arg1) = W (Proc.devRef .tc main_arg1) := by after_results
theorem s02_arg2 : StableHlo.after hostOps0_2 W (Proc.devRef .tc main_arg2) = W (Proc.devRef .tc main_arg2) := by after_results
theorem s02_v1 : StableHlo.after hostOps0_2 W (Proc.devRef .tc main_v1) = W (Proc.devRef .tc main_v1) := by after_results
theorem s02_v2 : StableHlo.after hostOps0_2 W (Proc.devRef .tc main_v2) = W (Proc.devRef .tc main_v2) := by after_results
theorem s02_v3 : StableHlo.after hostOps0_2 W (Proc.devRef .tc main_v3) = W (Proc.devRef .tc main_v3) := by after_results

end Stretches

/-! ## The stretches after the region, from any contents -/

section Tail

variable (W : Valuation τ sig (Elt Ideal))

/-- Column `o` of an `[8192, 3]` array, cut out and recast as a vector: the form the program computes it in. -/
abbrev cutCol (X : FVec Ideal S8192x3 .f32) (o : ℕ) (h : S8192x3.Slices ![0, o] S8192x1) : FVec Ideal SN .f32 :=
  shapeCast S8192 (extractStridedSlice S8192x1 ![0, o] X h) shapeCasts_S8192x1_S8192

/-- Read at an entry it is the array's entry in that column. -/
theorem cutCol_eq (X : FVec Ideal S8192x3 .f32) (o : ℕ) (h : S8192x3.Slices ![0, o] S8192x1) (k : Fin 3) (hk : k.val = o) :
    cutCol X o h = fun i => X (ix2 (i 0) k) := by
  funext i
  obtain ⟨p, rfl⟩ : ∃ p : Fin 8192, i = ix1 p := ⟨i 0, eq_ix1 i⟩
  refine (shapeCast_apply _ shapeCasts_S8192x1_S8192 (ix1 p) (ix2 p (0 : Fin 1)) ?_).trans
    (slice2_axis1_apply o X h p (0 : Fin 1) k (by rw [hk]; rfl))
  rw [Shape.rowMajor_val_two, Shape.rowMajor_val_one]
  show p.val * 1 + 0 = p.val
  omega

/-- The fourth stretch: the three columns, the ratio of the second to the sum of the first two, the constant one. -/
theorem s1_v23 : (StableHlo.after hostOps1 W (Proc.devRef .tc main_v23) : FVec Ideal SN .f32)
    = cutCol (W (Proc.devRef .tc main_v17)) 2 slices_S8192x3_S8192x1_0_2 := by
  after_results <;> rfl
theorem s1_v27 : (StableHlo.after hostOps1 W (Proc.devRef .tc main_v27) : FVec Ideal SN .f32)
    = Host.divf (cutCol (W (Proc.devRef .tc main_v17)) 1 slices_S8192x3_S8192x1_0_1)
        (addf (addf (cutCol (W (Proc.devRef .tc main_v17)) 0 slices_S8192x3_S8192x1_0_0) (cutCol (W (Proc.devRef .tc main_v17)) 1 slices_S8192x3_S8192x1_0_1))
          (broadcastInDim SN ![] bc_0_N (constant (F := Ideal) Ssc .f32 0x358637BD#32))) := by
  after_results <;> rfl
theorem s1_cst3 : (StableHlo.after hostOps1 W (Proc.devRef .tc main_cst_3) : FVec Ideal Ssc .f32) = constant (F := Ideal) Ssc .f32 0x3F800000#32 := by
  after_results <;> rfl
theorem s1_arg0 : StableHlo.after hostOps1 W (Proc.devRef .tc main_arg0) = W (Proc.devRef .tc main_arg0) := by after_results
theorem s1_arg1 : StableHlo.after hostOps1 W (Proc.devRef .tc main_arg1) = W (Proc.devRef .tc main_arg1) := by after_results
theorem s1_arg2 : StableHlo.after hostOps1 W (Proc.devRef .tc main_arg2) = W (Proc.devRef .tc main_arg2) := by after_results
theorem s1_v1 : StableHlo.after hostOps1 W (Proc.devRef .tc main_v1) = W (Proc.devRef .tc main_v1) := by after_results
theorem s1_v2 : StableHlo.after hostOps1 W (Proc.devRef .tc main_v2) = W (Proc.devRef .tc main_v2) := by after_results
theorem s1_v3 : StableHlo.after hostOps1 W (Proc.devRef .tc main_v3) = W (Proc.devRef .tc main_v3) := by after_results

/-- The fifth stretch: the ratio where the mask holds, one elsewhere. -/
theorem s11_v28 : (StableHlo.after hostOps1_1 W (Proc.devRef .tc main_v28) : FVec Ideal SN .f32)
    = select (W (Proc.devRef .tc main_v1) : IVec SN 1) (W (Proc.devRef .tc main_v27) : FVec Ideal SN .f32)
        (broadcastInDim SN ![] bc_0_N (id (W (Proc.devRef .tc main_cst_3) : FVec Ideal Ssc .f32))) := by
  after_results <;> rfl
theorem s11_arg0 : StableHlo.after hostOps1_1 W (Proc.devRef .tc main_arg0) = W (Proc.devRef .tc main_arg0) := by after_results
theorem s11_arg1 : StableHlo.after hostOps1_1 W (Proc.devRef .tc main_arg1) = W (Proc.devRef .tc main_arg1) := by after_results
theorem s11_arg2 : StableHlo.after hostOps1_1 W (Proc.devRef .tc main_arg2) = W (Proc.devRef .tc main_arg2) := by after_results
theorem s11_v2 : StableHlo.after hostOps1_1 W (Proc.devRef .tc main_v2) = W (Proc.devRef .tc main_v2) := by after_results
theorem s11_v3 : StableHlo.after hostOps1_1 W (Proc.devRef .tc main_v3) = W (Proc.devRef .tc main_v3) := by after_results
theorem s11_v23 : StableHlo.after hostOps1_1 W (Proc.devRef .tc main_v23) = W (Proc.devRef .tc main_v23) := by after_results

/-- The last stretch: the loss. -/
theorem s12_v39 : (StableHlo.after hostOps1_2 W (Proc.devRef .tc main_v39) : FVec Ideal Ssc .f32)
    = mulf
        (addf
          (Host.divf
            (Host.reduceAdd
              (mulf (Host.negf (Host.log (W (Proc.devRef .tc main_v28) : FVec Ideal SN .f32))) (W (Proc.devRef .tc main_v2) : FVec Ideal SN .f32))
              (constant (F := Ideal) Ssc .f32 0x00000000#32) rd_N_0 pos_S0)
            (W (Proc.devRef .tc main_v3) : FVec Ideal Ssc .f32))
          (mulf (constant (F := Ideal) Ssc .f32 0x3F000000#32)
            (Host.divf (Host.reduceAdd (W (Proc.devRef .tc main_v23) : FVec Ideal SN .f32) (constant (F := Ideal) Ssc .f32 0x00000000#32) rd_N_0 pos_S0)
              (mulf (W (Proc.devRef .tc main_v3) : FVec Ideal Ssc .f32) (W (Proc.devRef .tc main_v3) : FVec Ideal Ssc .f32)))))
        (constant (F := Ideal) Ssc .f32 0x3F800000#32) := by
  after_results <;> rfl
theorem s12_arg0 : StableHlo.after hostOps1_2 W (Proc.devRef .tc main_arg0) = W (Proc.devRef .tc main_arg0) := by after_results
theorem s12_arg1 : StableHlo.after hostOps1_2 W (Proc.devRef .tc main_arg1) = W (Proc.devRef .tc main_arg1) := by after_results
theorem s12_arg2 : StableHlo.after hostOps1_2 W (Proc.devRef .tc main_arg2) = W (Proc.devRef .tc main_arg2) := by after_results

/-- The three stretches together: the shared loss function of the mask, its float form, the number of line points and the
    result array's three columns. -/
theorem tail_fold :
    (StableHlo.after hostOps1_2 (StableHlo.after hostOps1_1 (StableHlo.after hostOps1 W)) (Proc.devRef .tc main_v39) : FVec Ideal Ssc .f32)
      = tail (W (Proc.devRef .tc main_v1)) (W (Proc.devRef .tc main_v2)) (W (Proc.devRef .tc main_v3))
          (cutCol (W (Proc.devRef .tc main_v17)) 0 slices_S8192x3_S8192x1_0_0) (cutCol (W (Proc.devRef .tc main_v17)) 1 slices_S8192x3_S8192x1_0_1)
          (Host.reduceAdd (cutCol (W (Proc.devRef .tc main_v17)) 2 slices_S8192x3_S8192x1_0_2) (constant Ssc .f32 0x00000000#32) rd_N_0 pos_S0) := by
  rw [s12_v39, s11_v28, s11_v2, s11_v3, s11_v23, s1_v27, s1_cst3, s1_v1, s1_v2, s1_v3, s1_v23]
  rfl

end Tail

variable (m : (ℓ : Loc nD τ sig) → Buf (Elt Ideal) ℓ) (c : Dev nD)

/-- The three arguments as the region's core finds them at launch. -/
abbrev a0 : FVec Ideal SNxD .f32 := m ((c : Thread nD τ).loc main_arg0)
abbrev a1 : IVec SN 32 := m ((c : Thread nD τ).loc main_arg1)
abbrev a2 : FVec Ideal SNx3 .f32 := m ((c : Thread nD τ).loc main_arg2)

/-- The four arrays the windows stage, as the region finds them. -/
abbrev fa : FVec Ideal S8192x64 .bf16 := V m c main_v9
abbrev cr : FVec Ideal S8192x5 .f32 := V m c main_v14
abbrev st : FVec Ideal S1x8192 .f32 := V m c main_v15
abbrev mt : FVec Ideal S1x8192 .f32 := V m c main_v16

/-! ## The arrays the windows stage, as whole-array terms of the arguments -/

theorem fa_eq : fa m c = truncf .bf16 (fnOf (a0 m c)) bitsLt_bf16_f32 := by
  show StableHlo.after hostOps0_2 _ (Proc.devRef .tc main_v9) = _
  rw [s02_v9, s01_arg0, s0_arg0, s01_v4, s0_arg0, fnOf_eq]

theorem cr_eq : cr m c = concatenate S8192x5 1 [⟨S8192x3, a2 m c⟩,
        ⟨S8192x1, broadcastInDim S8192x1 ![0] bcast_S8192_S8192x1_0 (sqnOf (a2 m c))⟩,
        ⟨S8192x1, broadcastInDim S8192x1 ![0] bcast_S8192_S8192x1_0 (mfOf (a1 m c))⟩]
        concatenates_S8192x3_S8192x1_S8192x1_S8192x5_d1 := by
  show StableHlo.after hostOps0_2 _ (Proc.devRef .tc main_v14) = _
  rw [s02_v14, s01_arg2, s0_arg2, s01_v2, s0_v2]

theorem st_eq : st m c = shapeCast S1x8192 (sqnOf (a2 m c)) shapeCasts_S8192_S1x8192 := by
  show StableHlo.after hostOps0_2 _ (Proc.devRef .tc main_v15) = _
  rw [s02_v15, s01_arg2, s0_arg2]

theorem mt_eq : mt m c = shapeCast S1x8192 (mfOf (a1 m c)) shapeCasts_S8192_S1x8192 := by
  show StableHlo.after hostOps0_2 _ (Proc.devRef .tc main_v16) = _
  rw [s02_v16, s01_v2, s0_v2]

/-! ## Read at an entry -/

theorem fa_apply (r : Fin 8192) (k : Fin 64) : fa m c (ix2 r k) = fnOf (a0 m c) (ix2 r k) := by
  rw [fa_eq]
  rfl

theorem cr_co (r : Fin 8192) (k : Fin 3) : cr m c (ix2 r (cix k)) = a2 m c (ix2 r k) := by
  rw [cr_eq]
  refine concatenate_apply_piece 1 _ _ (ix2 r (cix k)) 0 (by show (0 : ℕ) < 3; omega) S8192x3 (a2 m c) rfl rfl 0 rfl (ix2 r k) (fun b hb => ?_) ?_
  · match b with
    | ⟨0, _⟩ => rfl
    | ⟨1, _⟩ => exact absurd rfl hb
  · exact Nat.zero_add _

/-- A vector laid down a column reads, at row `r`, its entry `r`. -/
theorem column_apply (x : FVec Ideal SN .f32) (r : Fin 8192) (u : Fin 1) :
    broadcastInDim S8192x1 ![0] bcast_S8192_S8192x1_0 x (ix2 r u) = x (ix1 r) :=
  broadcastInDim_apply _ _ x (ix2 r u) (ix1 r) fun a => by
    match a with
    | ⟨0, _⟩ => rfl

theorem cr_sqn (r : Fin 8192) : cr m c (ix2 r (3 : Fin 5)) = sqnOf (a2 m c) (ix1 r) := by
  rw [cr_eq]
  refine (concatenate_apply_piece 1 _ _ (ix2 r (3 : Fin 5)) 1 (by show (1 : ℕ) < 3; omega) S8192x1 _ rfl rfl 3 rfl (ix2 r (0 : Fin 1)) (fun b hb => ?_) rfl).trans
    (column_apply _ r 0)
  match b with
  | ⟨0, _⟩ => rfl
  | ⟨1, _⟩ => exact absurd rfl hb

theorem cr_mf (r : Fin 8192) : cr m c (ix2 r (4 : Fin 5)) = mfOf (a1 m c) (ix1 r) := by
  rw [cr_eq]
  refine (concatenate_apply_piece 1 _ _ (ix2 r (4 : Fin 5)) 2 (by show (2 : ℕ) < 3; omega) S8192x1 _ rfl rfl 4 rfl (ix2 r (0 : Fin 1)) (fun b hb => ?_) rfl).trans
    (column_apply _ r 0)
  match b with
  | ⟨0, _⟩ => rfl
  | ⟨1, _⟩ => exact absurd rfl hb

theorem st_apply (q : Fin 8192) : st m c (ix2 (0 : Fin 1) q) = sqnOf (a2 m c) (ix1 q) := by
  rw [st_eq]
  exact shapeCast_a_1a_apply _ _ 0 q

theorem mt_apply (q : Fin 8192) : mt m c (ix2 (0 : Fin 1) q) = mfOf (a1 m c) (ix1 q) := by
  rw [mt_eq]
  exact shapeCast_a_1a_apply _ _ 0 q

/-! ## The program's result and the arguments -/

/-- Column `k` of the region's result array. -/
def col (k : Fin 3) : FVec Ideal SN .f32 := fun i => (stats m c : FVec Ideal S8192x3 .f32) (ix2 (i 0) k)

/-- The mask, its float form and the number of line points as the region finds them. -/
theorem V0_v1 : (V0 m c (Proc.devRef .tc main_v1) : IVec SN 1) = mOf (a1 m c) := by
  show StableHlo.after hostOps0_2 _ (Proc.devRef .tc main_v1) = _
  rw [s02_v1, s01_v1, s0_v1]
theorem V0_v2 : (V0 m c (Proc.devRef .tc main_v2) : FVec Ideal SN .f32) = mfOf (a1 m c) := by
  show StableHlo.after hostOps0_2 _ (Proc.devRef .tc main_v2) = _
  rw [s02_v2, s01_v2, s0_v2]
theorem V0_v3 : (V0 m c (Proc.devRef .tc main_v3) : FVec Ideal Ssc .f32) = LOf (a1 m c) := by
  show StableHlo.after hostOps0_2 _ (Proc.devRef .tc main_v3) = _
  rw [s02_v3, s01_v3, s0_v3]

/-- The program's result. -/
theorem result_eq :
    (Wfin m c (Proc.devRef .tc main_v39) : FVec Ideal Ssc .f32)
      = tail (mOf (a1 m c)) (mfOf (a1 m c)) (LOf (a1 m c)) (col m c 0) (col m c 1)
          (Host.reduceAdd (col m c 2) (constant Ssc .f32 0x00000000#32) rd_N_0 pos_S0) := by
  show StableHlo.after hostOps1_2 (StableHlo.after hostOps1_1 (StableHlo.after hostOps1 (Wmid m c))) (Proc.devRef .tc main_v39) = _
  rw [tail_fold, Wmid_v17, Wmid_ne m c _ (by decide), Wmid_ne m c _ (by decide), Wmid_ne m c _ (by decide), V0_v1, V0_v2, V0_v3,
    cutCol_eq _ 0 _ 0 rfl, cutCol_eq _ 1 _ 1 rfl, cutCol_eq _ 2 _ 2 rfl]
  rfl

/-- The arguments end as launched. -/
theorem arg0_kept : Wfin m c (Proc.devRef .tc main_arg0) = m ((c : Thread nD τ).loc main_arg0) := by
  show StableHlo.after hostOps1_2 (StableHlo.after hostOps1_1 (StableHlo.after hostOps1 (Wmid m c))) (Proc.devRef .tc main_arg0) = _
  rw [s12_arg0, s11_arg0, s1_arg0, Wmid_ne m c _ (by decide)]
  show StableHlo.after hostOps0_2 _ (Proc.devRef .tc main_arg0) = _
  rw [s02_arg0, s01_arg0, s0_arg0]
theorem arg1_kept : Wfin m c (Proc.devRef .tc main_arg1) = m ((c : Thread nD τ).loc main_arg1) := by
  show StableHlo.after hostOps1_2 (StableHlo.after hostOps1_1 (StableHlo.after hostOps1 (Wmid m c))) (Proc.devRef .tc main_arg1) = _
  rw [s12_arg1, s11_arg1, s1_arg1, Wmid_ne m c _ (by decide)]
  show StableHlo.after hostOps0_2 _ (Proc.devRef .tc main_arg1) = _
  rw [s02_arg1, s01_arg1, s0_arg1]
theorem arg2_kept : Wfin m c (Proc.devRef .tc main_arg2) = m ((c : Thread nD τ).loc main_arg2) := by
  show StableHlo.after hostOps1_2 (StableHlo.after hostOps1_1 (StableHlo.after hostOps1 (Wmid m c))) (Proc.devRef .tc main_arg2) = _
  rw [s12_arg2, s11_arg2, s1_arg2, Wmid_ne m c _ (by decide)]
  show StableHlo.after hostOps0_2 _ (Proc.devRef .tc main_arg2) = _
  rw [s02_arg2, s01_arg2, s0_arg2]

end Cert.KernelIdeal.HostV

end
-- ==== Proof.KI.Pieces.lean ====
/-
  What each control case of the body leaves in the accumulator, and at a row's last column tile in the output block, as the
  pure update `tileUpd` of the six input blocks: at a row's first column tile applied to the reset value (zeros), elsewhere
  to what the point before left; the output block receives the accumulator's new value.
-/
import proofs.«109491_j86354612453531_1_alg».proof.Proof.KI.Frame
import proofs.«109491_j86354612453531_1_alg».proof.Proof.KI.TileDef
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- Every store and load of the body goes through the whole-block rectangle: its offsets are zero. -/
theorem pieces_hz : (![0, 0] : Fin 2 → Nat) = fun _ => 0 := funext fun a => by fin_cases a <;> rfl

set_option maxHeartbeats 1000000 in
/-- Case A: the accumulator restarts from the reset value. -/
theorem sout0_A_0_eq (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) :
    sout0_A_0 c i arg2 harg2 arg3 harg3 arg4 harg4 arg5 harg5 arg6 harg6 arg7 harg7 arg8 harg8 arg9 harg9 hc0 hc1 x0 x1 x2 x3 x4 x5 = tileUpd x0 x1 x2 x3 x4 x5 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x3) pieces_hz, View.readCov_unit_zero (S := S512x3) _ pieces_hz]
  unfold tileUpd
  simp only [View.readAt_eq_ld, harg2.read_unread, harg3.read_unread, harg4.read_unread, harg5.read_unread, harg6.read_unread, harg7.read_unread, harg8.read_unread, harg9.read_unread, View.ld_unit_zero (S := S512x64) pieces_hz, View.ld_unit_zero (S := S512x5) pieces_hz, View.ld_unit_zero (S := S1x512) pieces_hz, View.ld_unit_zero (S := S512x3) pieces_hz]

set_option maxHeartbeats 1000000 in
/-- Case B: it continues from what the point before left. -/
theorem sout0_B_0_eq (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : ¬cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) :
    sout0_B_0 c i arg2 harg2 arg3 harg3 arg4 harg4 arg5 harg5 arg6 harg6 arg7 harg7 arg8 harg8 arg9 harg9 hc0 hc1 x0 x1 x2 x3 x4 x5 xs0 = tileUpd x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero (S := S512x3) pieces_hz]
  unfold tileUpd
  simp only [View.readAt_eq_ld, harg2.read_unread, harg3.read_unread, harg4.read_unread, harg5.read_unread, harg6.read_unread, harg7.read_unread, harg8.read_unread, harg9.read_unread, View.ld_unit_zero (S := S512x64) pieces_hz, View.ld_unit_zero (S := S512x5) pieces_hz, View.ld_unit_zero (S := S1x512) pieces_hz, View.ld_unit_zero (S := S512x3) pieces_hz]

set_option maxHeartbeats 1000000 in
/-- Case C: likewise, -/
theorem sout0_C_0_eq (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) :
    sout0_C_0 c i arg2 harg2 arg3 harg3 arg4 harg4 arg5 harg5 arg6 harg6 arg7 harg7 arg8 harg8 arg9 harg9 hc0 hc1 x0 x1 x2 x3 x4 x5 xs0 = tileUpd x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S512x3) pieces_hz]
  unfold tileUpd
  simp only [View.readAt_eq_ld, harg2.read_unread, harg3.read_unread, harg4.read_unread, harg5.read_unread, harg6.read_unread, harg7.read_unread, harg8.read_unread, harg9.read_unread, View.ld_unit_zero (S := S512x64) pieces_hz, View.ld_unit_zero (S := S512x5) pieces_hz, View.ld_unit_zero (S := S1x512) pieces_hz, View.ld_unit_zero (S := S512x3) pieces_hz]

set_option maxHeartbeats 1000000 in
/-- and the output block receives the accumulator's new value. -/
theorem out0_C_6_eq (c : Dev nD) (i : grid0.Coords) (arg2 : Memref sig .tc .vmem S512x64 .bf16) (harg2 : arg2.IsWhole) (arg3 : Memref sig .tc .vmem S512x64 .bf16) (harg3 : arg3.IsWhole) (arg4 : Memref sig .tc .vmem S512x5 .f32) (harg4 : arg4.IsWhole) (arg5 : Memref sig .tc .vmem S512x5 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x3 .f32) (harg8 : arg8.IsWhole) (arg9 : Memref sig .tc .vmem S512x3 .f32) (harg9 : arg9.IsWhole) (hc0 : ¬cond0_0 i) (hc1 : cond0_1 i)
    (x0 : Vec F S512x64 .bf16) (x1 : Vec F S512x64 .bf16) (x2 : Vec F S512x5 .f32) (x3 : Vec F S512x5 .f32) (x4 : Vec F S1x512 .f32) (x5 : Vec F S1x512 .f32) (xs0 : Vec F S512x3 .f32) :
    out0_C_6 c i arg2 harg2 arg3 harg3 arg4 harg4 arg5 harg5 arg6 harg6 arg7 harg7 arg8 harg8 arg9 harg9 hc0 hc1 x0 x1 x2 x3 x4 x5 xs0 = tileUpd x0 x1 x2 x3 x4 x5 xs0 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S512x3) pieces_hz, View.readCov_unit_zero (S := S512x3) _ pieces_hz]
  unfold tileUpd
  simp only [View.readAt_eq_ld, harg2.read_unread, harg3.read_unread, harg4.read_unread, harg5.read_unread, harg6.read_unread, harg7.read_unread, harg8.read_unread, harg9.read_unread, View.ld_unit_zero (S := S512x64) pieces_hz, View.ld_unit_zero (S := S512x5) pieces_hz, View.ld_unit_zero (S := S1x512) pieces_hz, View.ld_unit_zero (S := S512x3) pieces_hz]

end Cert.KernelIdeal.Hand

end
-- ==== Proof.KI.SumTiles.lean ====
/-
  Sixteen tiles of 512 rows are the 8192 rows: a sum over a tile index and a row within the tile is the sum over all rows.
-/
import proofs.«109491_j86354612453531_1_alg».proof.Proof.KI.TileIdeal
import Mathlib.Algebra.BigOperators.Fin
import Mathlib.Algebra.BigOperators.Group.Finset.Basic

noncomputable section

open scoped BigOperators

namespace Cert.KernelIdeal.TileV

/-- The tile and the row within it of a row of the full arrays. -/
def tileOf (r : Fin 8192) : Fin 16 := ⟨r.val / 512, by have := r.isLt; omega⟩
def inTile (r : Fin 8192) : Fin 512 := ⟨r.val % 512, Nat.mod_lt _ (by decide)⟩

theorem row_tileOf_inTile (r : Fin 8192) : row (tileOf r) (inTile r) = r :=
  Fin.ext (by show r.val / 512 * 512 + r.val % 512 = r.val; omega)

theorem tileOf_row (j : Fin 16) (q : Fin 512) : tileOf (row j q) = j :=
  Fin.ext (by show (j.val * 512 + q.val) / 512 = j.val; have := q.isLt; omega)

theorem inTile_row (j : Fin 16) (q : Fin 512) : inTile (row j q) = q :=
  Fin.ext (by show (j.val * 512 + q.val) % 512 = q.val; have := q.isLt; omega)

/-- Rows correspond to pairs (tile, row within the tile). -/
def rowEquiv : Fin 16 × Fin 512 ≃ Fin 8192 where
  toFun jq := row jq.1 jq.2
  invFun r := (tileOf r, inTile r)
  left_inv jq := Prod.ext (tileOf_row jq.1 jq.2) (inTile_row jq.1 jq.2)
  right_inv r := row_tileOf_inTile r

/-- A sum over the tiles of the sums over their rows is the sum over all rows. -/
theorem sum_tiles {M : Type*} [AddCommMonoid M] (f : Fin 8192 → M) :
    ∑ j : Fin 16, ∑ q : Fin 512, f (row j q) = ∑ r : Fin 8192, f r := by
  rw [← Finset.sum_product', Finset.univ_product_univ]
  exact Fintype.sum_equiv rowEquiv _ _ fun _ => rfl

end Cert.KernelIdeal.TileV

end
-- ==== Proof.KI.StatsBlocks.lean ====
/-
  The windows' blocks at a grid point, read at an entry.

  The grid is 16 × 16, point `t` at row tile `t / 16` and column tile `t % 16`. The row tile's windows (features,
  coordinate rows, result) sit at block `(t / 16, 0)` of their arrays, the column tile's feature and coordinate-row
  windows at block `(t % 16, 0)`, and the two row-laid windows (squared norms, mask) at block `(0, t % 16)`. An entry of a
  block is the array's entry at block index × block size + the entry's own coordinate, on each axis.
-/
import proofs.«109491_j86354612453531_1_alg».proof.Proof.KI.Base
import proofs.«109491_j86354612453531_1_alg».proof.Proof.KI.TileIdeal

set_option maxRecDepth 16384

noncomputable section

namespace Cert.KernelIdeal.StatsV

open Cert.KernelIdeal Cert.KernelIdeal.Gen Cert.KernelIdeal.Hand Cert.KernelIdeal.TileV
open Idealize.ShloMosaic Idealize.ShloMosaic.TcCoe Idealize.ShloMosaic.ValueIdx Idealize.SL.Sem
open Idealize.ShloMosaic.Pipeline (Dat Cfg Window)

/-- The block indices of the seven windows at every point of the grid. -/
theorem idx_facts : ∀ t : Fin cfg0.N,
    (win0_0.index t (0 : Fin 2) = t.val / 16 ∧ win0_0.index t (1 : Fin 2) = 0)
    ∧ (win0_1.index t (0 : Fin 2) = t.val % 16 ∧ win0_1.index t (1 : Fin 2) = 0)
    ∧ (win0_2.index t (0 : Fin 2) = t.val / 16 ∧ win0_2.index t (1 : Fin 2) = 0)
    ∧ (win0_3.index t (0 : Fin 2) = t.val % 16 ∧ win0_3.index t (1 : Fin 2) = 0)
    ∧ (win0_4.index t (0 : Fin 2) = 0 ∧ win0_4.index t (1 : Fin 2) = t.val % 16)
    ∧ (win0_5.index t (0 : Fin 2) = 0 ∧ win0_5.index t (1 : Fin 2) = t.val % 16)
    ∧ (win0_6.index t (0 : Fin 2) = t.val / 16 ∧ win0_6.index t (1 : Fin 2) = 0) :=
  (by decide +kernel : ∀ t : Fin grid0.N, _)

variable (m : (ℓ : Loc nD τ sig) → Buf (Elt Ideal) ℓ) (c : Dev nD)

/-- The six input blocks at a point, by their literal types. -/
abbrev blkA (t : Fin cfg0.N) : Vec Ideal S512x64 .bf16 := iblk m c 0 t
abbrev blkB (t : Fin cfg0.N) : Vec Ideal S512x64 .bf16 := iblk m c 1 t
abbrev blkU (t : Fin cfg0.N) : Vec Ideal S512x5 .f32 := iblk m c 2 t
abbrev blkV (t : Fin cfg0.N) : Vec Ideal S512x5 .f32 := iblk m c 3 t
abbrev blkS (t : Fin cfg0.N) : Vec Ideal S1x512 .f32 := iblk m c 4 t
abbrev blkM (t : Fin cfg0.N) : Vec Ideal S1x512 .f32 := iblk m c 5 t

/-- The row tile's feature block holds rows `(t / 16)·512 + p` of the features. -/
theorem blkA_apply (t : Fin cfg0.N) (i : Fin 16) (hi : i.val = t.val / 16) (p : Fin 512) (k : Fin 64) :
    blkA m c t (ix2 p k) = (V m c main_v9 : FVec Ideal S8192x64 .bf16) (ix2 (row i p) k) := by
  obtain ⟨⟨e0, e1⟩, -⟩ := idx_facts t
  show V m c main_v9 (((cfg0.win 0).blk t).view.emb (ix2 p k)) = V m c main_v9 (ix2 (row i p) k)
  refine congrArg (V m c main_v9) (funext fun a => Fin.ext ?_)
  match a with
  | ⟨0, _⟩ => show win0_0.index t (0 : Fin 2) * 512 + 1 * p.val = i.val * 512 + p.val; rw [e0, hi]; omega
  | ⟨1, _⟩ => show win0_0.index t (1 : Fin 2) * 64 + 1 * k.val = k.val; rw [e1]; omega

/-- The column tile's feature block holds rows `(t % 16)·512 + q` of the features. -/
theorem blkB_apply (t : Fin cfg0.N) (j : Fin 16) (hj : j.val = t.val % 16) (q : Fin 512) (k : Fin 64) :
    blkB m c t (ix2 q k) = (V m c main_v9 : FVec Ideal S8192x64 .bf16) (ix2 (row j q) k) := by
  obtain ⟨-, ⟨e0, e1⟩, -⟩ := idx_facts t
  show V m c main_v9 (((cfg0.win 1).blk t).view.emb (ix2 q k)) = V m c main_v9 (ix2 (row j q) k)
  refine congrArg (V m c main_v9) (funext fun a => Fin.ext ?_)
  match a with
  | ⟨0, _⟩ => show win0_1.index t (0 : Fin 2) * 512 + 1 * q.val = j.val * 512 + q.val; rw [e0, hj]; omega
  | ⟨1, _⟩ => show win0_1.index t (1 : Fin 2) * 64 + 1 * k.val = k.val; rw [e1]; omega

/-- The row tile's coordinate block holds rows `(t / 16)·512 + p` of the coordinate rows. -/
theorem blkU_apply (t : Fin cfg0.N) (i : Fin 16) (hi : i.val = t.val / 16) (p : Fin 512) (k : Fin 5) :
    blkU m c t (ix2 p k) = (V m c main_v14 : FVec Ideal S8192x5 .f32) (ix2 (row i p) k) := by
  obtain ⟨-, -, ⟨e0, e1⟩, -⟩ := idx_facts t
  show V m c main_v14 (((cfg0.win 2).blk t).view.emb (ix2 p k)) = V m c main_v14 (ix2 (row i p) k)
  refine congrArg (V m c main_v14) (funext fun a => Fin.ext ?_)
  match a with
  | ⟨0, _⟩ => show win0_2.index t (0 : Fin 2) * 512 + 1 * p.val = i.val * 512 + p.val; rw [e0, hi]; omega
  | ⟨1, _⟩ => show win0_2.index t (1 : Fin 2) * 5 + 1 * k.val = k.val; rw [e1]; omega

/-- The column tile's coordinate block holds rows `(t % 16)·512 + q` of the coordinate rows. -/
theorem blkV_apply (t : Fin cfg0.N) (j : Fin 16) (hj : j.val = t.val % 16) (q : Fin 512) (k : Fin 5) :
    blkV m c t (ix2 q k) = (V m c main_v14 : FVec Ideal S8192x5 .f32) (ix2 (row j q) k) := by
  obtain ⟨-, -, -, ⟨e0, e1⟩, -⟩ := idx_facts t
  show V m c main_v14 (((cfg0.win 3).blk t).view.emb (ix2 q k)) = V m c main_v14 (ix2 (row j q) k)
  refine congrArg (V m c main_v14) (funext fun a => Fin.ext ?_)
  match a with
  | ⟨0, _⟩ => show win0_3.index t (0 : Fin 2) * 512 + 1 * q.val = j.val * 512 + q.val; rw [e0, hj]; omega
  | ⟨1, _⟩ => show win0_3.index t (1 : Fin 2) * 5 + 1 * k.val = k.val; rw [e1]; omega

/-- The column tile's squared-norm block holds entries `(t % 16)·512 + q` of the row of squared norms. -/
theorem blkS_apply (t : Fin cfg0.N) (j : Fin 16) (hj : j.val = t.val % 16) (q : Fin 512) :
    blkS m c t (ix2 (0 : Fin 1) q) = (V m c main_v15 : FVec Ideal S1x8192 .f32) (ix2 (0 : Fin 1) (row j q)) := by
  obtain ⟨-, -, -, -, ⟨e0, e1⟩, -⟩ := idx_facts t
  show V m c main_v15 (((cfg0.win 4).blk t).view.emb (ix2 (0 : Fin 1) q)) = V m c main_v15 (ix2 (0 : Fin 1) (row j q))
  refine congrArg (V m c main_v15) (funext fun a => Fin.ext ?_)
  match a with
  | ⟨0, _⟩ => show win0_4.index t (0 : Fin 2) * 1 + 1 * 0 = 0; rw [e0]
  | ⟨1, _⟩ => show win0_4.index t (1 : Fin 2) * 512 + 1 * q.val = j.val * 512 + q.val; rw [e1, hj]; omega

/-- The column tile's mask block holds entries `(t % 16)·512 + q` of the row of masks. -/
theorem blkM_apply (t : Fin cfg0.N) (j : Fin 16) (hj : j.val = t.val % 16) (q : Fin 512) :
    blkM m c t (ix2 (0 : Fin 1) q) = (V m c main_v16 : FVec Ideal S1x8192 .f32) (ix2 (0 : Fin 1) (row j q)) := by
  obtain ⟨-, -, -, -, -, ⟨e0, e1⟩, -⟩ := idx_facts t
  show V m c main_v16 (((cfg0.win 5).blk t).view.emb (ix2 (0 : Fin 1) q)) = V m c main_v16 (ix2 (0 : Fin 1) (row j q))
  refine congrArg (V m c main_v16) (funext fun a => Fin.ext ?_)
  match a with
  | ⟨0, _⟩ => show win0_5.index t (0 : Fin 2) * 1 + 1 * 0 = 0; rw [e0]
  | ⟨1, _⟩ => show win0_5.index t (1 : Fin 2) * 512 + 1 * q.val = j.val * 512 + q.val; rw [e1, hj]; omega

end Cert.KernelIdeal.StatsV

end
-- ==== Proof.KI.StatsAcc.lean ====
/-
  The accumulator after each grid point, in closed form.

  Within row tile `i` the accumulator restarts at column tile 0 and gains, at column tile `j`, the pair function summed
  over that tile's 512 rows. So after the point at column tile `j` its entry `(p, k)` is the `k`-th pair function of row
  `i·512 + p` summed over the rows of tiles `0 … j`; at the last column tile that is the sum over all 8192 rows, and it is
  what the output block receives.
-/
import proofs.«109491_j86354612453531_1_alg».proof.Proof.KI.Pieces
import proofs.«109491_j86354612453531_1_alg».proof.Proof.KI.StatsBlocks
import proofs.«109491_j86354612453531_1_alg».proof.Proof.KI.SumTiles

set_option maxRecDepth 16384

noncomputable section

open scoped BigOperators

namespace Cert.KernelIdeal.StatsV

open Cert.KernelIdeal Cert.KernelIdeal.Gen Cert.KernelIdeal.Hand Cert.KernelIdeal.TileV
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-- The four arrays the windows stage, by their literal types. -/
abbrev arrF : FVec Ideal S8192x64 .bf16 := V m c main_v9
abbrev arrC : FVec Ideal S8192x5 .f32 := V m c main_v14
abbrev arrS : FVec Ideal S1x8192 .f32 := V m c main_v15
abbrev arrM : FVec Ideal S1x8192 .f32 := V m c main_v16

/-! ## The pair function summed over the first column tiles -/

/-- The `k`-th pair function of row `r` summed over the rows of the first `n` column tiles. -/
def tilesSum (k : Fin 3) (r : Fin 8192) (n : ℕ) : EReal :=
  ∑ j ∈ Finset.range n,
    if h : j < 16 then ∑ q : Fin 512, HK (arrF m c) (arrC m c) (arrS m c) (arrM m c) k r (row ⟨j, h⟩ q) else 0

theorem tilesSum_zero (k : Fin 3) (r : Fin 8192) : tilesSum m c k r 0 = 0 := Finset.sum_range_zero _

theorem tilesSum_succ (k : Fin 3) (r : Fin 8192) (j : Fin 16) :
    tilesSum m c k r (j.val + 1)
      = tilesSum m c k r j.val + ∑ q : Fin 512, HK (arrF m c) (arrC m c) (arrS m c) (arrM m c) k r (row j q) := by
  unfold tilesSum
  rw [Finset.sum_range_succ, dif_pos j.isLt]

/-- Over all sixteen column tiles it is the sum over all rows. -/
theorem tilesSum_all (k : Fin 3) (r : Fin 8192) :
    tilesSum m c k r 16 = ∑ q : Fin 8192, HK (arrF m c) (arrC m c) (arrS m c) (arrM m c) k r q := by
  unfold tilesSum
  rw [Finset.sum_range, ← sum_tiles (fun q => HK (arrF m c) (arrC m c) (arrS m c) (arrM m c) k r q)]
  exact Finset.sum_congr rfl fun j _ => dif_pos j.isLt

/-! ## One grid point -/

/-- The update at point `t` (row tile `i`, column tile `j`) adds the pair function summed over the column tile's rows. -/
theorem tile_at (t : Fin cfg0.N) (i j : Fin 16) (hi : i.val = t.val / 16) (hj : j.val = t.val % 16)
    (acc : Vec Ideal S512x3 .f32) (p : Fin 512) (k : Fin 3) :
    tileUpd (F := Ideal) (blkA m c t) (blkB m c t) (blkU m c t) (blkV m c t) (blkS m c t) (blkM m c t) acc (ix2 p k)
      = acc (ix2 p k) + ∑ q : Fin 512, HK (arrF m c) (arrC m c) (arrS m c) (arrM m c) k (row i p) (row j q) :=
  tileUpd_apply (arrF m c) (arrC m c) (arrS m c) (arrM m c) i j
    (blkA m c t) (blkB m c t) (blkU m c t) (blkV m c t) (blkS m c t) (blkM m c t) acc
    (fun p k => blkA_apply m c t i hi p k) (fun q k => blkB_apply m c t j hj q k)
    (fun p k => blkU_apply m c t i hi p k) (fun q k => blkV_apply m c t j hj q k)
    (fun q => blkS_apply m c t j hj q) (fun q => blkM_apply m c t j hj q) p k

/-- At a row's first column tile the accumulator is the update of the reset value. -/
theorem acc_A (t : Fin cfg0.N) (h0 : t.val % 16 = 0) (h1 : ¬t.val % 16 = 15) :
    (outsAt0 m c t.val t.isLt).2
      = tileUpd (blkA m c t) (blkB m c t) (blkU m c t) (blkV m c t) (blkS m c t) (blkM m c t) (k0_pay2 (F := Ideal)) :=
  (congrArg Prod.snd (outsAt0_A m c t h0 h1)).trans
    (sout0_A_0_eq c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      ((hcond0_0 t).mpr h0) (fun h => h1 ((hcond0_1 t).mp h))
      (iblk m c 0 t) (iblk m c 1 t) (iblk m c 2 t) (iblk m c 3 t) (iblk m c 4 t) (iblk m c 5 t))

/-- In the middle of a row it is the update of what the point before left. -/
theorem acc_B (t : Fin cfg0.N) (h0 : ¬t.val % 16 = 0) (h1 : ¬t.val % 16 = 15) :
    (outsAt0 m c t.val t.isLt).2
      = tileUpd (blkA m c t) (blkB m c t) (blkU m c t) (blkV m c t) (blkS m c t) (blkM m c t)
          (outsAt0 m c (t.val - 1) (Nat.lt_of_le_of_lt (Nat.sub_le _ _) t.isLt)).2 :=
  (congrArg Prod.snd (outsAt0_B m c t h0 h1)).trans
    (sout0_B_0_eq c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (fun h => h0 ((hcond0_0 t).mp h)) (fun h => h1 ((hcond0_1 t).mp h))
      (iblk m c 0 t) (iblk m c 1 t) (iblk m c 2 t) (iblk m c 3 t) (iblk m c 4 t) (iblk m c 5 t)
      (outsAt0 m c (t.val - 1) (Nat.lt_of_le_of_lt (Nat.sub_le _ _) t.isLt)).2)

/-- At a row's last column tile likewise, -/
theorem acc_C (t : Fin cfg0.N) (h0 : ¬t.val % 16 = 0) (h1 : t.val % 16 = 15) :
    (outsAt0 m c t.val t.isLt).2
      = tileUpd (blkA m c t) (blkB m c t) (blkU m c t) (blkV m c t) (blkS m c t) (blkM m c t)
          (outsAt0 m c (t.val - 1) (Nat.lt_of_le_of_lt (Nat.sub_le _ _) t.isLt)).2 :=
  (congrArg Prod.snd (outsAt0_C m c t h0 h1)).trans
    (sout0_C_0_eq c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (fun h => h0 ((hcond0_0 t).mp h)) ((hcond0_1 t).mpr h1)
      (iblk m c 0 t) (iblk m c 1 t) (iblk m c 2 t) (iblk m c 3 t) (iblk m c 4 t) (iblk m c 5 t)
      (outsAt0 m c (t.val - 1) (Nat.lt_of_le_of_lt (Nat.sub_le _ _) t.isLt)).2)

/-- and the output block receives the same value. -/
theorem out_C (t : Fin cfg0.N) (h0 : ¬t.val % 16 = 0) (h1 : t.val % 16 = 15) :
    (outsAt0 m c t.val t.isLt).1
      = tileUpd (blkA m c t) (blkB m c t) (blkU m c t) (blkV m c t) (blkS m c t) (blkM m c t)
          (outsAt0 m c (t.val - 1) (Nat.lt_of_le_of_lt (Nat.sub_le _ _) t.isLt)).2 :=
  (congrArg Prod.fst (outsAt0_C m c t h0 h1)).trans
    (out0_C_6_eq c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (fun h => h0 ((hcond0_0 t).mp h)) ((hcond0_1 t).mpr h1)
      (iblk m c 0 t) (iblk m c 1 t) (iblk m c 2 t) (iblk m c 3 t) (iblk m c 4 t) (iblk m c 5 t)
      (outsAt0 m c (t.val - 1) (Nat.lt_of_le_of_lt (Nat.sub_le _ _) t.isLt)).2)

/-! ## The closed form -/

/-- After point `n` (row tile `i`, column tile `j`) the accumulator's entry `(p, k)` is the pair function of row
    `i·512 + p` summed over the rows of column tiles `0 … j`. -/
theorem acc_closed : ∀ (n : ℕ) (hn : n < cfg0.N) (i j : Fin 16) (hi : i.val = n / 16) (hj : j.val = n % 16)
    (p : Fin 512) (k : Fin 3),
    (outsAt0 m c n hn).2 (ix2 p k) = tilesSum m c k (row i p) (j.val + 1)
  | 0, hn, i, j, hi, hj, p, k => by
    have h0 : (⟨0, hn⟩ : Fin cfg0.N).val % 16 = 0 := rfl
    have h1 : ¬(⟨0, hn⟩ : Fin cfg0.N).val % 16 = 15 := by show ¬((0 : ℕ) % 16 = 15); decide
    refine (congrFun (acc_A m c ⟨0, hn⟩ h0 h1) (ix2 p k)).trans ?_
    refine (tile_at m c ⟨0, hn⟩ i j hi hj _ p k).trans ?_
    rw [tilesSum_succ, reset_apply, show j.val = 0 from hj, tilesSum_zero]
  | n + 1, hn, i, j, hi, hj, p, k => by
    by_cases h0 : (n + 1) % 16 = 0
    · have h1 : ¬(n + 1) % 16 = 15 := by omega
      refine (congrFun (acc_A m c ⟨n + 1, hn⟩ h0 h1) (ix2 p k)).trans ?_
      refine (tile_at m c ⟨n + 1, hn⟩ i j hi hj _ p k).trans ?_
      rw [tilesSum_succ, reset_apply, show j.val = 0 from hj.trans h0, tilesSum_zero]
    · have ih := acc_closed n (Nat.lt_of_succ_lt hn) i ⟨n % 16, Nat.mod_lt _ (by decide)⟩ (by omega) rfl p k
      have hjn : n % 16 + 1 = j.val := by omega
      by_cases h1 : (n + 1) % 16 = 15
      · refine (congrFun (acc_C m c ⟨n + 1, hn⟩ h0 h1) (ix2 p k)).trans ?_
        refine (tile_at m c ⟨n + 1, hn⟩ i j hi hj _ p k).trans ?_
        rw [tilesSum_succ]
        exact congrArg (· + _) (ih.trans (congrArg (tilesSum m c k (row i p)) hjn))
      · refine (congrFun (acc_B m c ⟨n + 1, hn⟩ h0 h1) (ix2 p k)).trans ?_
        refine (tile_at m c ⟨n + 1, hn⟩ i j hi hj _ p k).trans ?_
        rw [tilesSum_succ]
        exact congrArg (· + _) (ih.trans (congrArg (tilesSum m c k (row i p)) hjn))

/-! ## What is written back -/

/-- At a row's last column tile the output block's entry `(p, k)` is the pair function of row `i·512 + p` summed over
    all rows. -/
theorem out_block_apply (t : Fin cfg0.N) (h1 : t.val % 16 = 15) (i : Fin 16) (hi : i.val = t.val / 16)
    (p : Fin 512) (k : Fin 3) :
    (outsAt0 m c t.val t.isLt).1 (ix2 p k)
      = ∑ q : Fin 8192, HK (arrF m c) (arrC m c) (arrS m c) (arrM m c) k (row i p) q := by
  have h0 : ¬t.val % 16 = 0 := by omega
  refine (congrFun ((out_C m c t h0 h1).trans (acc_C m c t h0 h1).symm) (ix2 p k)).trans ?_
  refine (acc_closed m c t.val t.isLt i ⟨15, by decide⟩ hi h1.symm p k).trans ?_
  exact tilesSum_all m c k (row i p)

end Cert.KernelIdeal.StatsV

end
-- ==== Proof.KI.Stats.lean ====
/-
  The region's result array, read at an entry over the extended reals.

  Entry `(r, k)` of the result array after the region is the `k`-th pair function summed over all 8192 partner rows. Row
  tile `i`'s block is written back once, at the row's last column tile, and holds the accumulator there; the accumulator
  restarts from zeros at the row's first column tile and gains, at column tile `j`, the pair function summed over that tile's
  512 rows; sixteen tiles of 512 rows are all the rows; and the sixteen blocks written back cover the array.
-/
import proofs.«109491_j86354612453531_1_alg».proof.Proof.KI.Launch
import proofs.«109491_j86354612453531_1_alg».proof.Proof.KI.Pieces
import proofs.«109491_j86354612453531_1_alg».proof.Proof.KI.TileIdeal
import proofs.«109491_j86354612453531_1_alg».proof.Proof.KI.SumTiles
import proofs.«109491_j86354612453531_1_alg».proof.Proof.KI.StatsAcc
import Idealize.ShloMosaic.Lib.Pipeline.Value

set_option maxRecDepth 16384

noncomputable section

open scoped BigOperators

namespace Cert.KernelIdeal.StatsV

open Cert.KernelIdeal Cert.KernelIdeal.Gen Cert.KernelIdeal.Hand Cert.KernelIdeal.TileV
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-- The four arrays the windows stage, as the region finds them. -/
abbrev fa : FVec Ideal S8192x64 .bf16 := V m c main_v9
abbrev cr : FVec Ideal S8192x5 .f32 := V m c main_v14
abbrev st : FVec Ideal S1x8192 .f32 := V m c main_v15
abbrev mt : FVec Ideal S1x8192 .f32 := V m c main_v16

/-- The `k`-th pair function of row `r` summed over every partner row. -/
def rowTotal (k : Fin 3) (r : Fin 8192) : EReal := ∑ q : Fin 8192, HK (fa m c) (cr m c) (st m c) (mt m c) k r q

/-- The whole result array: entry `(r, k)` is that sum. -/
def total : FVec Ideal S8192x3 .f32 := fun y => rowTotal m c ⟨(y 1).val, (y 1).isLt⟩ ⟨(y 0).val, (y 0).isLt⟩

/-- What a row's last column tile writes back is its block of the whole result array. -/
theorem flushed_eq (t : Fin cfg0.N) (hf : (cfg0.win 6).flush t = true) :
    (dats m 0 c).flushed 6 t = ((cfg0.win 6).blk t).view.read (Elt Ideal) (total m c) := by
  have h15 : t.val % 16 = 15 := (flush0_6 t).mp hf
  have hN : cfg0.N = 256 := N_0
  have hlt : t.val / 16 < 16 := by have := t.isLt; omega
  obtain ⟨-, -, -, -, -, -, ⟨e0, e1⟩⟩ := idx_facts t
  show (cfg0.win 6).cut (grid0.coords t) ((dats m 0 c).after 6 t) = _
  rw [after0_6]
  funext y
  obtain ⟨p, k, rfl⟩ : ∃ (p : Fin 512) (k : Fin 3), y = ix2 p k := ⟨y 0, y 1, eq_ix2 (n0 := 512) (n1 := 3) y⟩
  show (outsAt0 m c t.val t.isLt).1 (ix2 p k) = total m c (((cfg0.win 6).blk t).view.emb (ix2 p k))
  refine (out_block_apply m c t h15 ⟨t.val / 16, hlt⟩ rfl p k).trans ?_
  have ek : (((cfg0.win 6).blk t).view.emb (ix2 p k) 1).val = k.val := by
    show win0_6.index t (1 : Fin 2) * 3 + 1 * k.val = k.val
    rw [e1]; omega
  have er : (((cfg0.win 6).blk t).view.emb (ix2 p k) 0).val = (row ⟨t.val / 16, hlt⟩ p).val := by
    show win0_6.index t (0 : Fin 2) * 512 + 1 * p.val = t.val / 16 * 512 + p.val
    rw [e0]; omega
  show rowTotal m c k (row ⟨t.val / 16, hlt⟩ p)
    = rowTotal m c ⟨(((cfg0.win 6).blk t).view.emb (ix2 p k) 1).val, (((cfg0.win 6).blk t).view.emb (ix2 p k) 1).isLt⟩
        ⟨(((cfg0.win 6).blk t).view.emb (ix2 p k) 0).val, (((cfg0.win 6).blk t).view.emb (ix2 p k) 0).isLt⟩
  exact congrArg₂ (rowTotal m c) (Fin.ext ek.symm) (Fin.ext er.symm)

/-- Every entry of the result array lies in the block some row's last column tile writes back. -/
theorem cover (y : S8192x3.Idx) :
    ∃ t : Fin cfg0.N, (cfg0.win 6).flush t = true ∧ y ∈ ((cfg0.win 6).blk t).view.set := by
  have hN : cfg0.N = 256 := N_0
  have hr : (y 0).val < 8192 := (y 0).isLt
  have hk : (y 1).val < 3 := (y 1).isLt
  obtain ⟨t, ht⟩ : ∃ t : Fin cfg0.N, t.val = (y 0).val / 512 * 16 + 15 := ⟨⟨(y 0).val / 512 * 16 + 15, by omega⟩, rfl⟩
  obtain ⟨-, -, -, -, -, -, ⟨e0, e1⟩⟩ := idx_facts t
  refine ⟨t, (flush0_6 t).mpr (by omega), ?_⟩
  show y ∈ ((View.whole main_v17).slice (win0_6.rect t)).set
  rw [View.set_slice_whole, Rect.mem_set_unit]
  intro a
  match a with
  | ⟨0, _⟩ =>
    show win0_6.index t (0 : Fin 2) * 512 ≤ (y 0).val ∧ (y 0).val < win0_6.index t (0 : Fin 2) * 512 + 512
    rw [e0]; omega
  | ⟨1, _⟩ =>
    show win0_6.index t (1 : Fin 2) * 3 ≤ (y 1).val ∧ (y 1).val < win0_6.index t (1 : Fin 2) * 3 + 3
    rw [e1]; omega

/-- So the result array ends as the whole-array function. -/
theorem stats_eq : (stats m c : FVec Ideal S8192x3 .f32) = total m c :=
  (dats m 0 c).arrAt_eq_of_cover 6 (total m c) (fun t ht => flushed_eq m c t ht) cover

/-- THE RESULT ARRAY: entry `(r, k)` is the `k`-th pair function summed over every partner row. -/
theorem stats_apply (r : Fin 8192) (k : Fin 3) :
    (stats m c : FVec Ideal S8192x3 .f32) (ix2 r k)
      = ∑ q : Fin 8192, HK (fa m c) (cr m c) (st m c) (mt m c) k r q := by
  rw [stats_eq m c]
  rfl

end Cert.KernelIdeal.StatsV

end
-- ==== Proof.KI.Bridge.lean ====
/-
  The pair functions as the kernel computes them are the pair functions of the specification.

  The kernel multiplies the similarity by a constant named as the exact reciprocal of the temperature's binary value, where
  the specification divides by that value: one function on the extended reals. It builds the pair masks as products of
  0/1-valued floats (the line-point mask of each row, and the float form of "the squared distance is between 1e-12 and 1"),
  where the specification takes the conjunction of bits first: the same 0/1 value in each of the eight cases. And it selects
  the squared distance where the positive mask exceeds one half, which is where the positive bit is set.
-/
import proofs.«109491_j86354612453531_1_alg».proof.Proof.KI.TileIdeal
import proofs.«109491_j86354612453531_1_alg».proof.Proof.SpecHost
import Idealize.ShloMosaic.PureOps.IdealRules

noncomputable section

open scoped BigOperators

namespace Cert.KernelIdeal.TileV

open Cert.KernelIdeal Cert.KernelIdeal.Gen Cert.Spec
open Idealize.ShloMosaic Idealize.ShloMosaic.ValueIdx

/-- The `k`-th pair function of the specification. -/
def hSpec (fn : FVec Ideal SNxD .f32) (co : FVec Ideal SNx3 .f32) (sqn : FVec Ideal SN .f32) (mb : IVec SN 1) (k : Fin 3) (r c : Fin 8192) : EReal :=
  match k with
  | ⟨0, _⟩ => h0 fn co sqn mb r c
  | ⟨1, _⟩ => h1 fn co sqn mb r c
  | ⟨2, _⟩ => h2 fn co sqn mb r c

/-- The named constant is the reciprocal of the temperature's binary value. -/
theorem inv_temperature :
    Named.named (F := Ideal) κ "inv_temperature" (φ := .f32) 0x41200000#32 = ((134217728 / 13421773 : ℝ) : EReal) :=
  IdealRules.named_const.ideal_named_scalar _ _ _ _ rfl

/-! ## The float words as extended reals -/

/-- The temperature's word denotes `13421773 / 2^27`. -/
theorem ofBits_temp : Ideal.ofBits .f32 0x3DCCCCCD#32 = ((13421773 / 134217728 : ℝ) : EReal) := by
  simp [Ideal.ofBits, Ideal.ieee, -EReal.coe_mul]; norm_num

/-- The word of `1.0` denotes `1`, -/
theorem ofBits_one : Ideal.ofBits .f32 0x3F800000#32 = 1 := by
  simp [Ideal.ofBits, Ideal.ieee, -EReal.coe_mul]; norm_num

/-- and the word of `0.5` denotes `1/2`. -/
theorem ofBits_half : Ideal.ofBits .f32 0x3F000000#32 = ((1 / 2 : ℝ) : EReal) := by
  simp [Ideal.ofBits, Ideal.ieee, -EReal.coe_mul]; norm_num

/-- Dividing by the temperature's value is multiplying by its reciprocal, on every extended real. -/
theorem div_temp (x : EReal) :
    Ideal.div x (Ideal.ofBits .f32 0x3DCCCCCD#32) = x * ((134217728 / 13421773 : ℝ) : EReal) := by
  rw [ofBits_temp, Ideal.div_coe (by norm_num : (13421773 / 134217728 : ℝ) ≠ 0)]
  congr 2
  norm_num

/-! ## One-bit words as the numbers 0 and 1 -/

/-- The bit `0`, read unsigned, is the number `0`; -/
theorem uitofp_zero : FloatOps.uitofp (F := Ideal) .f32 (0#1) = 0 := by
  show (((0#1 : BitVec 1).toNat : ℝ) : EReal) = 0
  simp

/-- the bit `1` is the number `1`. -/
theorem uitofp_one : FloatOps.uitofp (F := Ideal) .f32 (1#1) = 1 := by
  show (((1#1 : BitVec 1).toNat : ℝ) : EReal) = 1
  simp

/-- Zero-extended to 32 bits and read signed, the bit `0` is the number `0`; -/
theorem sitofp_ext_zero : FloatOps.sitofp (F := Ideal) .f32 ((0#1 : BitVec 1).setWidth 32) = 0 := by
  show ((((0#1 : BitVec 1).setWidth 32).toInt : ℝ) : EReal) = 0
  simp

/-- the bit `1` is the number `1` (the extension is by zeros, so the sign bit is clear). -/
theorem sitofp_ext_one : FloatOps.sitofp (F := Ideal) .f32 ((1#1 : BitVec 1).setWidth 32) = 1 := by
  show ((((1#1 : BitVec 1).setWidth 32).toInt : ℝ) : EReal) = 1
  have : ((1#1 : BitVec 1).setWidth 32).toInt = 1 := by decide
  rw [this]; simp

/-- `1 - 1 = 0` on the extended reals (both finite). -/
theorem one_sub_one : (1 : EReal) - 1 = 0 := by
  rw [← EReal.coe_one, ← EReal.coe_sub]; simp

/-- The product of three 0/1 numbers is the number of the conjunction of their bits: each of the eight cases. -/
theorem mask_pos (a b w : BitVec 1) :
    FloatOps.uitofp (F := Ideal) .f32 a * FloatOps.uitofp (F := Ideal) .f32 b * FloatOps.sitofp (F := Ideal) .f32 (w.setWidth 32)
      = FloatOps.uitofp (F := Ideal) .f32 (IntOp.andi (IntOp.andi a b) w) := by
  rcases BitVec.eq_zero_or_eq_one a with rfl | rfl <;> rcases BitVec.eq_zero_or_eq_one b with rfl | rfl <;>
    rcases BitVec.eq_zero_or_eq_one w with rfl | rfl <;>
    simp only [IntOp.andi, uitofp_zero, uitofp_one, sitofp_ext_zero, sitofp_ext_one, mul_zero, zero_mul, mul_one,
      show (0#1 &&& 0#1 : BitVec 1) = 0#1 from by decide, show (0#1 &&& 1#1 : BitVec 1) = 0#1 from by decide,
      show (1#1 &&& 0#1 : BitVec 1) = 0#1 from by decide, show (1#1 &&& 1#1 : BitVec 1) = 1#1 from by decide]

/-- With the third factor `1 - w`, the number of the conjunction with the complemented bit: each of the eight cases. -/
theorem mask_neg (a b w : BitVec 1) :
    FloatOps.uitofp (F := Ideal) .f32 a * FloatOps.uitofp (F := Ideal) .f32 b
        * (1 - FloatOps.sitofp (F := Ideal) .f32 (w.setWidth 32))
      = FloatOps.uitofp (F := Ideal) .f32 (IntOp.andi (IntOp.andi a b) (~~~ w)) := by
  rcases BitVec.eq_zero_or_eq_one a with rfl | rfl <;> rcases BitVec.eq_zero_or_eq_one b with rfl | rfl <;>
    rcases BitVec.eq_zero_or_eq_one w with rfl | rfl <;>
    simp only [IntOp.andi, uitofp_zero, uitofp_one, sitofp_ext_zero, sitofp_ext_one, mul_zero, zero_mul, mul_one,
      one_sub_one, sub_zero,
      show (~~~ (0#1 : BitVec 1)) = 1#1 from by decide, show (~~~ (1#1 : BitVec 1)) = 0#1 from by decide,
      show (0#1 &&& 0#1 : BitVec 1) = 0#1 from by decide, show (0#1 &&& 1#1 : BitVec 1) = 0#1 from by decide,
      show (1#1 &&& 0#1 : BitVec 1) = 0#1 from by decide, show (1#1 &&& 1#1 : BitVec 1) = 1#1 from by decide]

/-- A 0/1 number exceeds one half exactly where its bit is set: `1/2 < 0` fails and `1/2 < 1` holds. -/
theorem cmp_half (p : BitVec 1) :
    FloatOps.cmpf (F := Ideal) (φ := .f32) .ogt (FloatOps.uitofp (F := Ideal) .f32 p) (Ideal.ofBits .f32 0x3F000000#32) = p := by
  rw [ofBits_half]
  rcases BitVec.eq_zero_or_eq_one p with rfl | rfl
  · rw [uitofp_zero]
    have h : ¬ (((1 / 2 : ℝ) : EReal) < 0) := by
      rw [← EReal.coe_zero, EReal.coe_lt_coe_iff]; norm_num
    show BitVec.ofBool (decide (((1 / 2 : ℝ) : EReal) < 0)) = 0#1
    rw [decide_eq_false h]; rfl
  · rw [uitofp_one]
    have h : (((1 / 2 : ℝ) : EReal) < 1) := by
      rw [← EReal.coe_one, EReal.coe_lt_coe_iff]; norm_num
    show BitVec.ofBool (decide (((1 / 2 : ℝ) : EReal) < 1)) = 1#1
    rw [decide_eq_true h]; rfl

/-! ## The kernel's pieces are the specification's -/

section Pairs
variable (f : FVec Ideal SNxD .f32) (co : FVec Ideal SNx3 .f32) (lab : IVec SN 32)
  (fa : FVec Ideal S8192x64 .bf16) (cr : FVec Ideal S8192x5 .f32) (st mt : FVec Ideal S1x8192 .f32)
  (hfa : ∀ (r : Fin 8192) (k : Fin 64), fa (ix2 r k) = fnOf f (ix2 r k))
  (hcr0 : ∀ (r : Fin 8192) (k : Fin 3), cr (ix2 r (cix k)) = co (ix2 r k))
  (hcr3 : ∀ r : Fin 8192, cr (ix2 r (3 : Fin 5)) = sqnOf co (ix1 r))
  (hcr4 : ∀ r : Fin 8192, cr (ix2 r (4 : Fin 5)) = mfOf lab (ix1 r))
  (hst : ∀ c : Fin 8192, st (ix2 (0 : Fin 1) c) = sqnOf co (ix1 c))
  (hmt : ∀ c : Fin 8192, mt (ix2 (0 : Fin 1) c) = mfOf lab (ix1 c))

include hfa in
/-- The similarity: the same sum of products of normalised features. -/
theorem simK_eq (r c : Fin 8192) : simK fa r c = sim (fnOf f) r c := by
  unfold simK sim
  exact Finset.sum_congr rfl fun k _ => by rw [hfa, hfa]

include hcr0 hcr3 hst in
/-- The clamped squared distance: the same squared norms and the same inner product of coordinates. -/
theorem sqK_eq (r c : Fin 8192) : sqK cr st r c = Spec.sq co (sqnOf co) r c := by
  unfold sqK Spec.sq cdot
  rw [hcr3, hst]
  refine congrArg₂ max (congrArg₂ (· - ·) rfl (congrArg₂ (· * ·) rfl ?_)) rfl
  exact Finset.sum_congr rfl fun k _ => by rw [hcr0, hcr0]

include hcr0 hcr3 hst in
/-- The neighbourhood flag is the number of the specification's bit `1e-12 < sq < 1`. -/
theorem wK_eq (r c : Fin 8192) :
    wK cr st r c = FloatOps.sitofp (F := Ideal) .f32 ((within co (sqnOf co) r c).setWidth 32) := by
  unfold wK within
  rw [sqK_eq co cr st hcr0 hcr3 hst r c]

include hcr4 hmt in
/-- The product of the two rows' mask numbers. -/
theorem pairK_eq (r c : Fin 8192) :
    pairK cr mt r c
      = FloatOps.uitofp (F := Ideal) .f32 (mOf lab (ix1 r)) * FloatOps.uitofp (F := Ideal) .f32 (mOf lab (ix1 c)) := by
  unfold pairK
  rw [hcr4, hmt]
  rfl

include hcr0 hcr3 hcr4 hst hmt in
/-- The positive mask is the number of the positive bit, -/
theorem posK_eq (r c : Fin 8192) :
    posK cr st mt r c = FloatOps.uitofp (F := Ideal) .f32 (pos co (sqnOf co) (mOf lab) r c) := by
  unfold posK pos pair
  rw [pairK_eq lab cr mt hcr4 hmt r c, wK_eq co cr st hcr0 hcr3 hst r c]
  exact mask_pos _ _ _

include hcr0 hcr3 hcr4 hst hmt in
/-- and the negative mask the number of the negative bit. -/
theorem negK_eq (r c : Fin 8192) :
    negK cr st mt r c = FloatOps.uitofp (F := Ideal) .f32 (neg co (sqnOf co) (mOf lab) r c) := by
  unfold negK neg pair
  rw [pairK_eq lab cr mt hcr4 hmt r c, wK_eq co cr st hcr0 hcr3 hst r c, show fOne = (1 : EReal) from ofBits_one]
  exact mask_neg _ _ _

include hfa in
/-- The exponential: the product with the named reciprocal is the quotient by the temperature's value. -/
theorem exK_eq (r c : Fin 8192) : exK fa r c = ex (fnOf f) r c := by
  unfold exK ex
  rw [simK_eq f fa hfa r c, inv_temperature, div_temp]

end Pairs

/-- With the full arrays the kernel's windows stage read off the features `f`, the coordinates `co` and the labels `lab` —
    the normalised features; the coordinate rows with the squared norm and the mask's float form in columns 3 and 4; the
    squared norms and the mask laid out as rows — the kernel's pair functions are the specification's. -/
theorem HK_eq (f : FVec Ideal SNxD .f32) (co : FVec Ideal SNx3 .f32) (lab : IVec SN 32)
    (fa : FVec Ideal S8192x64 .bf16) (cr : FVec Ideal S8192x5 .f32) (st mt : FVec Ideal S1x8192 .f32)
    (hfa : ∀ (r : Fin 8192) (k : Fin 64), fa (ix2 r k) = fnOf f (ix2 r k))
    (hcr0 : ∀ (r : Fin 8192) (k : Fin 3), cr (ix2 r (cix k)) = co (ix2 r k))
    (hcr3 : ∀ r : Fin 8192, cr (ix2 r (3 : Fin 5)) = sqnOf co (ix1 r))
    (hcr4 : ∀ r : Fin 8192, cr (ix2 r (4 : Fin 5)) = mfOf lab (ix1 r))
    (hst : ∀ c : Fin 8192, st (ix2 (0 : Fin 1) c) = sqnOf co (ix1 c))
    (hmt : ∀ c : Fin 8192, mt (ix2 (0 : Fin 1) c) = mfOf lab (ix1 c))
    (k : Fin 3) (r c : Fin 8192) :
    HK fa cr st mt k r c = hSpec (fnOf f) co (sqnOf co) (mOf lab) k r c := by
  match k with
  | ⟨0, _⟩ =>
    show HK0 fa cr st mt r c = h0 (fnOf f) co (sqnOf co) (mOf lab) r c
    unfold HK0 h0
    rw [exK_eq f fa hfa r c, negK_eq co lab cr st mt hcr0 hcr3 hcr4 hst hmt r c]
  | ⟨1, _⟩ =>
    show HK1 fa cr st mt r c = h1 (fnOf f) co (sqnOf co) (mOf lab) r c
    unfold HK1 h1
    rw [exK_eq f fa hfa r c, posK_eq co lab cr st mt hcr0 hcr3 hcr4 hst hmt r c]
  | ⟨2, _⟩ =>
    show HK2 fa cr st mt r c = h2 (fnOf f) co (sqnOf co) (mOf lab) r c
    unfold HK2 h2
    rw [simK_eq f fa hfa r c, posK_eq co lab cr st mt hcr0 hcr3 hcr4 hst hmt r c, cmp_half,
      sqK_eq co cr st hcr0 hcr3 hst r c]

end Cert.KernelIdeal.TileV

end
-- ==== Proof.RefSide.lean ====
/-
  The reference's values, read back from its run one operation at a time.

  Its mask, its normalised features and its squared norms are the shared host functions of the arguments; row `r` of its two
  masked exponential sums is the row sum of the first and second pair function, its continuity total the sum of the third
  over all pairs (each after the sum's initial word, zero); and its result is the shared loss function of those.
-/
import proofs.«109491_j86354612453531_1_alg».proof.Proof.Gen.ReferenceIdeal.Read
import proofs.«109491_j86354612453531_1_alg».proof.Proof.SpecHost

noncomputable section

open scoped BigOperators

namespace Cert.ReferenceIdeal.RefValue

open Cert.ReferenceIdeal Cert.ReferenceIdeal.Gen Cert.ReferenceIdeal.Read Cert.Spec
open Idealize.ShloMosaic Idealize.ShloMosaic.ValueIdx

variable (x0 : FVec Ideal SNxD .f32) (x1 : IVec SN 32) (x2 : FVec Ideal SNx3 .f32)

/-! ### The parts shared with the kernel's program: the same whole-array operations in the same order -/

theorem ref_m : val_main_v1 (F := Ideal) x1 = mOf x1 := rfl

theorem ref_mf : val_main_v2 (F := Ideal) x1 = mfOf x1 := rfl

theorem ref_L : val_main_v3 (F := Ideal) x1 = LOf x1 := rfl

theorem ref_fn : val_main_v8 (F := Ideal) x0 = fnOf x0 := rfl

theorem ref_sqn : val_main_v12 (F := Ideal) x2 = sqnOf x2 := rfl

/-! ### Index equations: where the reference's broadcasts, transposes and contractions read their operands, at a pair of rows -/

theorem lidx10_at (r c : Fin 8192) (k : Fin 64) : lidx_main_v10 (ix2 r c) k = ix2 r k :=
  funext fun a => Fin.ext (by match a with | ⟨0, _⟩ => rfl | ⟨1, _⟩ => rfl)

theorem ridx10_at (r c : Fin 8192) (k : Fin 64) : idx_main_v9 (ridx_main_v10 (ix2 r c) k) = ix2 c k :=
  funext fun a => Fin.ext (by match a with | ⟨0, _⟩ => rfl | ⟨1, _⟩ => rfl)

theorem lidx19_at (r c : Fin 8192) (k : Fin 3) : lidx_main_v19 (ix2 r c) k = ix2 r k :=
  funext fun a => Fin.ext (by match a with | ⟨0, _⟩ => rfl | ⟨1, _⟩ => rfl)

theorem ridx19_at (r c : Fin 8192) (k : Fin 3) : idx_main_v18 (ridx_main_v19 (ix2 r c) k) = ix2 c k :=
  funext fun a => Fin.ext (by match a with | ⟨0, _⟩ => rfl | ⟨1, _⟩ => rfl)

theorem idx_row_f (r c : Fin 8192) : idx_main_v13 (idx_main_v15 (ix2 r c)) = ix1 r :=
  funext fun a => Fin.ext (by match a with | ⟨0, _⟩ => rfl)

theorem idx_col_f (r c : Fin 8192) : idx_main_v14 (idx_main_v16 (ix2 r c)) = ix1 c :=
  funext fun a => Fin.ext (by match a with | ⟨0, _⟩ => rfl)

theorem idx_row_m (r c : Fin 8192) : idx_main_v25 (idx_main_v27 (ix2 r c)) = ix1 r :=
  funext fun a => Fin.ext (by match a with | ⟨0, _⟩ => rfl)

theorem idx_col_m (r c : Fin 8192) : idx_main_v26 (idx_main_v28 (ix2 r c)) = ix1 c :=
  funext fun a => Fin.ext (by match a with | ⟨0, _⟩ => rfl)

theorem idx44_at (r k : Fin 8192) : idx_main_v44 (ix1 r) k = ix2 r k :=
  funext fun a => Fin.ext (by match a with | ⟨0, _⟩ => rfl | ⟨1, _⟩ => rfl)

theorem idx46_at (r k : Fin 8192) : idx_main_v46 (ix1 r) k = ix2 r k :=
  funext fun a => Fin.ext (by match a with | ⟨0, _⟩ => rfl | ⟨1, _⟩ => rfl)

/-! ### The reference's pairwise arrays at a pair of rows -/

/-- The feature product is the cosine similarity of the normalised rows. -/
theorem v10_at (r c : Fin 8192) : val_main_v10 (F := Ideal) x0 (ix2 r c) = sim (fnOf x0) r c := by
  rw [val_main_v10_apply, sim]
  refine Finset.sum_congr rfl fun k _ => ?_
  rw [val_main_v9_apply, lidx10_at, ridx10_at, ref_fn]

/-- The coordinate product is the inner product of the coordinate rows. -/
theorem v19_at (r c : Fin 8192) : val_main_v19 (F := Ideal) x2 (ix2 r c) = cdot x2 r c := by
  rw [val_main_v19_apply, cdot]
  refine Finset.sum_congr rfl fun k _ => ?_
  rw [val_main_v18_apply, lidx19_at, ridx19_at]

/-- The clamped squared distance. -/
theorem v24_at (r c : Fin 8192) : val_main_v24 (F := Ideal) x2 (ix2 r c) = sq x2 (sqnOf x2) r c := by
  rw [val_main_v24_apply, val_main_v22_apply, val_main_v17_apply, val_main_v15_apply, val_main_v13_apply,
    val_main_v16_apply, val_main_v14_apply, val_main_v21_apply, val_main_v20_apply, val_main_v23_apply,
    v19_at, idx_row_f, idx_col_f, ref_sqn]
  rfl

/-- Both rows are line points. -/
theorem v29_at (r c : Fin 8192) : val_main_v29 (F := Ideal) x1 (ix2 r c) = pair (mOf x1) r c := by
  rw [val_main_v29_apply, val_main_v27_apply, val_main_v25_apply, val_main_v28_apply, val_main_v26_apply,
    idx_row_m, idx_col_m, ref_m]
  rfl

/-- The distance window. -/
theorem v34_at (r c : Fin 8192) : val_main_v34 (F := Ideal) x2 (ix2 r c) = within x2 (sqnOf x2) r c := by
  rw [val_main_v34_apply, val_main_v31_apply, val_main_v33_apply, val_main_v30_apply, val_main_v32_apply, v24_at]
  rfl

/-- The positive-pair mask. -/
theorem v35_at (r c : Fin 8192) : val_main_v35 (F := Ideal) x1 x2 (ix2 r c) = pos x2 (sqnOf x2) (mOf x1) r c := by
  rw [val_main_v35_apply, v29_at, v34_at]
  rfl

/-- The negative-pair mask. -/
theorem v37_at (r c : Fin 8192) : val_main_v37 (F := Ideal) x1 x2 (ix2 r c) = neg x2 (sqnOf x2) (mOf x1) r c := by
  rw [val_main_v37_apply, val_main_v36_apply, v29_at, v34_at]
  rfl

/-- The exponential of the similarity over the temperature. -/
theorem v42_at (r c : Fin 8192) : val_main_v42 (F := Ideal) x0 (ix2 r c) = ex (fnOf x0) r c := by
  rw [val_main_v42_apply, val_main_v41_apply, val_main_v40_apply, v10_at]
  rfl

/-- The negative-pair summand. -/
theorem v43_at (r c : Fin 8192) :
    val_main_v43 (F := Ideal) x0 x1 x2 (ix2 r c) = h0 (fnOf x0) x2 (sqnOf x2) (mOf x1) r c := by
  rw [val_main_v43_apply, val_main_v39_apply, v42_at, v37_at]
  rfl

/-- The positive-pair summand. -/
theorem v45_at (r c : Fin 8192) :
    val_main_v45 (F := Ideal) x0 x1 x2 (ix2 r c) = h1 (fnOf x0) x2 (sqnOf x2) (mOf x1) r c := by
  rw [val_main_v45_apply, val_main_v38_apply, v42_at, v35_at]
  rfl

/-- The continuity summand. -/
theorem v63_at (r c : Fin 8192) :
    val_main_v63 (F := Ideal) x0 x1 x2 (ix2 r c) = h2 (fnOf x0) x2 (sqnOf x2) (mOf x1) r c := by
  rw [val_main_v63_apply, val_main_v62_apply, val_main_v61_apply, val_main_v60_apply, val_main_v59_apply,
    val_main_v58_apply, val_main_v57_apply, val_main_call2_v1_apply, val_main_v38_apply, v10_at, v24_at, v35_at]
  rfl

/-- Row `r` of the reference's negative-pair sum. -/
theorem ref_S0 (r : Fin 8192) :
    val_main_v44 (F := Ideal) x0 x1 x2 (ix1 r) = Ideal.ofBits .f32 0x00000000#32 + S0 (fnOf x0) x2 (sqnOf x2) (mOf x1) r := by
  rw [val_main_v44_apply, S0]
  refine congrArg (_ + ·) (Finset.sum_congr rfl fun k _ => ?_)
  rw [idx44_at, v43_at]

/-- Row `r` of the reference's positive-pair sum. -/
theorem ref_S1 (r : Fin 8192) :
    val_main_v46 (F := Ideal) x0 x1 x2 (ix1 r) = Ideal.ofBits .f32 0x00000000#32 + S1 (fnOf x0) x2 (sqnOf x2) (mOf x1) r := by
  rw [val_main_v46_apply, S1]
  refine congrArg (_ + ·) (Finset.sum_congr rfl fun k _ => ?_)
  rw [idx46_at, v45_at]

/-- The reference's continuity total. -/
theorem ref_ct (i : Ssc.Idx) :
    val_main_v64 (F := Ideal) x0 x1 x2 i
      = Ideal.ofBits .f32 0x00000000#32 + ∑ r : Fin 8192, S2 (fnOf x0) x2 (sqnOf x2) (mOf x1) r := by
  rw [val_main_v64_apply, sum_idx2]
  refine congrArg (_ + ·) (Finset.sum_congr rfl fun r _ => ?_)
  rw [S2]
  exact Finset.sum_congr rfl fun c _ => v63_at x0 x1 x2 r c

/-- The reference's result is the shared loss function of its mask, its sums and its total. -/
theorem ref_result :
    val_main_v69 (F := Ideal) x0 x1 x2
      = tail (mOf x1) (mfOf x1) (LOf x1) (val_main_v44 (F := Ideal) x0 x1 x2) (val_main_v46 (F := Ideal) x0 x1 x2) (val_main_v64 (F := Ideal) x0 x1 x2) := rfl

end Cert.ReferenceIdeal.RefValue

end
-- ==== Proof.Assemble.lean ====
/-
  The two programs' results are one extended real.

  Both end in the shared loss function of the line-point mask, the two vectors of row sums and the continuity total. The
  kernel's row sums are columns of its result array: the pair functions in the kernel's form summed over all partner rows,
  which are the specification's pair functions. The reference's are the specification's row sums after the sum's initial word,
  zero. The kernel's total is the sum of its third column, the reference's the sum over all pairs at once: the same double sum.
-/
import proofs.«109491_j86354612453531_1_alg».proof.Proof.KI.HostVals
import proofs.«109491_j86354612453531_1_alg».proof.Proof.KI.Stats
import proofs.«109491_j86354612453531_1_alg».proof.Proof.KI.Bridge
import proofs.«109491_j86354612453531_1_alg».proof.Proof.RefSide
import Idealize.ShloMosaic.PureOps.Ideal.Laws

noncomputable section

open scoped BigOperators

namespace Cert.Proof.Assemble

open Cert.Spec Cert.KernelIdeal.TileV
open Idealize.ShloMosaic Idealize.ShloMosaic.TcCoe Idealize.ShloMosaic.ValueIdx Idealize.SL.Sem

/-- A sum over the one-axis index type is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun j => j 0, ix1, fun j => (eq_ix1 j).symm, fun _ => rfl⟩ _ _ fun j => congrArg f (eq_ix1 j)

variable (x0 : FVec Ideal SNxD .f32) (x1 : IVec SN 32) (x2 : FVec Ideal SNx3 .f32)

/-- Row `r`'s sum of the `k`-th pair function, as a vector over the rows; -/
def sv (k : Fin 3) : FVec Ideal SN .f32 := fun i => ∑ q : Fin 8192, hSpec (fnOf x0) x2 (sqnOf x2) (mOf x1) k (i 0) q
/-- the total of the third. -/
def ctv : FVec Ideal Ssc .f32 := fun _ => ∑ r : Fin 8192, ∑ q : Fin 8192, hSpec (fnOf x0) x2 (sqnOf x2) (mOf x1) 2 r q

/-- The loss as a function of the three arguments. -/
def loss : FVec Ideal Ssc .f32 := tail (mOf x1) (mfOf x1) (LOf x1) (sv x0 x1 x2 0) (sv x0 x1 x2 1) (ctv x0 x1 x2)

/-! ## The reference -/

open Cert.ReferenceIdeal Cert.ReferenceIdeal.Read Cert.ReferenceIdeal.RefValue in
theorem ref_loss : val_main_v69 (F := Ideal) x0 x1 x2 = loss x0 x1 x2 := by
  rw [ref_result]
  unfold loss
  have e0 : val_main_v44 (F := Ideal) x0 x1 x2 = sv x0 x1 x2 0 := funext fun i => by
    obtain ⟨r, rfl⟩ : ∃ r : Fin 8192, i = ix1 r := ⟨i 0, eq_ix1 i⟩
    rw [ref_S0, Ideal.ofBits_zero_f32, zero_add]; rfl
  have e1 : val_main_v46 (F := Ideal) x0 x1 x2 = sv x0 x1 x2 1 := funext fun i => by
    obtain ⟨r, rfl⟩ : ∃ r : Fin 8192, i = ix1 r := ⟨i 0, eq_ix1 i⟩
    rw [ref_S1, Ideal.ofBits_zero_f32, zero_add]; rfl
  have e2 : val_main_v64 (F := Ideal) x0 x1 x2 = ctv x0 x1 x2 := funext fun i => by
    rw [ref_ct, Ideal.ofBits_zero_f32, zero_add]; rfl
  rw [e0, e1, e2]

/-! ## The kernel -/

section Kernel

open Cert.KernelIdeal Cert.KernelIdeal.Gen Cert.KernelIdeal.Hand Cert.KernelIdeal.HostV Cert.KernelIdeal.StatsV

variable (m : (ℓ : Loc Cert.KernelIdeal.nD Cert.KernelIdeal.τ Cert.KernelIdeal.sig) → Buf (Elt Ideal) ℓ) (c : Dev Cert.KernelIdeal.nD)

/-- A column of the kernel's result array is the specification's row sums. -/
theorem col_eq (k : Fin 3) : col m c k = sv (a0 m c) (a1 m c) (a2 m c) k := funext fun i => by
  obtain ⟨r, rfl⟩ : ∃ r : Fin 8192, i = ix1 r := ⟨i 0, eq_ix1 i⟩
  have h2 : (∑ q : Fin 8192, HK (HostV.fa m c) (HostV.cr m c) (HostV.st m c) (HostV.mt m c) k r q : EReal)
      = ∑ q : Fin 8192, hSpec (fnOf (a0 m c)) (a2 m c) (sqnOf (a2 m c)) (mOf (a1 m c)) k r q :=
    Finset.sum_congr rfl fun q _ =>
      HK_eq (a0 m c) (a2 m c) (a1 m c) _ _ _ _ (fa_apply m c) (cr_co m c) (cr_sqn m c) (cr_mf m c) (st_apply m c) (mt_apply m c) k r q
  exact (stats_apply m c r k).trans h2

/-- The sum of its third column is the total over all pairs. -/
theorem ct_eq :
    Host.reduceAdd (col m c 2) (constant Ssc .f32 0x00000000#32) rd_N_0 pos_S0 = ctv (a0 m c) (a1 m c) (a2 m c) := funext fun i => by
  rw [col_eq]
  simp only [Host.reduceAdd, Ideal.hostReduceAdd_def]
  rw [Ideal.hostReduceAdd_total rd_N_0 (fun b => b.elim0) _ _ i, sum_idx1]
  show Ideal.ofBits .f32 0x00000000#32 + _ = _
  rw [Ideal.ofBits_zero_f32, zero_add]
  rfl

/-- The kernel program's result is the loss of the arguments. -/
theorem kernel_loss : (Wfin m c (Proc.devRef .tc main_v39) : FVec Ideal Ssc .f32) = loss (a0 m c) (a1 m c) (a2 m c) := by
  rw [result_eq, col_eq, col_eq, ct_eq]
  rfl

end Kernel

end Cert.Proof.Assemble

end
-- ==== Proof.lean ====
/-
  The certificate: the kernel program runs and leaves its arguments unchanged, at the word level and over the extended
  reals; so does the reference; the idealized kernel names one constant, the reciprocal of the temperature's binary value;
  and over the extended reals the kernel program's result is the reference's.

  Both programs compute, for 8192 points with 64 features, 3 coordinates and a label each, a contrastive loss over the
  points labelled 2: per row, the sums over all partner rows of exp (cosine similarity / temperature) masked to the
  "negative" pairs and to the "positive" pairs (both labelled 2, squared distance strictly between 1e-12 and 1), and the
  total over all pairs of |(1 − similarity) − distance| masked to the positive pairs; then one scalar from those. The
  reference forms the 8192 × 8192 matrices whole. The kernel program tiles them 16 × 16, accumulates each row tile's three
  partial row sums across the sixteen column tiles in a scratch buffer, and writes the accumulator out at the row's last
  column tile; it multiplies the similarity by a constant where the reference divides by the temperature, builds the masks
  as products of 0/1 floats where the reference conjoins bits, and sums the third quantity by rows first. Over the extended
  reals these are the same numbers.
-/
import proofs.«109491_j86354612453531_1_alg».proof.Defs
import proofs.«109491_j86354612453531_1_alg».proof.Proof.Gen.Kernel
import proofs.«109491_j86354612453531_1_alg».proof.Proof.Gen.KernelIdeal
import proofs.«109491_j86354612453531_1_alg».proof.Proof.Gen.ReferenceIdeal
import proofs.«109491_j86354612453531_1_alg».proof.Proof.Gen.Pre_finite_inputs
import proofs.«109491_j86354612453531_1_alg».proof.Proof.Gen.ReferenceIdeal.Run
import proofs.«109491_j86354612453531_1_alg».proof.Proof.K.Args
import proofs.«109491_j86354612453531_1_alg».proof.Proof.KI.Args
import proofs.«109491_j86354612453531_1_alg».proof.Proof.Assemble
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel program runs to the end, nothing faulting, and leaves its three arguments as launched. -/
theorem frame_k : Cert.frame_Kernel (hKernel := Cert.Kernel.Gen.facts) (hPre_finite_inputs := Cert.Pre_finite_inputs.Gen.facts) :=
  fun m ρ _ => (θ_run Cert.Kernel.defs _ _).mono
    (fun _ h c => ⟨(h c).2.1.trans (Cert.Kernel.Hand.arg0_kept m c), (h c).2.2.1.trans (Cert.Kernel.Hand.arg1_kept m c),
      (h c).2.2.2.trans (Cert.Kernel.Hand.arg2_kept m c)⟩)
    (Cert.Kernel.Hand.run_main (F := Bits) m ρ)

/-- So does the idealized kernel program. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono
    (fun _ h c => ⟨(h c).2.1.trans (Cert.KernelIdeal.Hand.arg0_kept m c), (h c).2.2.1.trans (Cert.KernelIdeal.Hand.arg1_kept m c),
      (h c).2.2.2.trans (Cert.KernelIdeal.Hand.arg2_kept m c)⟩)
    (Cert.KernelIdeal.Hand.run_main (F := Ideal) m ρ)

/-- And the reference: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one constant the idealized kernel names: the word of 10.0 read as the reciprocal of the temperature's binary value,
    134217728 / 13421773, which the certificate's table gives the name. -/
theorem preserves : Cert.preserves_Kernel_KernelIdeal :=
  IdealRules.named_const.statement Cert.KernelIdeal.κ "inv_temperature" .f32 0x41200000#32 ((134217728 / 13421773 : ℝ) : EReal) rfl

/-- From memories that agree on the arguments both programs end with the loss of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.Wfin m c (Proc.devRef .tc Cert.KernelIdeal.main_v39), ?_, ?_⟩
  · exact (θ_run Cert.KernelIdeal.defs _ _).mono
      (fun _ h c => ⟨(h c).1, (h c).2.1.trans (Cert.KernelIdeal.Hand.arg0_kept m c), (h c).2.2.1.trans (Cert.KernelIdeal.Hand.arg1_kept m c),
        (h c).2.2.2.trans (Cert.KernelIdeal.Hand.arg2_kept m c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v69_eq, (hagree c).1, (hagree c).2.1, (hagree c).2.2]
    exact (Cert.Proof.Assemble.ref_loss _ _ _).trans (Cert.Proof.Assemble.kernel_loss m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
